-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x2000 : Shape := ⟨3, ![64, 512, 2000]⟩
abbrev S64x512 : Shape := ⟨2, ![64, 512]⟩
abbrev S64 : Shape := ⟨1, ![64]⟩
abbrev S1 : Shape := ⟨1, ![1]⟩
abbrev S_ : Shape := ⟨0, ![]⟩

class Facts : Prop where
  bcast_S_S64x512x2000 : S_.BroadcastsInDim S64x512x2000 (![] : Fin 0 → Fin S64x512x2000.rank)
  reducesTo_S64x512x2000_S_d0_1_2 : S64x512x2000.ReducesTo [0, 1, 2] S_
  h_S_ : 0 < S_.numel
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_arg1 : IVec S64x512 32) (main_arg2 : IVec S64 32) (main_v13 : IVec S_ 1) (main_v15 : IVec S64x512 1) (main_c_5 : IVec S_ 32) : IVec S_ 1 :=
  let main_v16 : IVec S64x512 32 := broadcastInDim S64x512 ![] bcast_S_S64x512 main_c_5
  let main_v17 : IVec S64x512 1 := cmpi .slt main_arg1 main_v16
  let main_v18 : IVec S64x512 1 := andi main_v15 main_v17
  let main_c_6 : IVec S_ 1 := constantI S_ 1 1#1
  let main_v19 : IVec S_ 1 := (fun x v => Host.reduce IntOp.andi x v reducesTo_S64x512_S_d0_1 h_S_) main_v18 main_c_6
  let main_v20 : IVec S_ 1 := andi main_v13 main_v19
  let main_c_7 : IVec S_ 32 := constantI S_ 32 3#32
  let main_v21 : IVec S64 32 := broadcastInDim S64 ![] bcast_S_S64 main_c_7
  let main_v22 : IVec S64 1 := cmpi .sge main_arg2 main_v21
  let main_c_8 : IVec S_ 1 := constantI S_ 1 1#1
  let main_v23 : IVec S_ 1 := (fun x v => Host.reduce IntOp.andi x v reducesTo_S64_S_d0 h_S_) main_v22 main_c_8
  let main_v24 : IVec S_ 1 := andi main_v20 main_v23
  main_v24

def fn {F : FTy → Type} [FloatOps F] (main_arg0 : FVec F S64x512x2000 .f32) (main_arg1 : IVec S64x512 32) (main_arg2 : IVec S64 32) (main_arg3 : FVec F S64 .f32) (main_arg4 : FVec F S1 .f32) : IVec S_ 1 :=
  let main_v0 : FVec F S64x512x2000 .f32 := Host.absf main_arg0
  let main_cst : FVec F S_ .f32 := constant S_ .f32 0x7F800000#32
  let main_v1 : FVec F S64x512x2000 .f32 := broadcastInDim S64x512x2000 ![] bcast_S_S64x512x2000 main_cst
  let main_v2 : IVec S64x512x2000 1 := cmpf .olt main_v0 main_v1
  let main_c : IVec S_ 1 := constantI S_ 1 1#1
  let main_v3 : IVec S_ 1 := (fun x v => Host.reduce IntOp.andi x v reducesTo_S64x512x2000_S_d0_1_2 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S64x512 32 := broadcastInDim S64x512 ![] bcast_S_S64x512 main_c_4
  let main_v15 : IVec S64x512 1 := cmpi .sge main_arg1 main_v14
  let main_c_5 : IVec S_ 32 := constantI S_ 32 2000#32
  fn_part1 (F := F) main_arg1 main_arg2 main_v13 main_v15 main_c_5
-- ==== Kernel.lean ====
abbrev S64x512x2000 : Shape := ⟨3, ![64, 512, 2000]⟩
abbrev S64x512 : Shape := ⟨2, ![64, 512]⟩
abbrev S64 : Shape := ⟨1, ![64]⟩
abbrev S1 : Shape := ⟨1, ![1]⟩
abbrev S64x512x1 : Shape := ⟨3, ![64, 512, 1]⟩
abbrev S64x1x128 : Shape := ⟨3, ![64, 1, 128]⟩
abbrev S1x512x2000 : Shape := ⟨3, ![1, 512, 2000]⟩
abbrev S1x512x1 : Shape := ⟨3, ![1, 512, 1]⟩
abbrev S1x1x128 : Shape := ⟨3, ![1, 1, 128]⟩
abbrev S1x1 : Shape := ⟨2, ![1, 1]⟩
abbrev S1x1x2000 : Shape := ⟨3, ![1, 1, 2000]⟩
abbrev S1x128x2000 : Shape := ⟨3, ![1, 128, 2000]⟩
abbrev S1x128x1 : Shape := ⟨3, ![1, 128, 1]⟩
abbrev S1x128 : Shape := ⟨2, ![1, 128]⟩
abbrev S64x1x1 : Shape := ⟨3, ![64, 1, 1]⟩
abbrev S_ : Shape := ⟨0, ![]⟩

abbrev nBuf : Space → Nat
  | .hbm => 45
  | .vmem => 10
  | .smem => 1
  | _ => 0

abbrev bufTy : (tb : Table) → Fin (tcTables nBuf tb) → BufTy
  | .hbm, ⟨0, _⟩ => ⟨S64x512x2000, .f32⟩
  | .hbm, ⟨1, _⟩ => ⟨S64x512, .i32⟩
  | .hbm, ⟨2, _⟩ => ⟨S64, .f32⟩
  | .hbm, ⟨3, _⟩ => ⟨S1, .f32⟩
  | .hbm, ⟨4, _⟩ => ⟨S64x512x1, .i32⟩
  | .hbm, ⟨5, _⟩ => ⟨S64x1x128, .f32⟩
  | .hbm, ⟨6, _⟩ => ⟨S64x1x128, .f32⟩
  | .hbm, ⟨7, _⟩ => ⟨S64x1x1, .f32⟩
  | .hbm, ⟨8, _⟩ => ⟨S64, .f32⟩
  | .hbm, ⟨9, _⟩ => ⟨S64x1x1, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1x512x2000, .f32⟩
  | .local _ .vmem, ⟨1, _⟩ => ⟨S1x512x2000, .f32⟩
  | .local _ .vmem, ⟨2, _⟩ => ⟨S1x512x1, .i32⟩
  | .local _ .vmem, ⟨3, _⟩ => ⟨S1x512x1, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1, .f32⟩
  | .local _ .vmem, ⟨9, _⟩ => ⟨S1x1, .f32⟩
  | .local _ .smem, ⟨0, _⟩ => ⟨S64, .i32⟩
  | _, _ => ⟨S64x512x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_cst_8 : Ref sig .tc := ⟨.hbm, 35, rfl⟩
abbrev main_v21 : Ref sig .tc := ⟨.hbm, 36, rfl⟩
abbrev main_cst_9 : Ref sig .tc := ⟨.hbm, 37, rfl⟩
abbrev main_v22 : Ref sig .tc := ⟨.hbm, 38, rfl⟩
abbrev main_cst_10 : Ref sig .tc := ⟨.hbm, 39, rfl⟩
abbrev main_v23 : Ref sig .tc := ⟨.hbm, 40, rfl⟩
abbrev main_v24 : Ref sig .tc := ⟨.hbm, 41, rfl⟩
abbrev main_cst_11 : Ref sig .tc := ⟨.hbm, 42, rfl⟩
abbrev main_v25 : Ref sig .tc := ⟨.hbm, 43, rfl⟩
abbrev main_v26 : Ref sig .tc := ⟨.hbm, 44, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512_S64x512x1 : S64x512.ShapeCasts S64x512x1
  numel1_S1 : S1.numel = 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S1x1x2000_d2_w32 : S1x1x2000.Iotas .tc 32 [2]
  inb_S1x512x2000_S1x128x2000_0_0_0 : ∀ a, (![0, 0, 0] : Fin 3 → Nat) a + S1x128x2000.size a ≤ S1x512x2000.size a
  h_S1x128x2000 : 0 < S1x128x2000.numel
  inb_S1x512x1_S1x128x1_0_0_0 : ∀ a, (![0, 0, 0] : Fin 3 → Nat) a + S1x128x1.size a ≤ S1x512x1.size a
  h_S1x128x1 : 0 < S1x128x1.numel
  shapeCasts_S1x128x1_S1x128 : S1x128x1.ShapeCasts S1x128
  reduces_S1x128x2000_S1x128 : S1x128x2000.Reduces [2] S1x128
  shapeCasts_S1x128_S1x128x1 : S1x128.ShapeCasts S1x128x1
  broadcasts_S1x128x1_S1x128x2000 : S1x128x1.Broadcasts S1x128x2000
  broadcasts_S1x1x2000_S1x128x2000 : S1x1x2000.Broadcasts S1x128x2000
  iota_S1x128_d1_w32 : S1x128.Iotas .tc 32 [1]
  natLt_1_32 : 1 < 32
  reduces_S1x128_S1 : S1x128.Reduces [1] S1
  shapeCasts_S1_S1x1 : S1.ShapeCasts S1x1
  inb_S1x512x2000_S1x128x2000_0_128_0 : ∀ a, (![0, 128, 0] : Fin 3 → Nat) a + S1x128x2000.size a ≤ S1x512x2000.size a
  inb_S1x512x1_S1x128x1_0_128_0 : ∀ a, (![0, 128, 0] : Fin 3 → Nat) a + S1x128x1.size a ≤ S1x512x1.size a
  inb_S1x512x2000_S1x128x2000_0_256_0 : ∀ a, (![0, 256, 0] : Fin 3 → Nat) a + S1x128x2000.size a ≤ S1x512x2000.size a
  inb_S1x512x1_S1x128x1_0_256_0 : ∀ a, (![0, 256, 0] : Fin 3 → Nat) a + S1x128x1.size a ≤ S1x512x1.size a
  inb_S1x512x2000_S1x128x2000_0_384_0 : ∀ a, (![0, 384, 0] : Fin 3 → Nat) a + S1x128x2000.size a ≤ S1x512x2000.size a
  inb_S1x512x1_S1x128x1_0_384_0 : ∀ a, (![0, 384, 0] : Fin 3 → Nat) a + S1x128x1.size a ≤ S1x512x1.size a
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  slices_S64x1x128_S64x1x1_0_0_0 : S64x1x128.Slices ![0, 0, 0] S64x1x1
  shapeCasts_S64x1x1_S64 : S64x1x1.ShapeCasts S64
  bcast_S_S64 : S_.BroadcastsInDim S64 (![] : Fin 0 → Fin S64.rank)
  reducesTo_S64_S_d0 : S64.ReducesTo [0] S_
  h_S_ : 0 < S_.numel
  reducesTo_S1_S_d0 : S1.ReducesTo [0] S_
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2000.size a ≤ S64x512x2000.size a
  hwx0_0 : ∀ i : grid0.Coords, EltTy.bits .f32 = 32 ∨ (Rect.block (s := S64x512x2000) S1x512x2000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S64x512x1.size a
  hwx0_1 : ∀ i : grid0.Coords, EltTy.bits .i32 = 32 ∨ (Rect.block (s := S64x512x1) S1x512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S64x1x128.size a
  hwx0_2 : ∀ i : grid0.Coords, EltTy.bits .f32 = 32 ∨ (Rect.block (s := S64x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S64x1x128.size a
  hwx0_3 : ∀ i : grid0.Coords, EltTy.bits .f32 = 32 ∨ (Rect.block (s := S64x1x128) S1x1x128.size (cc0_transform_3 i) (hinb0_3 i)).WholeWords (EltTy.packing .f32)

variable [Facts₀]

abbrev spec0_0 : Pipeline.WinSpec sig grid0.rank :=
  Pipeline.WinSpec.ofSpec (Memref.whole main_arg0) S1x512x2000.size reads0_0 false false 2 stage0_0 sem0_0 nbuf0_0 hstage0_0

abbrev spec0_1 : Pipeline.WinSpec sig grid0.rank :=
  Pipeline.WinSpec.ofSpec (Memref.whole main_v0) S1x512x1.size reads0_1 false false 2 stage0_1 sem0_1 nbuf0_1 hstage0_1

abbrev spec0_2 : Pipeline.WinSpec sig grid0.rank :=
  Pipeline.WinSpec.ofSpec (Memref.whole main_v1_0) S1x1x128.size reads0_2 true false 2 stage0_2 sem0_2 nbuf0_2 hstage0_2

abbrev spec0_3 : Pipeline.WinSpec sig grid0.rank :=
  Pipeline.WinSpec.ofSpec (Memref.whole main_v1_1) S1x1x128.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x512x2000 : Shape := ⟨3, ![64, 512, 2000]⟩
abbrev S64x512 : Shape := ⟨2, ![64, 512]⟩
abbrev S64 : Shape := ⟨1, ![64]⟩
abbrev S1 : Shape := ⟨1, ![1]⟩
abbrev S_ : Shape := ⟨0, ![]⟩
abbrev S512 : Shape := ⟨1, ![512]⟩
abbrev S1x512 : Shape := ⟨2, ![1, 512]⟩
abbrev S64x1 : Shape := ⟨2, ![64, 1]⟩
abbrev S64x512x1 : Shape := ⟨3, ![64, 512, 1]⟩
abbrev S64x512x1x1 : Shape := ⟨4, ![64, 512, 1, 1]⟩
abbrev S1x1x1x1 : Shape := ⟨4, ![1, 1, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S64x512x2000, .f32⟩
  | .hbm, ⟨1, _⟩ => ⟨S64x512, .i32⟩
  | .hbm, ⟨2, _⟩ => ⟨S64, .i32⟩
  | .hbm, ⟨3, _⟩ => ⟨S64, .f32⟩
  | .hbm, ⟨4, _⟩ => ⟨S1, .f32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64, .f32⟩
  | .hbm, ⟨9, _⟩ => ⟨S512, .i32⟩
  | .hbm, ⟨10, _⟩ => ⟨S1x512, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64x1, .i32⟩
  | .hbm, ⟨15, _⟩ => ⟨S64x512, .i32⟩
  | .hbm, ⟨16, _⟩ => ⟨S64x512, .i32⟩
  | .hbm, ⟨17, _⟩ => ⟨S64x512, .i1⟩
  | .hbm, ⟨18, _⟩ => ⟨S64x512, .f32⟩
  | .hbm, ⟨19, _⟩ => ⟨S_, .f32⟩
  | .hbm, ⟨20, _⟩ => ⟨S64x512, .f32⟩
  | .hbm, ⟨21, _⟩ => ⟨S_, .f32⟩
  | .hbm, ⟨22, _⟩ => ⟨S64x512, .f32⟩
  | .hbm, ⟨23, _⟩ => ⟨S64x512, .f32⟩
  | .hbm, ⟨24, _⟩ => ⟨S64x512x1, .f32⟩
  | .hbm, ⟨25, _⟩ => ⟨S64x512x2000, .f32⟩
  | .hbm, ⟨26, _⟩ => ⟨S64x512x2000, .f32⟩
  | .hbm, ⟨27, _⟩ => ⟨S64x512x2000, .f32⟩
  | .hbm, ⟨28, _⟩ => ⟨S_, .f32⟩
  | .hbm, ⟨29, _⟩ => ⟨S64x512, .f32⟩
  | .hbm, ⟨30, _⟩ => ⟨S64x512x1, .f32⟩
  | .hbm, ⟨31, _⟩ => ⟨S64x512x1, .f32⟩
  | .hbm, ⟨32, _⟩ => ⟨S64x512x2000, .f32⟩
  | .hbm, ⟨33, _⟩ => ⟨S64x512x2000, .f32⟩
  | .hbm, ⟨34, _⟩ => ⟨S64x512x1, .i32⟩
  | .hbm, ⟨35, _⟩ => ⟨S_, .i32⟩
  | .hbm, ⟨36, _⟩ => ⟨S64x512x1, .i32⟩
  | .hbm, ⟨37, _⟩ => ⟨S64x512x1, .i1⟩
  | .hbm, ⟨38, _⟩ => ⟨S_, .i32⟩
  | .hbm, ⟨39, _⟩ => ⟨S64x512x1, .i32⟩
  | .hbm, ⟨40, _⟩ => ⟨S64x512x1, .i32⟩
  | .hbm, ⟨41, _⟩ => ⟨S64x512x1, .i32⟩
  | .hbm, ⟨42, _⟩ => ⟨S64x512x1x1, .i32⟩
  | .hbm, ⟨43, _⟩ => ⟨S1, .i32⟩
  | .hbm, ⟨44, _⟩ => ⟨S_, .i32⟩
  | .hbm, ⟨45, _⟩ => ⟨S64x512x1x1, .i32⟩
  | .hbm, ⟨46, _⟩ => ⟨S64x512x1x1, .i1⟩
  | .hbm, ⟨47, _⟩ => ⟨S1x1x1x1, .i32⟩
  | .hbm, ⟨48, _⟩ => ⟨S64x512x1x1, .i32⟩
  | .hbm, ⟨49, _⟩ => ⟨S64x512x1x1, .i1⟩
  | .hbm, ⟨50, _⟩ => ⟨S64x512x1x1, .i1⟩
  | .hbm, ⟨51, _⟩ => ⟨S_, .i1⟩
  | .hbm, ⟨52, _⟩ => ⟨S64x512x1, .i1⟩
  | .hbm, ⟨53, _⟩ => ⟨S64x512x1, .f32⟩
  | .hbm, ⟨54, _⟩ => ⟨S_, .f32⟩
  | .hbm, ⟨55, _⟩ => ⟨S64x512x1, .f32⟩
  | .hbm, ⟨56, _⟩ => ⟨S64x512x1, .f32⟩
  | .hbm, ⟨57, _⟩ => ⟨S64x512, .f32⟩
  | .hbm, ⟨58, _⟩ => ⟨S64x512, .f32⟩
  | .hbm, ⟨59, _⟩ => ⟨S64x512, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .i32⟩
  | .hbm, ⟨69, _⟩ => ⟨S64x512x1, .i32⟩
  | .hbm, ⟨70, _⟩ => ⟨S64x512x1, .i1⟩
  | .hbm, ⟨71, _⟩ => ⟨S_, .i32⟩
  | .hbm, ⟨72, _⟩ => ⟨S64x512x1, .i32⟩
  | .hbm, ⟨73, _⟩ => ⟨S64x512x1, .i32⟩
  | .hbm, ⟨74, _⟩ => ⟨S64x512x1, .i32⟩
  | .hbm, ⟨75, _⟩ => ⟨S64x512x1x1, .i32⟩
  | .hbm, ⟨76, _⟩ => ⟨S1, .i32⟩
  | .hbm, ⟨77, _⟩ => ⟨S_, .i32⟩
  | .hbm, ⟨78, _⟩ => ⟨S64x512x1x1, .i32⟩
  | .hbm, ⟨79, _⟩ => ⟨S64x512x1x1, .i1⟩
  | .hbm, ⟨80, _⟩ => ⟨S1x1x1x1, .i32⟩
  | .hbm, ⟨81, _⟩ => ⟨S64x512x1x1, .i32⟩
  | .hbm, ⟨82, _⟩ => ⟨S64x512x1x1, .i1⟩
  | .hbm, ⟨83, _⟩ => ⟨S64x512x1x1, .i1⟩
  | .hbm, ⟨84, _⟩ => ⟨S_, .i1⟩
  | .hbm, ⟨85, _⟩ => ⟨S64x512x1, .i1⟩
  | .hbm, ⟨86, _⟩ => ⟨S64x512x1, .f32⟩
  | .hbm, ⟨87, _⟩ => ⟨S_, .f32⟩
  | .hbm, ⟨88, _⟩ => ⟨S64x512x1, .f32⟩
  | .hbm, ⟨89, _⟩ => ⟨S64x512x1, .f32⟩
  | .hbm, ⟨90, _⟩ => ⟨S64x512, .f32⟩
  | .hbm, ⟨91, _⟩ => ⟨S64x512, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S64x512x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩
abbrev main_v13 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_cst_1 : Ref sig .tc := ⟨.hbm, 64, rfl⟩
abbrev main_v21 : Ref sig .tc := ⟨.hbm, 65, rfl⟩
abbrev main_cst_2 : Ref sig .tc := ⟨.hbm, 66, rfl⟩
abbrev main_v22 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_cst : Ref sig .tc := ⟨.hbm, 87, rfl⟩
abbrev main_call2_v14 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_cst_3 : Ref sig .tc := ⟨.hbm, 92, rfl⟩
abbrev main_v26 : Ref sig .tc := ⟨.hbm, 93, rfl⟩
abbrev main_v27 : Ref sig .tc := ⟨.hbm, 94, rfl⟩
abbrev main_cst_4 : Ref sig .tc := ⟨.hbm, 95, rfl⟩
abbrev main_v28 : Ref sig .tc := ⟨.hbm, 96, rfl⟩
abbrev main_cst_5 : Ref sig .tc := ⟨.hbm, 97, rfl⟩
abbrev main_v29 : Ref sig .tc := ⟨.hbm, 98, rfl⟩
abbrev main_cst_6 : Ref sig .tc := ⟨.hbm, 99, rfl⟩
abbrev main_v30 : Ref sig .tc := ⟨.hbm, 100, rfl⟩
abbrev main_cst_7 : Ref sig .tc := ⟨.hbm, 101, rfl⟩
abbrev main_v31 : Ref sig .tc := ⟨.hbm, 102, rfl⟩
abbrev main_cst_8 : Ref sig .tc := ⟨.hbm, 103, rfl⟩
abbrev main_v32 : Ref sig .tc := ⟨.hbm, 104, rfl⟩
abbrev main_cst_9 : Ref sig .tc := ⟨.hbm, 105, rfl⟩
abbrev main_v33 : Ref sig .tc := ⟨.hbm, 106, rfl⟩
abbrev main_cst_10 : Ref sig .tc := ⟨.hbm, 107, rfl⟩
abbrev main_v34 : Ref sig .tc := ⟨.hbm, 108, rfl⟩
abbrev main_cst_11 : Ref sig .tc := ⟨.hbm, 109, rfl⟩
abbrev main_v35 : Ref sig .tc := ⟨.hbm, 110, rfl⟩
abbrev main_v36 : Ref sig .tc := ⟨.hbm, 111, rfl⟩
abbrev main_cst_12 : Ref sig .tc := ⟨.hbm, 112, rfl⟩
abbrev main_v37 : Ref sig .tc := ⟨.hbm, 113, rfl⟩
abbrev main_v38 : Ref sig .tc := ⟨.hbm, 114, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S512_S1x512_1 : S512.BroadcastsInDim S1x512 (![1] : Fin 1 → Fin S1x512.rank)
  bcast_S64_S64x1_0 : S64.BroadcastsInDim S64x1 (![0] : Fin 1 → Fin S64x1.rank)
  bcast_S1x512_S64x512_0_1 : S1x512.BroadcastsInDim S64x512 (![0, 1] : Fin 2 → Fin S64x512.rank)
  bcast_S64x1_S64x512_0_1 : S64x1.BroadcastsInDim S64x512 (![0, 1] : Fin 2 → Fin S64x512.rank)
  reducesTo_S64x512x2000_S64x512_d2 : S64x512x2000.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x2000_0_1_2 : S64x512x1.BroadcastsInDim S64x512x2000 (![0, 1, 2] : Fin 3 → Fin S64x512x2000.rank)
  bcast_S_S64x512x1 : S_.BroadcastsInDim S64x512x1 (![] : Fin 0 → Fin S64x512x1.rank)
  shapeCasts_S64x512x1_S64x512x1x1 : S64x512x1.ShapeCasts S64x512x1x1
  bcast_S_S64x512x1x1 : S_.BroadcastsInDim S64x512x1x1 (![] : Fin 0 → Fin S64x512x1x1.rank)
  bcast_S1_S1x1x1x1_3 : S1.BroadcastsInDim S1x1x1x1 (![3] : Fin 1 → Fin S1x1x1x1.rank)
  bcast_S1x1x1x1_S64x512x1x1_0_1_2_3 : S1x1x1x1.BroadcastsInDim S64x512x1x1 (![0, 1, 2, 3] : Fin 4 → Fin S64x512x1x1.rank)
  reducesTo_S64x512x1x1_S64x512x1_d3 : S64x512x1x1.ReducesTo [3] S64x512x1
  shapeCasts_S64x512x1_S64x512 : S64x512x1.ShapeCasts S64x512
  reducesTo_S64x512_S64_d1 : S64x512.ReducesTo [1] S64
  reducesTo_S64_S_d0 : S64.ReducesTo [0] S_
  reducesTo_S1_S_d0 : S1.ReducesTo [0] S_
  gather_S64x512x2000_S64x512x1x1_S64x512x1_n_2_01_01_2_3_111_wf : GatherDims.WF S64x512x2000 S64x512x1x1 S64x512x1 [] [2] [0, 1] [2] [0, 1] 3 ![1, 1, 1]

variable [Facts₀]

def gather_S64x512x2000_S64x512x1x1_S64x512x1_n_2_01_01_2_3_111 : GatherDims S64x512x2000 S64x512x1x1 S64x512x1 where
  offsetDims := []
  collapsedSliceDims := [2]
  operandBatchingDims := [0, 1]
  startIndicesBatchingDims := [0, 1]
  startIndexMap := [2]
  indexVectorDim := 3
  sliceSizes := ![1, 1, 1]
  wf := gather_S64x512x2000_S64x512x1x1_S64x512x1_n_2_01_01_2_3_111_wf

class Facts : Prop extends Facts₀ where

variable [Facts]
-- ==== Proof.RowFns.lean ====
/-
  What one grid point of the kernel computes, as pure functions of what it reads.

  A grid point is one batch row. The body reads the row's word `w` of the length table, forms the threshold
  `w - 2` (32-bit, wrapping), zeroes two one-entry accumulators, and then visits the row's four chunks of 128
  positions: chunk k (rows 128k .. 128k+127 of the block) is visited only when the threshold exceeds 128k, and a
  visited chunk adds to the first accumulator the sum over its positions of  mask · (logsumexp − picked logit)
  and to the second the sum of  mask · picked logit,  where mask says that the position lies below the threshold.
  At the end each accumulator's entry is spread over a 128-lane output block.

  The functions below say this with the printed body's own value terms (its named payloads), as functions of the
  table word and of the four chunk pairs (logits, labels) the body loads; nothing about memory is said here.
-/
import proofs.«426013_j77464030151294_3_alg».proof.Proof.Gen.KernelIdeal.Skeleton

noncomputable section

namespace Cert.KernelIdeal.Row

open Idealize.ShloMosaic Cert.KernelIdeal Cert.KernelIdeal.Gen

variable {F : FTy → Type} [FloatOps F]

/-- The threshold of a row: its table word less two, in 32-bit arithmetic. -/
abbrev thr (w : BitVec 32) : BitVec 32 := Scalar.subi w 2#32

/-- The body visits the chunk starting at position `off` exactly when the threshold exceeds `off` (signed); this is
    the printed guard, word for word. -/
def live (v2 off : BitVec 32) : Prop :=
  Scalar.cmpi .ne (Scalar.extui (Scalar.cmpi .sgt v2 off) : BitVec 32) 0#32 = 1#1

instance (v2 off : BitVec 32) : Decidable (live v2 off) := by unfold live; infer_instance

/-- The class indices 0 .. 1999 along the last axis, which every chunk compares the labels with. -/
abbrev classIota : IVec S1x1x2000 32 := iota .tc S1x1x2000 32 [2] iota_S1x1x2000_d2_w32

/-- The first accumulator after chunk 0, 1, 2, 3 (each from the one before; the start is zero). -/
def ce1 (v2 : BitVec 32) (x0 : Vec F S1x128x2000 .f32) (l0 : Vec F S1x128x1 .i32) : FVec F S1x1 .f32 :=
  if live v2 0#32 then k0_pay4 v2 classIota x0 l0 (k0_pay18 (F := F)) else k0_pay18 (F := F)
def ce2 (v2 : BitVec 32) (x1 : Vec F S1x128x2000 .f32) (l1 : Vec F S1x128x1 .i32) (a : FVec F S1x1 .f32) : FVec F S1x1 .f32 :=
  if live v2 128#32 then k0_pay8 v2 classIota x1 l1 a else a
def ce3 (v2 : BitVec 32) (x2 : Vec F S1x128x2000 .f32) (l2 : Vec F S1x128x1 .i32) (a : FVec F S1x1 .f32) : FVec F S1x1 .f32 :=
  if live v2 256#32 then k0_pay12 v2 classIota x2 l2 a else a
def ce4 (v2 : BitVec 32) (x3 : Vec F S1x128x2000 .f32) (l3 : Vec F S1x128x1 .i32) (a : FVec F S1x1 .f32) : FVec F S1x1 .f32 :=
  if live v2 384#32 then k0_pay16 v2 classIota x3 l3 a else a

/-- The second accumulator after chunk 0, 1, 2, 3. -/
def pro1 (v2 : BitVec 32) (x0 : Vec F S1x128x2000 .f32) (l0 : Vec F S1x128x1 .i32) : FVec F S1x1 .f32 :=
  if live v2 0#32 then k0_pay20 (k0_pay5 v2 classIota x0 l0 (k0_pay19 (F := F))) else k0_pay19 (F := F)
def pro2 (v2 : BitVec 32) (x1 : Vec F S1x128x2000 .f32) (l1 : Vec F S1x128x1 .i32) (a : FVec F S1x1 .f32) : FVec F S1x1 .f32 :=
  if live v2 128#32 then k0_pay21 (k0_pay9 v2 classIota x1 l1 a) else a
def pro3 (v2 : BitVec 32) (x2 : Vec F S1x128x2000 .f32) (l2 : Vec F S1x128x1 .i32) (a : FVec F S1x1 .f32) : FVec F S1x1 .f32 :=
  if live v2 256#32 then k0_pay22 (k0_pay13 v2 classIota x2 l2 a) else a
def pro4 (v2 : BitVec 32) (x3 : Vec F S1x128x2000 .f32) (l3 : Vec F S1x128x1 .i32) (a : FVec F S1x1 .f32) : FVec F S1x1 .f32 :=
  if live v2 384#32 then k0_pay23 (k0_pay17 v2 classIota x3 l3 a) else a

/-- The row's two accumulators after all four chunks, from the table word and the four chunk pairs. -/
def ceAcc (w : BitVec 32) (x0 x1 x2 x3 : Vec F S1x128x2000 .f32) (l0 l1 l2 l3 : Vec F S1x128x1 .i32) : FVec F S1x1 .f32 :=
  ce4 (thr w) x3 l3 (ce3 (thr w) x2 l2 (ce2 (thr w) x1 l1 (ce1 (thr w) x0 l0)))
def proAcc (w : BitVec 32) (x0 x1 x2 x3 : Vec F S1x128x2000 .f32) (l0 l1 l2 l3 : Vec F S1x128x1 .i32) : FVec F S1x1 .f32 :=
  pro4 (thr w) x3 l3 (pro3 (thr w) x2 l2 (pro2 (thr w) x1 l1 (pro1 (thr w) x0 l0)))

/-- The two 128-lane output blocks the body stores: each accumulator's one entry on every lane. -/
def outCe (w : BitVec 32) (x0 x1 x2 x3 : Vec F S1x128x2000 .f32) (l0 l1 l2 l3 : Vec F S1x128x1 .i32) : FVec F S1x1x128 .f32 :=
  k0_pay25 (ceAcc w x0 x1 x2 x3 l0 l1 l2 l3)
def outPro (w : BitVec 32) (x0 x1 x2 x3 : Vec F S1x128x2000 .f32) (l0 l1 l2 l3 : Vec F S1x128x1 .i32) : FVec F S1x1x128 .f32 :=
  k0_pay1 (k0_pay24 (proAcc w x0 x1 x2 x3 l0 l1 l2 l3))

end Cert.KernelIdeal.Row

end
-- ==== Proof.BodyDefs.lean ====
/-
  One grid point in terms of what its staging buffers hold.

  At a grid point the body is handed one row's block of logits (1 x 512 x 2000), the row's block of labels
  (1 x 512 x 1) and the whole length table. It reads the table at the row's own position, and the two blocks through
  four rectangles of 128 positions each, starting at positions 0, 128, 256, 384. The two output blocks it stores are
  the row functions of those eight slices and that word.
-/
import proofs.«426013_j77464030151294_3_alg».proof.Proof.RowFns
import Idealize.ShloMosaic.Lib.Pipeline.FrameBody
import Idealize.ShloMosaic.Lib.ValueIdx

noncomputable section

namespace Cert.KernelIdeal.Row

open Idealize.ShloMosaic Idealize.ShloMosaic.ValueIdx Cert.KernelIdeal Cert.KernelIdeal.Gen

attribute [local instance] Cert.KernelIdeal.Gen.facts

variable {F : FTy → Type} [FloatOps F]

/-- The length table's word for the row at grid point `i`. -/
def tblWord (i : grid0.Coords) (tb : S64.Idx → BitVec 32) : BitVec 32 := tb (ix1 (n := 64) (i 0))

/-- The four slices of 128 positions of a row's block of logits, -/
abbrev xChunk0 (X : S1x512x2000.Idx → Elt F .f32) : Vec F S1x128x2000 .f32 :=
  View.ld X (Rect.unit (s := S1x512x2000) ![0, 0, 0] S1x128x2000.size Facts₀.inb_S1x512x2000_S1x128x2000_0_0_0)
abbrev xChunk1 (X : S1x512x2000.Idx → Elt F .f32) : Vec F S1x128x2000 .f32 :=
  View.ld X (Rect.unit (s := S1x512x2000) ![0, 128, 0] S1x128x2000.size Facts₀.inb_S1x512x2000_S1x128x2000_0_128_0)
abbrev xChunk2 (X : S1x512x2000.Idx → Elt F .f32) : Vec F S1x128x2000 .f32 :=
  View.ld X (Rect.unit (s := S1x512x2000) ![0, 256, 0] S1x128x2000.size Facts₀.inb_S1x512x2000_S1x128x2000_0_256_0)
abbrev xChunk3 (X : S1x512x2000.Idx → Elt F .f32) : Vec F S1x128x2000 .f32 :=
  View.ld X (Rect.unit (s := S1x512x2000) ![0, 384, 0] S1x128x2000.size Facts₀.inb_S1x512x2000_S1x128x2000_0_384_0)

/-- and of its block of labels. -/
abbrev lChunk0 (Lb : S1x512x1.Idx → Elt F .i32) : Vec F S1x128x1 .i32 :=
  View.ld Lb (Rect.unit (s := S1x512x1) ![0, 0, 0] S1x128x1.size Facts₀.inb_S1x512x1_S1x128x1_0_0_0)
abbrev lChunk1 (Lb : S1x512x1.Idx → Elt F .i32) : Vec F S1x128x1 .i32 :=
  View.ld Lb (Rect.unit (s := S1x512x1) ![0, 128, 0] S1x128x1.size Facts₀.inb_S1x512x1_S1x128x1_0_128_0)
abbrev lChunk2 (Lb : S1x512x1.Idx → Elt F .i32) : Vec F S1x128x1 .i32 :=
  View.ld Lb (Rect.unit (s := S1x512x1) ![0, 256, 0] S1x128x1.size Facts₀.inb_S1x512x1_S1x128x1_0_256_0)
abbrev lChunk3 (Lb : S1x512x1.Idx → Elt F .i32) : Vec F S1x128x1 .i32 :=
  View.ld Lb (Rect.unit (s := S1x512x1) ![0, 384, 0] S1x128x1.size Facts₀.inb_S1x512x1_S1x128x1_0_384_0)

/-- The two output blocks of a grid point, from the table word and the two input blocks. -/
def pointCe (w : BitVec 32) (X : S1x512x2000.Idx → Elt F .f32) (Lb : S1x512x1.Idx → Elt F .i32) : FVec F S1x1x128 .f32 :=
  outCe w (xChunk0 X) (xChunk1 X) (xChunk2 X) (xChunk3 X) (lChunk0 Lb) (lChunk1 Lb) (lChunk2 Lb) (lChunk3 Lb)
def pointPro (w : BitVec 32) (X : S1x512x2000.Idx → Elt F .f32) (Lb : S1x512x1.Idx → Elt F .i32) : FVec F S1x1x128 .f32 :=
  outPro w (xChunk0 X) (xChunk1 X) (xChunk2 X) (xChunk3 X) (lChunk0 Lb) (lChunk1 Lb) (lChunk2 Lb) (lChunk3 Lb)

end Cert.KernelIdeal.Row

end
-- ==== Proof.BodyRun.lean ====
/-
  The kernel body's run at one grid point.

  Holding the length table, the two input staging buffers, the two output staging buffers and the two one-entry
  accumulators, the body runs to its return without a fault; the table and the inputs are as they were; each output
  buffer has been overwritten whole, the first with the point's first output block and the second with its second
  (the row functions of the table word and the two input blocks); the accumulators hold something.
  The four guarded chunks are run both ways and joined: whichever way a guard goes, the accumulator read after it is
  the guarded update of the one read before it, which is how the row functions are written.
-/
import proofs.«426013_j77464030151294_3_alg».proof.Proof.BodyDefs
import proofs.«426013_j77464030151294_3_alg».proof.Proof.Gen.KernelIdeal.Launch
import Idealize.ShloMosaic.Lib.Tactic
import Idealize.ShloMosaic.Lib.Pipeline.Kit
import Idealize.ShloMosaic.Lib.Pipeline.Value

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local instance] Cert.KernelIdeal.Gen.facts

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section Cell

variable {sg : RefSig} {κ : Kind} {sp : Space} {S : Shape} {e : EltTy} {Val : EltTy → Type} [∀ e, Nonempty (Val e)]

/-- A buffer whose LAST store went through its whole rectangle reads, through that rectangle, that store's payload,
    whatever was stored before. -/
theorem readAt_writes_cons_unit_zero (v : View sg κ sp S e) {off : Fin S.rank → Nat} (h : off = fun _ => 0)
    (inb : ∀ a, off a + S.size a ≤ S.size a) (f : v.ty.Contents Val) (w : S.Idx → Val e) (L : List (View.Piece Val S e)) :
    v.readAt Val (Rect.unit off S.size inb).toLoadRect
      (v.writes Val f ((⟨Rect.unit off S.size inb, w⟩ : View.Piece Val S e) :: L)) = w := by
  rw [View.readAt_eq_ld, View.read_writes_eq_canon _ _ _ (fun y => ⟨_, List.mem_cons.mpr (Or.inl rfl), View.mem_set_unit_zero h inb y⟩),
    View.canon_cons_unit_zero h, View.ld_unit_zero h]

end Cell

theorem kernelRun (c : Dev nD) (i : grid0.Coords)
    (M2 : Memref sig .tc .vmem S1x512x2000 .f32) (h2 : M2.IsWhole) (M3 : Memref sig .tc .vmem S1x512x1 .i32) (h3 : M3.IsWhole)
    (M4 : Memref sig .tc .vmem S1x1x128 .f32) (h4 : M4.IsWhole) (M5 : Memref sig .tc .vmem S1x1x128 .f32) (h5 : M5.IsWhole)
    (tb : Bf (F := F) c (Memref.whole main_arg2)) (d2 : Bf (F := F) c M2) (d3 : Bf (F := F) c M3) (d4 : Bf (F := F) c M4) (d5 : Bf (F := F) c M5)
    (s6 : Bf (F := F) c (Memref.whole cc0_scratch0)) (s7 : Bf (F := F) c (Memref.whole cc0_scratch1))
    (W : Waits sig Unit) (Q : PUnit → sProp 𝕄) :
    iprop(pt c (Memref.whole main_arg2) tb ∗ pt c M2 d2 ∗ pt c M3 d3 ∗ pt c M4 d4 ∗ pt c M5 d5
        ∗ pt c (Memref.whole cc0_scratch0) s6 ∗ pt c (Memref.whole cc0_scratch1) s7 ∗ owes (c : Thread nD τ) 0 W
        ∗ (iprop(pt c (Memref.whole main_arg2) tb ∗ pt c M2 d2 ∗ pt c M3 d3
              ∗ pt c M4 (M4.view.writes (Elt F) d4 [⟨Rect.unit (s := S1x1x128) ![0, 0, 0] S1x1x128.size Facts₀.inb_S1x1x128_S1x1x128_0_0_0,
                    Row.pointCe (Row.tblWord i ((Memref.whole main_arg2).view.read (Elt F) tb)) (M2.view.read (Elt F) d2) (M3.view.read (Elt F) d3)⟩])
              ∗ pt c M5 (M5.view.writes (Elt F) d5 [⟨Rect.unit (s := S1x1x128) ![0, 0, 0] S1x1x128.size Facts₀.inb_S1x1x128_S1x1x128_0_0_0,
                    Row.pointPro (Row.tblWord i ((Memref.whole main_arg2).view.read (Elt F) tb)) (M2.view.read (Elt F) d2) (M3.view.read (Elt F) d3)⟩])
              ∗ (∃ f, pt c (Memref.whole cc0_scratch0) f) ∗ (∃ f, pt c (Memref.whole cc0_scratch1) f)
              ∗ owes (c : Thread nD τ) 0 W) -∗ Q ⟨⟩))
    ⊢ wp frame (wpE (defs₀ (F := F)) Variants.none c none) Set.univ
        (cc0__ragged_ce_kernel i (Memref.whole main_arg2) (Memref.isWhole_whole _) M2 h2 M3 h3 M4 h4 M5 h5
          (Memref.whole cc0_scratch0) (Memref.isWhole_whole _) (Memref.whole cc0_scratch1) (Memref.isWhole_whole _)) Q := by
  iintro ⟨Ht, H2, H3, H4, H5, H6, H7, HO, Hk⟩
  sl_exec
  have hz : (![0, 0] : Fin 2 → Nat) = fun _ => 0 := by funext a; fin_cases a <;> rfl
  -- The first accumulator. After its zeroing store it reads zero; read after a guarded chunk it is that chunk's update of
  -- the value read before it where the guard holds (the chunk's store went last, through the whole cell), and the value
  -- read before it where the guard fails (the cell is as it was).
  have e0 : kernelRun.sl.v59 (F := F) = k0_pay18 (F := F) := by
    unfold kernelRun.sl.v59 kernelRun.sl.H6_1
    exact View.readCov_unit_zero (S := S1x1) _ hz _ _
  have e1 : kernelRun.sl.v59_1 c i M2 M3 tb d2 d3 s6
      = Row.ce1 (kernelRun.sl.v2 c i tb) (Row.xChunk0 (M2.view.read (Elt F) d2)) (Row.lChunk0 (M3.view.read (Elt F) d3)) := by
    unfold kernelRun.sl.v59_1 kernelRun.sl.H6_1
    by_cases hc : kernelRun.sl.v14 c i tb = 1#1
    · rw [dif_pos hc, readAt_writes_cons_unit_zero (S := S1x1) _ hz, e0]
      unfold Row.ce1
      rw [if_pos (show Row.live (kernelRun.sl.v2 c i tb) 0#32 from hc)]
      rfl
    · rw [dif_neg hc, readAt_writes_cons_unit_zero (S := S1x1) _ hz]
      unfold Row.ce1
      rw [if_neg (show ¬ Row.live (kernelRun.sl.v2 c i tb) 0#32 from hc)]
  have e2 : kernelRun.sl.v59_2 c i M2 M3 tb d2 d3 s6
      = Row.ce2 (kernelRun.sl.v2 c i tb) (Row.xChunk1 (M2.view.read (Elt F) d2)) (Row.lChunk1 (M3.view.read (Elt F) d3))
          (kernelRun.sl.v59_1 c i M2 M3 tb d2 d3 s6) := by
    unfold kernelRun.sl.v59_2
    by_cases hc : kernelRun.sl.v17 c i tb = 1#1
    · rw [dif_pos hc, readAt_writes_cons_unit_zero (S := S1x1) _ hz]
      unfold Row.ce2
      rw [if_pos (show Row.live (kernelRun.sl.v2 c i tb) 128#32 from hc)]
      rfl
    · rw [dif_neg hc]
      unfold Row.ce2
      rw [if_neg (show ¬ Row.live (kernelRun.sl.v2 c i tb) 128#32 from hc)]
      rfl
  have e3 : kernelRun.sl.v59_3 c i M2 M3 tb d2 d3 s6
      = Row.ce3 (kernelRun.sl.v2 c i tb) (Row.xChunk2 (M2.view.read (Elt F) d2)) (Row.lChunk2 (M3.view.read (Elt F) d3))
          (kernelRun.sl.v59_2 c i M2 M3 tb d2 d3 s6) := by
    unfold kernelRun.sl.v59_3
    by_cases hc : kernelRun.sl.v20 c i tb = 1#1
    · rw [dif_pos hc, readAt_writes_cons_unit_zero (S := S1x1) _ hz]
      unfold Row.ce3
      rw [if_pos (show Row.live (kernelRun.sl.v2 c i tb) 256#32 from hc)]
      rfl
    · rw [dif_neg hc]
      unfold Row.ce3
      rw [if_neg (show ¬ Row.live (kernelRun.sl.v2 c i tb) 256#32 from hc)]
      rfl
  have e4 : kernelRun.sl.v24 c i M2 M3 tb d2 d3 s6
      = Row.ce4 (kernelRun.sl.v2 c i tb) (Row.xChunk3 (M2.view.read (Elt F) d2)) (Row.lChunk3 (M3.view.read (Elt F) d3))
          (kernelRun.sl.v59_3 c i M2 M3 tb d2 d3 s6) := by
    unfold kernelRun.sl.v24
    by_cases hc : kernelRun.sl.v23 c i tb = 1#1
    · rw [dif_pos hc, readAt_writes_cons_unit_zero (S := S1x1) _ hz]
      unfold Row.ce4
      rw [if_pos (show Row.live (kernelRun.sl.v2 c i tb) 384#32 from hc)]
      rfl
    · rw [dif_neg hc]
      unfold Row.ce4
      rw [if_neg (show ¬ Row.live (kernelRun.sl.v2 c i tb) 384#32 from hc)]
      rfl
  -- The second accumulator, the same way: the value a chunk stores is its sum added to the value read before it.
  have p0 : kernelRun.sl.v67 (F := F) = k0_pay19 (F := F) := by
    unfold kernelRun.sl.v67 kernelRun.sl.H7_1
    exact View.readCov_unit_zero (S := S1x1) _ hz _ _
  have p1 : kernelRun.sl.v67_1 c i M2 M3 tb d2 d3 s7
      = Row.pro1 (kernelRun.sl.v2 c i tb) (Row.xChunk0 (M2.view.read (Elt F) d2)) (Row.lChunk0 (M3.view.read (Elt F) d3)) := by
    unfold kernelRun.sl.v67_1 kernelRun.sl.H7_1
    by_cases hc : kernelRun.sl.v14 c i tb = 1#1
    · rw [dif_pos hc, readAt_writes_cons_unit_zero (S := S1x1) _ hz]
      unfold kernelRun.sl.r_1
      rw [p0]
      unfold Row.pro1
      rw [if_pos (show Row.live (kernelRun.sl.v2 c i tb) 0#32 from hc)]
      rfl
    · rw [dif_neg hc, readAt_writes_cons_unit_zero (S := S1x1) _ hz]
      unfold Row.pro1
      rw [if_neg (show ¬ Row.live (kernelRun.sl.v2 c i tb) 0#32 from hc)]
  have p2 : kernelRun.sl.v67_2 c i M2 M3 tb d2 d3 s7
      = Row.pro2 (kernelRun.sl.v2 c i tb) (Row.xChunk1 (M2.view.read (Elt F) d2)) (Row.lChunk1 (M3.view.read (Elt F) d3))
          (kernelRun.sl.v67_1 c i M2 M3 tb d2 d3 s7) := by
    unfold kernelRun.sl.v67_2
    by_cases hc : kernelRun.sl.v17 c i tb = 1#1
    · rw [dif_pos hc, readAt_writes_cons_unit_zero (S := S1x1) _ hz]
      unfold kernelRun.sl.r_2 Row.pro2
      rw [if_pos (show Row.live (kernelRun.sl.v2 c i tb) 128#32 from hc)]
      rfl
    · rw [dif_neg hc]
      unfold Row.pro2
      rw [if_neg (show ¬ Row.live (kernelRun.sl.v2 c i tb) 128#32 from hc)]
      rfl
  have p3 : kernelRun.sl.v67_3 c i M2 M3 tb d2 d3 s7
      = Row.pro3 (kernelRun.sl.v2 c i tb) (Row.xChunk2 (M2.view.read (Elt F) d2)) (Row.lChunk2 (M3.view.read (Elt F) d3))
          (kernelRun.sl.v67_2 c i M2 M3 tb d2 d3 s7) := by
    unfold kernelRun.sl.v67_3
    by_cases hc : kernelRun.sl.v20 c i tb = 1#1
    · rw [dif_pos hc, readAt_writes_cons_unit_zero (S := S1x1) _ hz]
      unfold kernelRun.sl.r_3 Row.pro3
      rw [if_pos (show Row.live (kernelRun.sl.v2 c i tb) 256#32 from hc)]
      rfl
    · rw [dif_neg hc]
      unfold Row.pro3
      rw [if_neg (show ¬ Row.live (kernelRun.sl.v2 c i tb) 256#32 from hc)]
      rfl
  have p4 : kernelRun.sl.v26 c i M2 M3 tb d2 d3 s7
      = Row.pro4 (kernelRun.sl.v2 c i tb) (Row.xChunk3 (M2.view.read (Elt F) d2)) (Row.lChunk3 (M3.view.read (Elt F) d3))
          (kernelRun.sl.v67_3 c i M2 M3 tb d2 d3 s7) := by
    unfold kernelRun.sl.v26
    by_cases hc : kernelRun.sl.v23 c i tb = 1#1
    · rw [dif_pos hc, readAt_writes_cons_unit_zero (S := S1x1) _ hz]
      unfold kernelRun.sl.r_4 Row.pro4
      rw [if_pos (show Row.live (kernelRun.sl.v2 c i tb) 384#32 from hc)]
      rfl
    · rw [dif_neg hc]
      unfold Row.pro4
      rw [if_neg (show ¬ Row.live (kernelRun.sl.v2 c i tb) 384#32 from hc)]
      rfl
  -- The table word the body reads is the row's own: the row number is below 64, so its 32-bit word is itself, and the
  -- one-entry rectangle at that offset holds exactly that position.
  have hr : kernelRun.sl.r c i tb = Row.tblWord i ((Memref.whole main_arg2).view.read (Elt F) tb) := by
    unfold kernelRun.sl.r Row.tblWord
    rw [View.readAt_apply]
    refine congrArg _ (funext fun (a : Fin 1) => Fin.ext ?_)
    obtain rfl : a = 0 := Subsingleton.elim _ _
    have hi : ((i 0 : Fin 64) : ℕ) < 64 := (i 0).isLt
    show (BitVec.ofNat 32 (i 0).val).toNat + 1 * 0 = (i 0).val
    rw [BitVec.toNat_ofNat]; omega
  -- so the threshold is the row's threshold,
  have hv2 : kernelRun.sl.v2 c i tb = Row.thr (Row.tblWord i ((Memref.whole main_arg2).view.read (Elt F) tb)) := by
    unfold kernelRun.sl.v2; rw [hr]
  -- and the two blocks stored last are the point's two output blocks.
  have key4 : k0_pay25 (kernelRun.sl.v24 c i M2 M3 tb d2 d3 s6)
      = Row.pointCe (Row.tblWord i ((Memref.whole main_arg2).view.read (Elt F) tb)) (M2.view.read (Elt F) d2) (M3.view.read (Elt F) d3) := by
    rw [e4, e3, e2, e1, hv2]; rfl
  have key5 : k0_pay1 (kernelRun.sl.r_5 c i M2 M3 tb d2 d3 s7)
      = Row.pointPro (Row.tblWord i ((Memref.whole main_arg2).view.read (Elt F) tb)) (M2.view.read (Elt F) d2) (M3.view.read (Elt F) d3) := by
    unfold kernelRun.sl.r_5
    rw [p4, p3, p2, p1, hv2]; rfl
  rw [key4, key5]
  -- The return: every buffer is handed back, the two accumulators at whatever they hold.
  sl_step
  iapply Hk
  isplitl [Ht]; · iexact Ht
  isplitl [H2]; · iexact H2
  isplitl [H3]; · iexact H3
  isplitl [H4]; · iexact H4
  isplitl [H5]; · iexact H5
  isplitl [H6]; · iexists _; iexact H6
  isplitl [H7]; · iexists _; iexact H7
  iexact HO

end Cert.KernelIdeal.Body

end
-- ==== Proof.KData.lean ====
/-
  The pipeline's proof data.

  When the region is entered the label array has been reshaped by the one host operation before it; nothing else has
  changed. At grid point t (one batch row) the two input windows' staging buffers hold row t's blocks of logits and
  labels; the body leaves them in place and overwrites the two output windows' buffers with the row's two output
  blocks, the row functions of the table's word for row t and those two blocks. Between points the invariant is the
  length table, held whole and unchanged, and the scoped buffers no window stages (the two one-entry accumulators),
  at whatever they hold. Nothing is owed to other cores.
-/
import proofs.«426013_j77464030151294_3_alg».proof.Proof.BodyRun
import Idealize.ShloMosaic.Lib.Pipeline.Regions
import Idealize.ShloMosaic.Lib.Pipeline.FrameBody
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local instance] Cert.KernelIdeal.Gen.facts

local notation "𝕄" => MT nD τ sig Unit (Elt F) ℕ (UR sig nD τ) ℕ

variable (m : (ℓ : Loc nD τ sig) → Buf (Elt F) ℓ)

/-- Core `c`'s buffers at launch, as a valuation; -/
abbrev V₀ (c : Dev nD) : Valuation τ sig (Elt F) := fun b => m ((c : Dev nD), b)
/-- and when the region is entered: the reshape of the labels has run. -/
abbrev V (c : Dev nD) (b : Ref sig .tc) : Buf (Elt F) ((c : Thread nD τ).loc b) := StableHlo.after hostOps0 (V₀ m c) b

/-- The length table's contents (the program runs on one device). -/
abbrev tbl : pre0.Contents (Elt F) := fun k => m (((0 : Dev nD) : Thread nD τ).loc (pre0.ref k))

/-- They are admissible: no index map reads the table, so nothing is asked of them. -/
abbrev adm : (p : Fin 1) → (pcfgs (F := F) p).Adm := fun _ => ⟨tbl m, show ok0 (F := F) (tbl m) from (ok0.eq_1 (tbl m)).mpr trivial⟩

/-- The pipeline at those contents. -/
abbrev cfg : Cfg sig Λ₀ := cfg0 (adm m 0)

/-- Window `w`'s block at point `t`, read off its array as the region finds it. -/
def iblk (c : Dev nD) (w : Fin (cfg m).W) (t : Fin (cfg m).N) : (((cfg m).win w).xblock ((cfg m).grid.coords t)).Idx → Elt F ((cfg m).win w).elt :=
  (((cfg m).win w).blk t).view.read (Elt F) (V m c (Pipeline.arrRef spec0 w))

/-- The invariant between points: the table whole at its contents, and the scoped buffers no window stages. -/
def Φc (c : Dev nD) : sProp 𝕄 :=
  iprop(Pipeline.prefHeld (Ix := Unit) (Name := ℕ) (U := UR sig nD τ) (Lvl := ℕ) pre0 c (fun _ => fullShare) (tbl m)
    ∗ Pipeline.scopedRest (Ix := Unit) (Name := ℕ) (U := UR sig nD τ) (Lvl := ℕ) (Val := Elt F) spec0 c)

/-- The proof data on core `c`. -/
def dats (_ : Fin 1) (c : Dev nD) : Dat τ (Elt F) Unit ℕ (UR sig nD τ) ℕ (cfg m) c where
  A w := V m c (Pipeline.arrRef spec0 w)
  after w t := match w with
    | ⟨0, _⟩ => iblk m c 0 t
    | ⟨1, _⟩ => iblk m c 1 t
    | ⟨2, _⟩ => Row.pointCe (Row.tblWord (grid0.coords t) (tbl m 0)) (iblk m c 0 t) (iblk m c 1 t)
    | ⟨3, _⟩ => Row.pointPro (Row.tblWord (grid0.coords t) (tbl m 0)) (iblk m c 0 t) (iblk m c 1 t)
  Φ _ := Φc m c
  q _ := fullShare
  owed _ := 0

theorem A_eq (c : Dev nD) (w : Fin (cfg m).W) : (dats m 0 c).A w = V m c (Pipeline.arrRef spec0 w) := by
  dsimp only [dats]

theorem after_0 (c : Dev nD) (t : Fin (cfg m).N) : (dats m 0 c).after (0 : Fin 4) t = iblk m c 0 t := by
  first | (dsimp only [dats]; done) | rfl
theorem after_1 (c : Dev nD) (t : Fin (cfg m).N) : (dats m 0 c).after (1 : Fin 4) t = iblk m c 1 t := by
  first | (dsimp only [dats]; done) | rfl
theorem after_2 (c : Dev nD) (t : Fin (cfg m).N) :
    (dats m 0 c).after (2 : Fin 4) t = Row.pointCe (Row.tblWord (grid0.coords t) (tbl m 0)) (iblk m c 0 t) (iblk m c 1 t) := by
  first | (dsimp only [dats]; done) | rfl
theorem after_3 (c : Dev nD) (t : Fin (cfg m).N) :
    (dats m 0 c).after (3 : Fin 4) t = Row.pointPro (Row.tblWord (grid0.coords t) (tbl m 0)) (iblk m c 0 t) (iblk m c 1 t) := by
  first | (dsimp only [dats]; done) | rfl

/-- Each input window's current staging buffer holds its block at every point. -/
theorem before_0 (c : Dev nD) (t : Fin (cfg m).N) (d) : (dats m 0 c).before (0 : Fin 4) t d = iblk m c 0 t :=
  ((dats m 0 c).before_in_eq_fetched (0 : Fin 4) rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin (cfg m).N) (d) : (dats m 0 c).before (1 : Fin 4) t d = iblk m c 1 t :=
  ((dats m 0 c).before_in_eq_fetched (1 : Fin 4) rfl (fun _ => rfl) (fun _ _ _ => rfl)
      (fun t => by rw [after_1]; unfold Dat.blockOf iblk; rw [A_eq]; try rfl) t d).trans
    (by unfold Dat.fetched Dat.blockOf iblk; rw [A_eq]; try rfl)

/-- A whole memref owned at contents `X` is its buffer held at some raw contents that read `X`. -/
theorem owns_of_whole {c : Dev nD} {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ (M.view.loc (c : Thread nD τ) ↦{fullShare} f)) := by
  unfold owns; rw [h.set_eq_univ]

/-- The three zero offsets, as the constant-zero function. -/
theorem hz3 : (![0, 0, 0] : Fin 3 → Nat) = fun _ => 0 := by funext a; fin_cases a <;> rfl

/-- The whole rectangle of a 1 x 1 x 128 buffer holds every index: its one piece covers. -/
theorem cover_one (v : S1x1x128.Idx → Elt F .f32) (y : S1x1x128.Idx) :
    ∃ p ∈ ([⟨Rect.unit (s := S1x1x128) ![0, 0, 0] S1x1x128.size Facts₀.inb_S1x1x128_S1x1x128_0_0_0, v⟩] : List (View.Piece (Elt F) S1x1x128 .f32)),
      y ∈ p.1.set :=
  ⟨_, List.mem_singleton_self _, View.mem_set_unit_zero hz3 Facts₀.inb_S1x1x128_S1x1x128_0_0_0 y⟩

/-- One store through the whole rectangle of a 1 x 1 x 128 buffer reads back as what was stored, whatever was there. -/
theorem read_one_write {sp : Space} (M : Memref sig .tc sp S1x1x128 .f32) (g : M.view.ty.Contents (Elt F)) (v : S1x1x128.Idx → Elt F .f32) :
    M.view.read (Elt F) (M.view.writes (Elt F) g
        [⟨Rect.unit (s := S1x1x128) ![0, 0, 0] S1x1x128.size Facts₀.inb_S1x1x128_S1x1x128_0_0_0, v⟩]) = v :=
  (View.read_writes_eq_canon M.view g
      ([⟨Rect.unit (s := S1x1x128) ![0, 0, 0] S1x1x128.size Facts₀.inb_S1x1x128_S1x1x128_0_0_0, v⟩] : List (View.Piece (Elt F) S1x1x128 .f32))
      (cover_one v)).trans
    (View.canon_unit_zero hz3 Facts₀.inb_S1x1x128_S1x1x128_0_0_0 v)

/-- The library's body obligation, at every point. -/
theorem body_obligation (c : Dev nD) : BodyObligation (dats (F := F) m 0 c) (defs₀ (F := F)) Variants.none () Set.univ := fun t => by
  rw [bigSep_W0, bigSep_W0]
  simp only [before_0, before_1]
  rw [after_0, after_1, after_2, after_3]
  rw [show (dats m 0 c).Φ t.castSucc = Φc m c from rfl, show (dats m 0 c).Φ t.succ = Φc m c from rfl]
  unfold Φc Dat.owesAt Pipeline.owesWithin Pipeline.prefHeld
  rw [scopedRest0_eq]
  rw [show (dats m 0 c).owed t.castSucc = 0 from rfl, show (dats m 0 c).owed t.succ = 0 from rfl]
  rw [show (Finset.univ : Finset (Fin pre0.K)) = {(0 : Fin pre0.K)} from rfl, bigSep_singleton]
  unfold owns
  simp only [fun j => (hstage0_0 j).set_eq_univ, fun j => (hstage0_1 j).set_eq_univ, fun j => (hstage0_2 j).set_eq_univ,
    fun j => (hstage0_3 j).set_eq_univ]
  rw [show defs₀ (F := F) Proc.tc 0 (t, (cfg m).slots t)
      = cc0__ragged_ce_kernel (grid0.coords t) (Memref.whole main_arg2) (Memref.isWhole_whole _)
          (stage0_0 ((cfg m).slots t 0)) (hstage0_0 _) (stage0_1 ((cfg m).slots t 1)) (hstage0_1 _)
          (stage0_2 ((cfg m).slots t 2)) (hstage0_2 _) (stage0_3 ((cfg m).slots t 3)) (hstage0_3 _)
          (Memref.whole cc0_scratch0) (Memref.isWhole_whole _) (Memref.whole cc0_scratch1) (Memref.isWhole_whole _) from rfl]
  iintro ⟨⟨Ht, ⟨%f6, H6⟩, ⟨%f7, H7⟩⟩, ⟨%W, %hW, HO⟩, ⟨%d0, %g0, %hg0, H0⟩, ⟨%d1, %g1, %hg1, H1⟩, ⟨%d2, %g2, %hg2, H2⟩, ⟨%d3, %g3, %hg3, H3⟩⟩
  iapply (Body.kernelRun c (grid0.coords t) (stage0_0 ((cfg m).slots t 0)) (hstage0_0 _) (stage0_1 ((cfg m).slots t 1)) (hstage0_1 _)
    (stage0_2 ((cfg m).slots t 2)) (hstage0_2 _) (stage0_3 ((cfg m).slots t 3)) (hstage0_3 _) (tbl m 0) g0 g1 g2 g3 f6 f7 W _)
  isplitl [Ht]; · iexact Ht
  isplitl [H0]; · iexact H0
  isplitl [H1]; · iexact H1
  isplitl [H2]; · iexact H2
  isplitl [H3]; · iexact H3
  isplitl [H6]; · iexact H6
  isplitl [H7]; · iexact H7
  isplitl [HO]; · iexact HO
  iintro ⟨Ht, H0, H1, H2, H3, ⟨%f6', H6⟩, ⟨%f7', H7⟩, HO⟩
  isplitl [Ht H6 H7]
  · isplitl [Ht]; · iexact Ht
    isplitl [H6]; · iexists f6'; iexact H6
    iexists f7'; iexact H7
  isplitl [HO]
  · iexists W; isplitr; · ipureintro; exact fun _ _ => Or.inl trivial
    iexact HO
  isplitl [H0]
  · iexists g0; isplitr; · ipureintro; exact hg0
    iexact H0
  isplitl [H1]
  · iexists g1; isplitr; · ipureintro; exact hg1
    iexact H1
  isplitl [H2]
  · iexists _; isplitr; swap; · iexact H2
    ipureintro
    refine (read_one_write _ g2 _).trans ?_
    rw [hg0, hg1]
    rfl
  · iexists _; isplitr; swap; · iexact H3
    ipureintro
    refine (read_one_write _ g3 _).trans ?_
    rw [hg0, hg1]
    rfl

end Cert.KernelIdeal.Run

end
-- ==== Proof.KLaunch.lean ====
/-
  The kernel program's run.

  @main is one host operation (the labels reshaped), the kernel region, and thirty-eight host operations. Between
  these the core holds all its unscoped buffers at a valuation: as launched; then with the reshape's result; through the
  region the four windows' arrays go to the pipeline, the length table to the pipeline's invariant (whole, so that the
  closing operations, which read it again, find it as launched) and every other buffer passes by untouched; after the
  region the two result arrays hold what the write-backs left and everything else is as before; the closing
  operations then run on that valuation. Every weakly fair execution terminates and every unscoped buffer ends at
  the valuation so computed.
-/
import proofs.«426013_j77464030151294_3_alg».proof.Proof.KData

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local instance] Cert.KernelIdeal.Gen.facts

local notation "𝕄" => MT nD τ sig Unit (Elt F) ℕ (UR sig nD τ) ℕ

variable (m : (ℓ : Loc nD τ sig) → Buf (Elt F) ℓ) (ρ : Dev nD → PrngReg)

/-- The pipeline library's algebra is the certificate's whole algebra. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0

/-- What rides beside the buffers: the core owing nothing. -/
abbrev R (c : Dev nD) : sProp 𝕄 := iprop(∃ W, owes (c : Thread nD τ) (0 : CellTallies nD τ sig Unit) W)

/-- The valuation when the region is entered, -/
abbrev V1 (c : Dev nD) : Valuation τ sig (Elt F) := StableHlo.after hostOps0 (V₀ m c)
/-- when it is left: the windows' arrays at what the write-backs left, -/
abbrev V2 (c : Dev nD) : Valuation τ sig (Elt F) :=
  Pipeline.withArrays spec0 c (V1 m c) (fun w => (dats m 0 c).arrAt w (cfg m).N)
/-- and at the end. -/
abbrev V3 (c : Dev nD) : Valuation τ sig (Elt F) := StableHlo.after hostOps1 (V2 m c)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The host operation before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (V₀ m) R

/-- The host operations after it, over the same buffers (the length table among them). -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) fresh1 (V2 m) R

/-- The one host operation before the region writes the reshaped labels only: the length table is as launched. -/
theorem V1_tbl (c : Dev nD) (k : Fin pre0.K) : V1 m c (Proc.devRef .tc (pre0.ref k)) = V₀ m c (Proc.devRef .tc (pre0.ref k)) := by
  obtain rfl : k = 0 := Subsingleton.elim _ _
  unfold V1
  after_results

/-- The program runs on one device. -/
theorem dev_eq_zero (c : Dev nD) : c = 0 := Subsingleton.elim _ _

/-- The region-entry valuation with the windows' arrays replaced by any contents `Ff`, as a function on the TensorCore's
    references. -/
abbrev Wf (c : Dev nD) (Ff : (w : Fin 4) → Buf (Elt F) ((spec0 w).arr.view.loc (c : Thread nD τ))) (b : Ref sig .tc) :
    Buf (Elt F) ((c : Thread nD τ).loc b) := Pipeline.withArrays spec0 c (V1 m c) Ff b

/-- The unscoped buffers held at the region-entry valuation with the windows' arrays replaced by `Ff` are those arrays at
    `Ff`, the length table as launched, and the rest as the region found it: a window's array takes the new contents,
    every other buffer keeps what it held, and the table is no window's array and is not written by the reshape. -/
theorem held_with (c : Dev nD) (Ff : (w : Fin 4) → Buf (Elt F) ((spec0 w).arr.view.loc (c : Thread nD τ))) :
    (StableHlo.held (c : Thread nD τ) (Pipeline.ucRefs τ sig) (Pipeline.withArrays spec0 c (V1 m c) Ff) : sProp 𝕄)
      = iprop((bigSep Finset.univ fun w : Fin 4 => ((c : Thread nD τ).loc (Pipeline.arrRef spec0 w)) ↦{fullShare} Ff w)
          ∗ Pipeline.prefHeld (Ix := Unit) (Name := ℕ) (U := UR sig nD τ) (Lvl := ℕ) pre0 c (fun _ => fullShare) (tbl m)
          ∗ Pipeline.unscopedRestP (Ix := Unit) (Name := ℕ) (U := UR sig nD τ) (Lvl := ℕ) pre0 spec0 c (V m c)) := by
  obtain rfl := dev_eq_zero c
  have e1 : (unscopedBufs (0 : Dev nD) (Wf m 0 Ff) : sProp 𝕄)
      = StableHlo.held (((0 : Dev nD) : Dev nD) : Thread nD τ) (Pipeline.ucRefs τ sig) (Pipeline.withArrays spec0 (0 : Dev nD) (V1 m 0) Ff) :=
    Pipeline.unscopedBufs_held (0 : Dev nD) (Pipeline.withArrays spec0 (0 : Dev nD) (V1 m 0) Ff)
  have e2 : (unscopedBufs (0 : Dev nD) (Wf m 0 Ff) : sProp 𝕄)
      = iprop((bigSep Finset.univ fun w : Fin 4 => ((((0 : Dev nD) : Dev nD) : Thread nD τ).loc (Pipeline.arrRef spec0 w)) ↦{fullShare} Wf m 0 Ff (Pipeline.arrRef spec0 w))
          ∗ Pipeline.unscopedRest spec0 (0 : Dev nD) (Wf m 0 Ff)) :=
    Pipeline.unscopedBufs_split (Pipeline.pin (pcfgs (F := F)) (adm m)) 0 (launch0 (F := F)).win.arr_unscoped (launch0 (F := F)).win.arr_inj (0 : Dev nD) (Wf m 0 Ff)
  have e3 : (Pipeline.unscopedRest spec0 (0 : Dev nD) (Wf m 0 Ff) : sProp 𝕄)
      = iprop(Pipeline.prefHeld pre0 (0 : Dev nD) (fun _ => fullShare) (fun k => Wf m 0 Ff (pre0.ref k)) ∗ Pipeline.unscopedRestP pre0 spec0 (0 : Dev nD) (Wf m 0 Ff)) :=
    Pipeline.unscopedRest_split (launch0 (F := F)).pre (0 : Dev nD) (Wf m 0 Ff)
  rw [← e1, e2, e3]
  refine congrArg₂ (fun A B : sProp 𝕄 => iprop(A ∗ B)) (bigSep_congr fun w _ => ?_)
    (congrArg₂ (fun A B : sProp 𝕄 => iprop(A ∗ B)) (bigSep_congr fun k _ => ?_) (bigSep_congr fun b hb => ?_))
  · exact congrArg (fun v => ((((((0 : Dev nD) : Dev nD) : Thread nD τ).loc (Pipeline.arrRef spec0 w)) ↦{fullShare} v) : sProp 𝕄))
      (Pipeline.withArrays_arr spec0 (launch0 (F := F)).win.arr_inj (0 : Dev nD) (V1 m 0) Ff w)
  · exact congrArg (fun v => ((((((0 : Dev nD) : Dev nD) : Thread nD τ).loc (pre0.ref k)) ↦{fullShare} v) : sProp 𝕄))
      ((Pipeline.withArrays_of_ne spec0 (0 : Dev nD) (V1 m 0) Ff (pre0.ref k) (fun w h => (launch0 (F := F)).pre.disj k w h.symm)).trans (V1_tbl m 0 k))
  · exact congrArg (fun v => ((((((0 : Dev nD) : Dev nD) : Thread nD τ).loc b) ↦{fullShare} v) : sProp 𝕄))
      (Pipeline.withArrays_of_ne spec0 (0 : Dev nD) (V1 m 0) Ff b
        (fun w h => (Finset.mem_sdiff.mp (Finset.mem_sdiff.mp hb).1).2 (Finset.mem_image.mpr ⟨w, Finset.mem_univ _, h⟩)))

/-- The proof data's arrays at any contents are the four arrays' buffers held whole at them. -/
theorem arrays_pts (c : Dev nD) (Ff : (w : Fin 4) → Buf (Elt F) ((spec0 w).arr.view.loc (c : Thread nD τ))) :
    ((dats m 0 c).arrays Ff : sProp 𝕄)
      = bigSep Finset.univ fun w : Fin 4 => ((c : Thread nD τ).loc (Pipeline.arrRef spec0 w)) ↦{fullShare} Ff w :=
  Pipeline.arrays_eq (Pipeline.pin (pcfgs (F := F)) (adm m)) (dats m) 0 c (launch0 (F := F)).arr_whole ((dats m 0 c).share_full fun _ => rfl) Ff

/-- The kernel has no semaphore of its own. -/
abbrev osem : Fin 0 → SemLoc sig := fun k => k.elim0

/-- THE REGION. -/
def reg0 : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 0
  osem := osem
  ho := ⟨fun k => k.elim0, fun k => k.elim0, fun k => k.elim0⟩
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(emp)
  Y c := Pipeline.prefHeld (Ix := Unit) (Name := ℕ) (U := UR sig nD τ) (Lvl := ℕ) pre0 c (fun _ => fullShare) (tbl m)
  Z c := Pipeline.unscopedRestP (Ix := Unit) (Name := ℕ) (U := UR sig nD τ) (Lvl := ℕ) pre0 spec0 c (V m c)
  hentry c := by
    obtain rfl := dev_eq_zero c
    rw [show StableHlo.held (((0 : Dev nD) : Dev nD) : Thread nD τ) (Pipeline.ucRefs τ sig) (V1 m 0) = unscopedBufs (0 : Dev nD) (V m 0)
      from (Pipeline.unscopedBufs_held (0 : Dev nD) _).symm]
    have hsplit := (Pipeline.arrays_of_unscopedBufs (pcfgs (F := F)) (adm m) (dats m) (launch0 (F := F)).win (launch0 (F := F)).arr_whole (0 : Dev nD)
      ((dats m 0 0).share_full fun _ => rfl) (V m 0) fun _ => rfl).trans
        (sep_mono .rfl (Entails.of_eq (Pipeline.unscopedRest_split (launch0 (F := F)).pre (0 : Dev nD) (V m 0))))
    iintro ⟨⟨Hub, HO⟩, -, -⟩
    ihave H := hsplit $$ Hub
    icases H with ⟨Ha, Hp, Hz⟩
    imodintro
    isplitl [Ha]; · iexact Ha
    isplitl [Hp]
    · rw [show (fun k => V m 0 (pre0.ref k)) = tbl m from funext fun k => V1_tbl m 0 k]
      iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = Φc m c from rfl]; unfold Φc
    iintro ⟨-, Hp, Hr⟩
    isplitl [Hp] <;> iassumption
  hout c := by
    rw [show (dats m 0 c).Φ (Fin.last (cfg m).N) = Φc m c from rfl]; unfold Φc Pipeline.ownSems0
    rw [show (Finset.univ : Finset (Fin 0)) = ∅ from rfl, BI.bigSep_empty]
    iintro ⟨Hp, Hr⟩
    isplitl [Hp]; · iexact Hp
    isplitr; · iempintro
    iexact Hr
  hexit c := by
    rw [show StableHlo.held (c : Thread nD τ) (Pipeline.ucRefs τ sig) (V2 m c)
        = StableHlo.held (c : Thread nD τ) (Pipeline.ucRefs τ sig) (Pipeline.withArrays spec0 c (V1 m c) (fun w => (dats m 0 c).arrAt w (cfg m).N)) from rfl,
      held_with m c (fun w => (dats m 0 c).arrAt w (cfg m).N), arrays_pts m c]
    iintro ⟨Ha, HO, Hp, Hz⟩
    imodintro
    isplitr [HO]
    · isplitl [Ha]; · iexact Ha
      isplitl [Hp] <;> iassumption
    · unfold Pipeline.Dat.owesAt Pipeline.owesWithin
      icases HO with ⟨%W, -, HO⟩; iexists W; iexact HO

/-- @main as the list of the three. -/
abbrev segs : List (Pipeline.Seg (pcfgs (F := F)) (adm m) (dats m) () defs₀ 𝒱₀ L lv) := [.host (seg0 m), .region (reg0 m), .host (seg1 m)]

set_option backward.isDefEq.respectTransparency.types false in
/-- Every weakly fair execution of @main terminates, and every unscoped buffer of the core ends at the valuation
    computed above. -/
theorem run_main : θ_run defs (onTc (τ := τ) (main (F := F))) ⟨m, fun _ => 0, ρ⟩
    (fun r => ∀ c : Dev nD, ∀ b ∈ Pipeline.ucRefs τ sig, r.2.mem ((c : Dev nD), b) = V3 m c b) :=
  Pipeline.θ_run_regions_kit (pcfgs (F := F)) (adm m) (dats m) () (cellOf_inj (adm m)) EP defs₀ 𝒱₀ L lv m ρ main (segs m)
    (fun c Q => by rw [main_segs (adm m) (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      rw [ownU_emb₁]
      iintro H
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = V3 m c b)
    (hfin := fun c s' => by
      have hread := pointsTo_read_all (Ix := Unit) (Name := ℕ) (U := UR sig nD τ) (Lvl := ℕ) (Val := Elt F)
        (Pipeline.ucRefs τ sig) (fun b => ((c : Thread nD τ).1, b)) (fun b => V3 m c b) s' fullShare
      unfold StableHlo.held
      refine hread.trans ?_
      iintro ⟨%hr, HSI⟩
      imodintro
      isplitr; · ipureintro; exact hr
      iexact HSI)
    (hQ := fun _ h => h)

end Cert.KernelIdeal.Run

end
-- ==== Proof.KFrame.lean ====
/-
  The kernel program leaves its arguments as it found them.

  The logits are an input window's array: the pipeline never writes an input's array, so after the region it holds
  what it held at entry, which the reshape before the region had not touched. The labels, the length table and the
  two loss vectors are no window's array; the region passes them by, and neither the reshape nor the closing
  operations write them.
-/
import proofs.«426013_j77464030151294_3_alg».proof.Proof.KLaunch

set_option maxRecDepth 16384

noncomputable section

namespace Cert.KernelIdeal.Run

open Cert.KernelIdeal Cert.KernelIdeal.Gen
open Idealize.ShloMosaic Idealize.ShloMosaic.TcCoe Idealize.ShloMosaic.StableHlo
open Idealize.SL.Sem
open Idealize.ShloMosaic.Pipeline (Dat Cfg Window)

variable {F : FTy → Type} [FloatOps F]

attribute [local instance] Cert.KernelIdeal.Gen.facts

variable (m : (ℓ : Loc nD τ sig) → Buf (Elt F) ℓ) (ρ : Dev nD → PrngReg)

/-- The closing operations write none of the five arguments, -/
theorem tail_kept (V : Valuation τ sig (Elt F)) :
    StableHlo.after (hostOps1 (F := F)) V (Proc.devRef .tc main_arg0) = V (Proc.devRef .tc main_arg0)
    ∧ StableHlo.after (hostOps1 (F := F)) V (Proc.devRef .tc main_arg1) = V (Proc.devRef .tc main_arg1)
    ∧ StableHlo.after (hostOps1 (F := F)) V (Proc.devRef .tc main_arg2) = V (Proc.devRef .tc main_arg2)
    ∧ StableHlo.after (hostOps1 (F := F)) V (Proc.devRef .tc main_arg3) = V (Proc.devRef .tc main_arg3)
    ∧ StableHlo.after (hostOps1 (F := F)) V (Proc.devRef .tc main_arg4) = V (Proc.devRef .tc main_arg4) := by
  refine ⟨?_, ?_, ?_, ?_, ?_⟩ <;> after_results

/-- nor does the reshape before the region. -/
theorem head_kept (V : Valuation τ sig (Elt F)) :
    StableHlo.after (hostOps0 (F := F)) V (Proc.devRef .tc main_arg0) = V (Proc.devRef .tc main_arg0)
    ∧ StableHlo.after (hostOps0 (F := F)) V (Proc.devRef .tc main_arg1) = V (Proc.devRef .tc main_arg1)
    ∧ StableHlo.after (hostOps0 (F := F)) V (Proc.devRef .tc main_arg2) = V (Proc.devRef .tc main_arg2)
    ∧ StableHlo.after (hostOps0 (F := F)) V (Proc.devRef .tc main_arg3) = V (Proc.devRef .tc main_arg3)
    ∧ StableHlo.after (hostOps0 (F := F)) V (Proc.devRef .tc main_arg4) = V (Proc.devRef .tc main_arg4) := by
  refine ⟨?_, ?_, ?_, ?_, ?_⟩ <;> after_results

/-- Through the region a buffer that is no window's array keeps its contents; -/
theorem V2_other (c : Dev nD) (b : Ref sig .tc) (hb : ∀ w, Pipeline.arrRef spec0 w ≠ b) :
    V2 m c (Proc.devRef .tc b) = V1 m c (Proc.devRef .tc b) :=
  Pipeline.withArrays_of_ne spec0 c (V1 m c) (fun w => (dats m 0 c).arrAt w (cfg m).N) b hb

/-- the logits' array, an input window's, ends the region as it entered it. -/
theorem V2_arg0 (c : Dev nD) : V2 m c (Proc.devRef .tc main_arg0) = V1 m c (Proc.devRef .tc main_arg0) :=
  (Pipeline.withArrays_arr spec0 (launch0 (F := F)).win.arr_inj c (V1 m c) (fun w => (dats m 0 c).arrAt w (cfg m).N) (0 : Fin 4)).trans
    ((dats m 0 c).arrAt_in (0 : Fin 4) rfl _)

/-- An unscoped buffer of the TensorCore is among the buffers the run accounts for. -/
theorem mem_uc (b : Ref sig .tc) (hb : (Proc.devRef (τ := τ) .tc b).isScoped = false) :
    Proc.devRef (τ := τ) .tc b ∈ Pipeline.ucRefs τ sig :=
  Finset.mem_filter.mpr ⟨StableHlo.devRef_mem_tcRefs b, by rw [hb]; exact Bool.false_ne_true⟩

/-- The frame: every weakly fair execution terminates, nothing faulting, and the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    have hk := tail_kept (F := F) (V2 m c)
    have hh := head_kept (F := F) (V₀ m c)
    refine ⟨?_, ?_, ?_, ?_, ?_⟩
    · exact (h c _ (mem_uc main_arg0 rfl)).trans (hk.1.trans ((V2_arg0 m c).trans hh.1))
    · exact (h c _ (mem_uc main_arg1 rfl)).trans (hk.2.1.trans ((V2_other m c main_arg1 (by decide)).trans hh.2.1))
    · exact (h c _ (mem_uc main_arg2 rfl)).trans (hk.2.2.1.trans ((V2_other m c main_arg2 (by decide)).trans hh.2.2.1))
    · exact (h c _ (mem_uc main_arg3 rfl)).trans (hk.2.2.2.1.trans ((V2_other m c main_arg3 (by decide)).trans hh.2.2.2.1))
    · exact (h c _ (mem_uc main_arg4 rfl)).trans (hk.2.2.2.2.trans ((V2_other m c main_arg4 (by decide)).trans hh.2.2.2.2)))
    (run_main m ρ)

end Cert.KernelIdeal.Run

end
-- ==== Proof.Spec.lean ====
/-
  The function both programs compute, over the real numbers.

  Inputs: logits x[b, s, v] (64 rows, 512 positions, 2000 classes), a class label[b, s] in 0 .. 1999, a threshold
  thr[b] = sequence_len[b] − 2 (an integer ≥ 1 under the certificate's precondition), and two vectors g (64 entries)
  and u (one entry).

  For a position, the negative log-likelihood of its label is  (M + log Σ_v exp (x_v − M)) − x_label  with M the
  position's largest logit (the shift by M changes nothing over the reals; both programs make it). A position counts
  when it lies below the row's threshold. Per row:
      ce[b]  = Σ_s [s < thr b] · nll[b, s],        pro[b] = Σ_s [s < thr b] · x[b, s, label[b, s]].
  The three results are
      rec  = (Σ_b ce[b] / thr b / thr b) / 64,      avg  = (Σ_b pro[b] / thr b) / 64,
      loss = c₁ · rec + c₂ · ((Σ_b g b) / 64) + c₃ · ((Σ u) / 1)
  where c₁, c₂, c₃ are the three float literals both programs carry (kept abstract here).
-/
import Mathlib.Analysis.SpecialFunctions.Log.Basic
import Mathlib.Analysis.SpecialFunctions.Exp
import Mathlib.Algebra.BigOperators.Fin
import Mathlib.Order.Fin.Basic
import Mathlib.Data.Finset.Lattice.Fold

noncomputable section

namespace Cert.Spec

open scoped BigOperators

/-- The largest of the 2000 logits of one position. -/
def rowMax (f : Fin 2000 → ℝ) : ℝ := Finset.univ.sup' Finset.univ_nonempty f

/-- The negative log-likelihood of class `k` at a position with logits `f`, computed with the shift by the maximum. -/
def nll (f : Fin 2000 → ℝ) (k : Fin 2000) : ℝ :=
  (rowMax f + Real.log (∑ v, Real.exp (f v - rowMax f))) - f k

/-- Whether position `s` lies below the threshold, as 1 or 0. -/
def mask (thr : ℤ) (s : ℕ) : ℝ := if (s : ℤ) < thr then 1 else 0

/-- The masked sum of negative log-likelihoods over the positions `s = off + r`, `r < n`, of one row. -/
def ceSpan (n : ℕ) (off : ℕ) (f : Fin n → Fin 2000 → ℝ) (lab : Fin n → Fin 2000) (thr : ℤ) : ℝ :=
  ∑ r : Fin n, mask thr (off + r.val) * nll (f r) (lab r)

/-- The masked sum of the labels' logits over the same positions. -/
def proSpan (n : ℕ) (off : ℕ) (f : Fin n → Fin 2000 → ℝ) (lab : Fin n → Fin 2000) (thr : ℤ) : ℝ :=
  ∑ r : Fin n, mask thr (off + r.val) * f r (lab r)

/-- One row's two sums over all 512 positions. -/
def ceRow (f : Fin 512 → Fin 2000 → ℝ) (lab : Fin 512 → Fin 2000) (thr : ℤ) : ℝ := ceSpan 512 0 f lab thr
def proRow (f : Fin 512 → Fin 2000 → ℝ) (lab : Fin 512 → Fin 2000) (thr : ℤ) : ℝ := proSpan 512 0 f lab thr

/-- The mean over the rows of  ce / thr / thr. -/
def rec (x : Fin 64 → Fin 512 → Fin 2000 → ℝ) (lab : Fin 64 → Fin 512 → Fin 2000) (thr : Fin 64 → ℤ) : ℝ :=
  (∑ b : Fin 64, ceRow (x b) (lab b) (thr b) / (thr b : ℝ) / (thr b : ℝ)) / 64

/-- The mean over the rows of  pro / thr. -/
def avg (x : Fin 64 → Fin 512 → Fin 2000 → ℝ) (lab : Fin 64 → Fin 512 → Fin 2000) (thr : Fin 64 → ℤ) : ℝ :=
  (∑ b : Fin 64, proRow (x b) (lab b) (thr b) / (thr b : ℝ)) / 64

/-- The weighted total, the three weights being the literals the programs carry. -/
def loss (c₁ c₂ c₃ : ℝ) (x : Fin 64 → Fin 512 → Fin 2000 → ℝ) (lab : Fin 64 → Fin 512 → Fin 2000) (thr : Fin 64 → ℤ)
    (g : Fin 64 → ℝ) (u : Fin 1 → ℝ) : ℝ :=
  c₁ * rec x lab thr + c₂ * ((∑ b, g b) / 64) + c₃ * ((∑ j, u j) / 1)

/-- A row's 512 positions are its four chunks of 128: the sums split accordingly. -/
theorem ceRow_chunks (f : Fin 512 → Fin 2000 → ℝ) (lab : Fin 512 → Fin 2000) (thr : ℤ) :
    ceRow f lab thr =
      ∑ k : Fin 4, ceSpan 128 (128 * k.val) (fun r => f ⟨128 * k.val + r.val, by omega⟩) (fun r => lab ⟨128 * k.val + r.val, by omega⟩) thr := by
  -- the 512 positions are the pairs (chunk k, place r), position 128·k + r
  have chunks : ∀ F : Fin 512 → ℝ,
      ∑ s, F s = ∑ k : Fin 4, ∑ r : Fin 128, F ⟨128 * k.val + r.val, by omega⟩ := by
    intro F
    rw [← Equiv.sum_comp (finProdFinEquiv : Fin 4 × Fin 128 ≃ Fin 512) F, Fintype.sum_prod_type]
    refine Finset.sum_congr rfl fun k _ => Finset.sum_congr rfl fun r _ => congrArg F (Fin.ext ?_)
    show r.val + 128 * k.val = 128 * k.val + r.val
    omega
  unfold ceRow ceSpan
  rw [chunks]
  refine Finset.sum_congr rfl fun k _ => Finset.sum_congr rfl fun r _ => ?_
  show mask thr (0 + (128 * k.val + r.val)) * _ = _
  rw [Nat.zero_add]

theorem proRow_chunks (f : Fin 512 → Fin 2000 → ℝ) (lab : Fin 512 → Fin 2000) (thr : ℤ) :
    proRow f lab thr =
      ∑ k : Fin 4, proSpan 128 (128 * k.val) (fun r => f ⟨128 * k.val + r.val, by omega⟩) (fun r => lab ⟨128 * k.val + r.val, by omega⟩) thr := by
  -- the 512 positions are the pairs (chunk k, place r), position 128·k + r
  have chunks : ∀ F : Fin 512 → ℝ,
      ∑ s, F s = ∑ k : Fin 4, ∑ r : Fin 128, F ⟨128 * k.val + r.val, by omega⟩ := by
    intro F
    rw [← Equiv.sum_comp (finProdFinEquiv : Fin 4 × Fin 128 ≃ Fin 512) F, Fintype.sum_prod_type]
    refine Finset.sum_congr rfl fun k _ => Finset.sum_congr rfl fun r _ => congrArg F (Fin.ext ?_)
    show r.val + 128 * k.val = 128 * k.val + r.val
    omega
  unfold proRow proSpan
  rw [chunks]
  refine Finset.sum_congr rfl fun k _ => Finset.sum_congr rfl fun r _ => ?_
  show mask thr (0 + (128 * k.val + r.val)) * _ = _
  rw [Nat.zero_add]

/-- A chunk that starts at or beyond the threshold contributes nothing: all its masks are 0. -/
theorem ceSpan_of_le (n off : ℕ) (f : Fin n → Fin 2000 → ℝ) (lab : Fin n → Fin 2000) (thr : ℤ) (h : thr ≤ (off : ℤ)) :
    ceSpan n off f lab thr = 0 := by
  unfold ceSpan
  refine Finset.sum_eq_zero fun r _ => ?_
  have hlt : ¬ (((off + r.val : ℕ) : ℤ) < thr) := by push_cast; omega
  show (if ((off + r.val : ℕ) : ℤ) < thr then (1 : ℝ) else 0) * _ = 0
  rw [if_neg hlt, zero_mul]

theorem proSpan_of_le (n off : ℕ) (f : Fin n → Fin 2000 → ℝ) (lab : Fin n → Fin 2000) (thr : ℤ) (h : thr ≤ (off : ℤ)) :
    proSpan n off f lab thr = 0 := by
  unfold proSpan
  refine Finset.sum_eq_zero fun r _ => ?_
  have hlt : ¬ (((off + r.val : ℕ) : ℤ) < thr) := by push_cast; omega
  show (if ((off + r.val : ℕ) : ℤ) < thr then (1 : ℝ) else 0) * _ = 0
  rw [if_neg hlt, zero_mul]

end Cert.Spec

end
-- ==== Proof.ChunkValue.lean ====
/-
  One chunk of 128 positions, read over the extended reals.

  For a chunk whose logits are real numbers and whose labels are classes 0 .. 1999, the value the body adds to its
  first accumulator is the masked sum of the positions' negative log-likelihoods, and to its second the masked sum
  of the labels' logits; the mask of position r of the chunk that starts at `off` is  off + r < threshold  (signed
  words; off + r < 512, so nothing wraps).

  The reading goes term by term. The picked logit of a position is a sum over the classes with one nonzero term (the
  class word equals the label word exactly at the label). The mask word is 1 or 0 according to the signed comparison,
  and the 32-bit sum off + r does not wrap. The maximum reduction folds `max` from −∞ over the 2000 logits, which is
  their maximum; every shifted exponential is a positive real, so the logarithm of their sum is the real logarithm.
  All intermediate values are real numbers, so each sum of coerced reals is the coercion of the real sum.
-/
import proofs.«426013_j77464030151294_3_alg».proof.Proof.RowFns
import proofs.«426013_j77464030151294_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.ChunkValue

open Idealize.ShloMosaic Idealize.ShloMosaic.ValueIdx Cert.KernelIdeal Cert.KernelIdeal.Gen
open scoped BigOperators

/-! ## Sums of reals inside the extended reals -/

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The two lane reductions' inserted indices -/

theorem lift3 (r : Fin 128) (k : Fin 2000) :
    reduces_S1x128x2000_S1x128.lift (ix2 (0 : Fin 1) r) k = ix3 (0 : Fin 1) r k := by
  funext c
  match c with
  | ⟨0, _⟩ => rfl
  | ⟨1, _⟩ => rfl
  | ⟨2, _⟩ => rfl

theorem lift2 (k : Fin 128) :
    reduces_S1x128_S1.lift (ix1 (0 : Fin 1)) k = ix2 (0 : Fin 1) k := by
  funext c
  match c with
  | ⟨0, _⟩ => rfl
  | ⟨1, _⟩ => rfl

/-- A sum over the classes, read at position `r`. -/
theorem sum_classes (f : FVec Ideal S1x128x2000 .f32) (hφ : FKind.Formats .f32)
    (hacc : (0x00000000#32 : BitVec 32) = FKind.add.neutral .f32 hφ) (r : Fin 128) :
    multiReduction .add [2] S1x128 f 0x00000000#32 reduces_S1x128x2000_S1x128 hφ hacc (ix2 (0 : Fin 1) r)
      = ∑ k : Fin 2000, f (ix3 (0 : Fin 1) r k) := by
  refine (Ideal.multiReduction_add_single f _ reduces_S1x128x2000_S1x128 hφ hacc (ix2 (0 : Fin 1) r)).trans ?_
  exact Finset.sum_congr rfl fun k _ => congrArg f (lift3 r k)

/-- A sum over the positions, read at its one index. -/
theorem sum_positions (f : FVec Ideal S1x128 .f32) (hφ : FKind.Formats .f32)
    (hacc : (0x00000000#32 : BitVec 32) = FKind.add.neutral .f32 hφ) :
    multiReduction .add [1] S1 f 0x00000000#32 reduces_S1x128_S1 hφ hacc (ix1 (0 : Fin 1))
      = ∑ k : Fin 128, f (ix2 (0 : Fin 1) k) := by
  refine (Ideal.multiReduction_add_single f _ reduces_S1x128_S1 hφ hacc (ix1 (0 : Fin 1))).trans ?_
  exact Finset.sum_congr rfl fun k _ => congrArg f (lift2 k)

/-- A maximum over the classes, read at position `r`: the fold of `max` from the accumulator's value. -/
theorem max_classes (f : FVec Ideal S1x128x2000 .f32) (hφ : FKind.Formats .f32)
    (hacc : (0xFF800000#32 : BitVec 32) = FKind.maximumf.neutral .f32 hφ) (r : Fin 128) :
    multiReduction .maximumf [2] S1x128 f 0xFF800000#32 reduces_S1x128x2000_S1x128 hφ hacc (ix2 (0 : Fin 1) r)
      = (Finset.univ : Finset (Fin 2000)).fold max (Ideal.ofBits .f32 0xFF800000#32) (fun k => f (ix3 (0 : Fin 1) r k)) := by
  refine (Ideal.multiReduction_maximumf_single f _ reduces_S1x128x2000_S1x128 hφ hacc (ix2 (0 : Fin 1) r)).trans ?_
  exact congrArg (fun g => (Finset.univ : Finset (Fin 2000)).fold max (Ideal.ofBits .f32 0xFF800000#32) g)
    (funext fun k => congrArg f (lift3 r k))

/-! ## The layout operations of the body at an index -/

theorem cast_col_row {α : Type} (v : (S1x128x1 : Shape).Idx → α) (r : Fin 128) :
    shapeCast S1x128 v shapeCasts_S1x128x1_S1x128 (ix2 (0 : Fin 1) r) = v (ix3 (0 : Fin 1) r (0 : Fin 1)) :=
  shapeCast_apply v _ _ _ (by
    rw [Shape.rowMajor_val_three, Shape.rowMajor_val_two]
    show (0 * 128 + r.val) * 1 + 0 = 0 * 128 + r.val
    omega)

theorem cast_row_col {α : Type} (v : (S1x128 : Shape).Idx → α) (r : Fin 128) (u : Fin 1) :
    shapeCast S1x128x1 v shapeCasts_S1x128_S1x128x1 (ix3 (0 : Fin 1) r u) = v (ix2 (0 : Fin 1) r) :=
  shapeCast_apply v _ _ _ (by
    have hu : u.val = 0 := by omega
    rw [Shape.rowMajor_val_three, Shape.rowMajor_val_two]
    show 0 * 128 + r.val = (0 * 128 + r.val) * 1 + u.val
    omega)

theorem cast_one (v : (S1 : Shape).Idx → EReal) :
    shapeCast S1x1 v shapeCasts_S1_S1x1 (ix2 (0 : Fin 1) (0 : Fin 1)) = v (ix1 (0 : Fin 1)) :=
  shapeCast_a_1a_apply v _ _ _

theorem bcast_col {α : Type} (v : (S1x128x1 : Shape).Idx → α) (r : Fin 128) (k : Fin 2000) :
    broadcastTo S1x128x2000 v broadcasts_S1x128x1_S1x128x2000 (ix3 (0 : Fin 1) r k) = v (ix3 (0 : Fin 1) r (0 : Fin 1)) :=
  broadcastTo_apply v _ _ _ fun a => by
    match a with
    | ⟨0, _⟩ => rfl
    | ⟨1, _⟩ => rfl
    | ⟨2, _⟩ => rfl

theorem bcast_row {α : Type} (v : (S1x1x2000 : Shape).Idx → α) (r : Fin 128) (k : Fin 2000) :
    broadcastTo S1x128x2000 v broadcasts_S1x1x2000_S1x128x2000 (ix3 (0 : Fin 1) r k) = v (ix3 (0 : Fin 1) (0 : Fin 1) k) :=
  broadcastTo_apply v _ _ _ fun a => by
    match a with
    | ⟨0, _⟩ => rfl
    | ⟨1, _⟩ => rfl
    | ⟨2, _⟩ => rfl

theorem classIota_apply (k : Fin 2000) : Row.classIota (ix3 (0 : Fin 1) (0 : Fin 1) k) = BitVec.ofNat 32 k.val :=
  iota_single_apply .tc S1x1x2000 32 2 iota_S1x1x2000_d2_w32 _

theorem posIota_apply (r : Fin 128) :
    iota .tc S1x128 32 [1] iota_S1x128_d1_w32 (ix2 (0 : Fin 1) r) = BitVec.ofNat 32 r.val :=
  iota_single_apply .tc S1x128 32 1 iota_S1x128_d1_w32 _

/-! ## Words: positions, thresholds and labels -/

/-- A natural below 2^31, as a 32-bit word, reads signed as itself. -/
theorem toInt_ofNat_small (n : ℕ) (h : n < 2147483648) : (BitVec.ofNat 32 n).toInt = (n : ℤ) := by
  rw [BitVec.toInt_eq_toNat_cond, BitVec.toNat_ofNat]
  have e : n % 2 ^ 32 = n := Nat.mod_eq_of_lt (by omega)
  rw [e, if_pos (by omega)]

/-- The mask word of position `off + r`: 1 when the position lies below the threshold (signed), else 0. -/
theorem maskWord (off : ℕ) (hoff : off + 128 ≤ 2147483648) (v2 : BitVec 32) (r : Fin 128) :
    ((IntOp.cmpi .slt (IntOp.addi (BitVec.ofNat 32 off) (BitVec.ofNat 32 r.val)) v2).setWidth 32).toInt
      = if ((off + r.val : ℕ) : ℤ) < v2.toInt then 1 else 0 := by
  have e : IntOp.addi (BitVec.ofNat 32 off) (BitVec.ofNat 32 r.val) = BitVec.ofNat 32 (off + r.val) :=
    (BitVec.ofNat_add ..).symm
  rw [e]
  show ((BitVec.ofBool ((BitVec.ofNat 32 (off + r.val)).slt v2)).setWidth 32).toInt = _
  have hs : (BitVec.ofNat 32 (off + r.val)).slt v2 = decide (((off + r.val : ℕ) : ℤ) < v2.toInt) := by
    show decide ((BitVec.ofNat 32 (off + r.val)).toInt < v2.toInt) = _
    rw [toInt_ofNat_small _ (by have := r.isLt; omega)]
  rw [hs]
  by_cases h : ((off + r.val : ℕ) : ℤ) < v2.toInt
  · rw [decide_eq_true h, if_pos h]; rfl
  · rw [decide_eq_false h, if_neg h]; rfl

/-- The class word `k` equals a label word that reads signed as the class `c` exactly when `k = c`. -/
theorem labelWord (w : BitVec 32) (c : Fin 2000) (hw : w.toInt = (c.val : ℤ)) (k : Fin 2000) :
    IntOp.cmpi .eq (BitVec.ofNat 32 k.val) w = (1 : BitVec 1) ↔ k = c := by
  have hk : (BitVec.ofNat 32 k.val).toInt = (k.val : ℤ) := toInt_ofNat_small _ (by have := k.isLt; omega)
  show BitVec.ofBool (BitVec.ofNat 32 k.val == w) = (1 : BitVec 1) ↔ _
  constructor
  · intro h
    have hb : (BitVec.ofNat 32 k.val == w) = true := by
      cases hb : (BitVec.ofNat 32 k.val == w) with
      | true => rfl
      | false => rw [hb] at h; exact absurd h (by decide)
    have he : BitVec.ofNat 32 k.val = w := eq_of_beq hb
    have hz : (k.val : ℤ) = (c.val : ℤ) := by rw [← hk, he, hw]
    exact Fin.ext (by exact_mod_cast hz)
  · rintro rfl
    have he : BitVec.ofNat 32 k.val = w := BitVec.eq_of_toInt_eq (by rw [hk, hw])
    rw [he, beq_self_eq_true]
    rfl

/-! ## The mask of a chunk -/

/-- The mask term of the chunk whose first position is the word `c`. -/
def maskv (c v2 : BitVec 32) : FVec Ideal S1x128 .f32 :=
  sitofp .f32 (extui 32 (cmpi .slt (addi (broadcast S1x128 c) (iota .tc S1x128 32 [1] iota_S1x128_d1_w32)) (broadcast S1x128 v2)) natLt_1_32)

theorem pay3_eq_maskv (v2 : BitVec 32) : k0_pay3 (F := Ideal) v2 = maskv 0#32 v2 := rfl
theorem pay7_eq_maskv (v2 : BitVec 32) : k0_pay7 (F := Ideal) v2 = maskv 128#32 v2 := rfl
theorem pay11_eq_maskv (v2 : BitVec 32) : k0_pay11 (F := Ideal) v2 = maskv 256#32 v2 := rfl
theorem pay15_eq_maskv (v2 : BitVec 32) : k0_pay15 (F := Ideal) v2 = maskv 384#32 v2 := rfl

theorem maskv_apply (off : ℕ) (hoff : off + 128 ≤ 2147483648) (v2 : BitVec 32) (r : Fin 128) :
    maskv (BitVec.ofNat 32 off) v2 (ix2 (0 : Fin 1) r) = ((Spec.mask v2.toInt (off + r.val) : ℝ) : EReal) := by
  show ((((IntOp.cmpi .slt (IntOp.addi (BitVec.ofNat 32 off) (iota .tc S1x128 32 [1] iota_S1x128_d1_w32 (ix2 (0 : Fin 1) r))) v2).setWidth 32).toInt : ℝ) : EReal) = _
  rw [posIota_apply, maskWord off hoff]
  unfold Spec.mask
  by_cases h : ((off + r.val : ℕ) : ℤ) < v2.toInt
  · rw [if_pos h, if_pos h]; norm_num
  · rw [if_neg h, if_neg h]; norm_num

/-! ## The picked logit -/

theorem pick_apply (x : FVec Ideal S1x128x2000 .f32) (l : IVec S1x128x1 32) (lb : Fin 128 → Fin 2000)
    (hl : ∀ r : Fin 128, (l (ix3 (0 : Fin 1) r (0 : Fin 1))).toInt = ((lb r).val : ℤ)) (r : Fin 128) :
    k0_pay2 (F := Ideal) Row.classIota x l (ix2 (0 : Fin 1) r) = x (ix3 (0 : Fin 1) r (lb r)) := by
  unfold k0_pay2
  refine (sum_classes _ _ _ r).trans ?_
  refine (Finset.sum_congr rfl fun k _ => ?_).trans
    ((Finset.sum_ite_eq' Finset.univ (lb r) fun k => x (ix3 (0 : Fin 1) r k)).trans (if_pos (Finset.mem_univ _)))
  show Scalar.select (IntOp.cmpi .eq
      (broadcastTo S1x128x2000 Row.classIota broadcasts_S1x1x2000_S1x128x2000 (ix3 (0 : Fin 1) r k))
      (broadcastTo S1x128x2000 (shapeCast S1x128x1 (shapeCast S1x128 l shapeCasts_S1x128x1_S1x128) shapeCasts_S1x128_S1x128x1)
        broadcasts_S1x128x1_S1x128x2000 (ix3 (0 : Fin 1) r k)))
      (x (ix3 (0 : Fin 1) r k)) (Scalar.ofBits (F := Ideal) .f32 0x00000000#32) = _
  rw [bcast_row, bcast_col, cast_row_col, cast_col_row, classIota_apply]
  unfold Scalar.select
  by_cases h : k = lb r
  · rw [if_pos ((labelWord _ _ (hl r) k).mpr h), if_pos h]
  · rw [if_neg (fun hc => h ((labelWord _ _ (hl r) k).mp hc)), if_neg h]
    exact Ideal.ofBits_zero_f32

/-! ## The row maximum and the log-sum-exp -/

theorem hF : FKind.Formats .f32 := .inl rfl
theorem hAdd : (0x00000000#32 : BitVec 32) = FKind.add.neutral .f32 hF := rfl
theorem hMax : (0xFF800000#32 : BitVec 32) = FKind.maximumf.neutral .f32 hF := rfl

/-- The maximum reduction's accumulator pattern denotes −∞. -/
theorem ofBits_negInf : Ideal.ofBits .f32 0xFF800000#32 = ⊥ := by simp [Ideal.ofBits, Ideal.ieee]

/-- Folding `max` from −∞ over 2000 reals gives their maximum. -/
theorem fold_max_coe (f : Fin 2000 → ℝ) :
    (Finset.univ : Finset (Fin 2000)).fold max (⊥ : EReal) (fun k => ((f k : ℝ) : EReal))
      = ((Spec.rowMax f : ℝ) : EReal) := by
  unfold Spec.rowMax
  apply le_antisymm
  · rw [Finset.fold_max_le]
    exact ⟨bot_le, fun k _ => EReal.coe_le_coe_iff.mpr (Finset.le_sup' f (Finset.mem_univ k))⟩
  · obtain ⟨k, _, hk⟩ := Finset.exists_mem_eq_sup' Finset.univ_nonempty f
    rw [Finset.le_fold_max]
    exact Or.inr ⟨k, Finset.mem_univ k, by rw [hk]⟩

/-- The per-position maximum over the classes. -/
def rowMaxV (x : FVec Ideal S1x128x2000 .f32) : FVec Ideal S1x128 .f32 :=
  multiReduction .maximumf [2] S1x128 x 0xFF800000#32 reduces_S1x128x2000_S1x128 hF hMax

theorem rowMaxV_apply (x : FVec Ideal S1x128x2000 .f32) (xr : Fin 128 → Fin 2000 → ℝ)
    (hx : ∀ (r : Fin 128) (v : Fin 2000), x (ix3 (0 : Fin 1) r v) = ((xr r v : ℝ) : EReal)) (r : Fin 128) :
    rowMaxV x (ix2 (0 : Fin 1) r) = ((Spec.rowMax (xr r) : ℝ) : EReal) := by
  unfold rowMaxV
  refine (max_classes x hF hMax r).trans ?_
  rw [ofBits_negInf]
  have e : (fun k => x (ix3 (0 : Fin 1) r k)) = fun k => ((xr r k : ℝ) : EReal) := funext fun k => hx r k
  rw [e]
  exact fold_max_coe (xr r)

/-- The per-position maximum plus the logarithm of the sum of the shifted exponentials. -/
def lseV (x : FVec Ideal S1x128x2000 .f32) : FVec Ideal S1x128 .f32 :=
  addf (shapeCast S1x128 (shapeCast S1x128x1 (rowMaxV x) shapeCasts_S1x128_S1x128x1) shapeCasts_S1x128x1_S1x128)
    (log (multiReduction .add [2] S1x128
      (exp (subf x (broadcastTo S1x128x2000 (shapeCast S1x128x1 (rowMaxV x) shapeCasts_S1x128_S1x128x1)
        broadcasts_S1x128x1_S1x128x2000)))
      0x00000000#32 reduces_S1x128x2000_S1x128 hF hAdd))

theorem lseV_apply (x : FVec Ideal S1x128x2000 .f32) (xr : Fin 128 → Fin 2000 → ℝ)
    (hx : ∀ (r : Fin 128) (v : Fin 2000), x (ix3 (0 : Fin 1) r v) = ((xr r v : ℝ) : EReal)) (r : Fin 128) :
    lseV x (ix2 (0 : Fin 1) r)
      = ((Spec.rowMax (xr r) + Real.log (∑ v, Real.exp (xr r v - Spec.rowMax (xr r))) : ℝ) : EReal) := by
  show shapeCast S1x128 (shapeCast S1x128x1 (rowMaxV x) shapeCasts_S1x128_S1x128x1) shapeCasts_S1x128x1_S1x128 (ix2 (0 : Fin 1) r)
      + Ideal.log (multiReduction .add [2] S1x128
          (exp (subf x (broadcastTo S1x128x2000 (shapeCast S1x128x1 (rowMaxV x) shapeCasts_S1x128_S1x128x1)
            broadcasts_S1x128x1_S1x128x2000)))
          0x00000000#32 reduces_S1x128x2000_S1x128 hF hAdd (ix2 (0 : Fin 1) r)) = _
  have hterm : ∀ k : Fin 2000,
      exp (subf x (broadcastTo S1x128x2000 (shapeCast S1x128x1 (rowMaxV x) shapeCasts_S1x128_S1x128x1)
        broadcasts_S1x128x1_S1x128x2000)) (ix3 (0 : Fin 1) r k)
        = ((Real.exp (xr r k - Spec.rowMax (xr r)) : ℝ) : EReal) := by
    intro k
    show Ideal.exp (x (ix3 (0 : Fin 1) r k)
      - broadcastTo S1x128x2000 (shapeCast S1x128x1 (rowMaxV x) shapeCasts_S1x128_S1x128x1)
          broadcasts_S1x128x1_S1x128x2000 (ix3 (0 : Fin 1) r k)) = _
    rw [bcast_col, cast_row_col, rowMaxV_apply x xr hx r, hx r k, ← EReal.coe_sub]
    rfl
  have hpos : 0 < ∑ k : Fin 2000, Real.exp (xr r k - Spec.rowMax (xr r)) :=
    Finset.sum_pos (fun k _ => Real.exp_pos _) Finset.univ_nonempty
  rw [cast_col_row, cast_row_col, rowMaxV_apply x xr hx r, sum_classes, Finset.sum_congr rfl fun k _ => hterm k,
    ← coe_sum, Ideal.log_coe, if_neg (not_le.mpr hpos), ← EReal.coe_add]

/-! ## One chunk's contribution to an accumulator -/

/-- The accumulator plus the sum over the chunk's positions of a per-position term. -/
def accAdd (a : FVec Ideal S1x1 .f32) (t : FVec Ideal S1x128 .f32) : FVec Ideal S1x1 .f32 :=
  addf a (shapeCast S1x1 (multiReduction .add [1] S1 t 0x00000000#32 reduces_S1x128_S1 hF hAdd) shapeCasts_S1_S1x1)

theorem accAdd_apply (a : FVec Ideal S1x1 .f32) (t : FVec Ideal S1x128 .f32) (tr : Fin 128 → ℝ)
    (ht : ∀ r : Fin 128, t (ix2 (0 : Fin 1) r) = ((tr r : ℝ) : EReal)) :
    accAdd a t (ix2 (0 : Fin 1) (0 : Fin 1)) = a (ix2 (0 : Fin 1) (0 : Fin 1)) + ((∑ r, tr r : ℝ) : EReal) := by
  show a (ix2 (0 : Fin 1) (0 : Fin 1))
    + shapeCast S1x1 (multiReduction .add [1] S1 t 0x00000000#32 reduces_S1x128_S1 hF hAdd) shapeCasts_S1_S1x1
        (ix2 (0 : Fin 1) (0 : Fin 1)) = _
  rw [cast_one, sum_positions, Finset.sum_congr rfl fun r _ => ht r, ← coe_sum]

/-- The first accumulator after a chunk that starts at position `off`. -/
theorem ce_chunk (off : ℕ) (hoff : off + 128 ≤ 2147483648) (v2 : BitVec 32) (x : FVec Ideal S1x128x2000 .f32)
    (l : IVec S1x128x1 32) (xr : Fin 128 → Fin 2000 → ℝ) (lb : Fin 128 → Fin 2000)
    (hx : ∀ (r : Fin 128) (v : Fin 2000), x (ix3 (0 : Fin 1) r v) = ((xr r v : ℝ) : EReal))
    (hl : ∀ r : Fin 128, (l (ix3 (0 : Fin 1) r (0 : Fin 1))).toInt = ((lb r).val : ℤ))
    (a : FVec Ideal S1x1 .f32) :
    shapeCast S1x1 (accAdd a (mulf (maskv (BitVec.ofNat 32 off) v2)
        (subf (lseV x) (k0_pay2 (F := Ideal) Row.classIota x l)))) shapeCasts_S1x1_S1x1 (ix2 (0 : Fin 1) (0 : Fin 1))
      = a (ix2 (0 : Fin 1) (0 : Fin 1)) + ((Spec.ceSpan 128 off xr lb v2.toInt : ℝ) : EReal) := by
  rw [shapeCast_self]
  refine (accAdd_apply a _ (fun r => Spec.mask v2.toInt (off + r.val) * Spec.nll (xr r) (lb r)) fun r => ?_).trans rfl
  show maskv (BitVec.ofNat 32 off) v2 (ix2 (0 : Fin 1) r)
    * (lseV x (ix2 (0 : Fin 1) r) - k0_pay2 (F := Ideal) Row.classIota x l (ix2 (0 : Fin 1) r)) = _
  rw [maskv_apply off hoff, lseV_apply x xr hx r, pick_apply x l lb hl r, hx r (lb r), ← EReal.coe_sub, ← EReal.coe_mul]
  rfl

/-- The second accumulator after a chunk that starts at position `off`. -/
theorem pro_chunk (off : ℕ) (hoff : off + 128 ≤ 2147483648) (v2 : BitVec 32) (x : FVec Ideal S1x128x2000 .f32)
    (l : IVec S1x128x1 32) (xr : Fin 128 → Fin 2000 → ℝ) (lb : Fin 128 → Fin 2000)
    (hx : ∀ (r : Fin 128) (v : Fin 2000), x (ix3 (0 : Fin 1) r v) = ((xr r v : ℝ) : EReal))
    (hl : ∀ r : Fin 128, (l (ix3 (0 : Fin 1) r (0 : Fin 1))).toInt = ((lb r).val : ℤ))
    (a : FVec Ideal S1x1 .f32) :
    accAdd a (mulf (maskv (BitVec.ofNat 32 off) v2) (k0_pay2 (F := Ideal) Row.classIota x l)) (ix2 (0 : Fin 1) (0 : Fin 1))
      = a (ix2 (0 : Fin 1) (0 : Fin 1)) + ((Spec.proSpan 128 off xr lb v2.toInt : ℝ) : EReal) := by
  refine (accAdd_apply a _ (fun r => Spec.mask v2.toInt (off + r.val) * xr r (lb r)) fun r => ?_).trans rfl
  show maskv (BitVec.ofNat 32 off) v2 (ix2 (0 : Fin 1) r) * k0_pay2 (F := Ideal) Row.classIota x l (ix2 (0 : Fin 1) r) = _
  rw [maskv_apply off hoff, pick_apply x l lb hl r, hx r (lb r), ← EReal.coe_mul]

end Cert.KernelIdeal.ChunkValue

namespace Cert.KernelIdeal.RowValue

open Idealize.ShloMosaic Idealize.ShloMosaic.ValueIdx Cert.KernelIdeal Cert.KernelIdeal.Gen

theorem pay4_eq (v2 : BitVec 32) (x : Vec Ideal S1x128x2000 .f32) (l : Vec Ideal S1x128x1 .i32)
    (xr : Fin 128 → Fin 2000 → ℝ) (lb : Fin 128 → Fin 2000)
    (hx : ∀ (r : Fin 128) (v : Fin 2000), x (ix3 (0 : Fin 1) r v) = ((xr r v : ℝ) : EReal))
    (hl : ∀ r : Fin 128, (l (ix3 (0 : Fin 1) r (0 : Fin 1))).toInt = ((lb r).val : ℤ))
    (a : Vec Ideal S1x1 .f32) :
    k0_pay4 (F := Ideal) v2 Row.classIota x l a (ix2 (0 : Fin 1) (0 : Fin 1))
      = a (ix2 (0 : Fin 1) (0 : Fin 1)) + ((Spec.ceSpan 128 0 xr lb v2.toInt : ℝ) : EReal) :=
  ChunkValue.ce_chunk 0 (by norm_num) v2 x l xr lb hx hl a

theorem pay8_eq (v2 : BitVec 32) (x : Vec Ideal S1x128x2000 .f32) (l : Vec Ideal S1x128x1 .i32)
    (xr : Fin 128 → Fin 2000 → ℝ) (lb : Fin 128 → Fin 2000)
    (hx : ∀ (r : Fin 128) (v : Fin 2000), x (ix3 (0 : Fin 1) r v) = ((xr r v : ℝ) : EReal))
    (hl : ∀ r : Fin 128, (l (ix3 (0 : Fin 1) r (0 : Fin 1))).toInt = ((lb r).val : ℤ))
    (a : Vec Ideal S1x1 .f32) :
    k0_pay8 (F := Ideal) v2 Row.classIota x l a (ix2 (0 : Fin 1) (0 : Fin 1))
      = a (ix2 (0 : Fin 1) (0 : Fin 1)) + ((Spec.ceSpan 128 128 xr lb v2.toInt : ℝ) : EReal) :=
  ChunkValue.ce_chunk 128 (by norm_num) v2 x l xr lb hx hl a

theorem pay12_eq (v2 : BitVec 32) (x : Vec Ideal S1x128x2000 .f32) (l : Vec Ideal S1x128x1 .i32)
    (xr : Fin 128 → Fin 2000 → ℝ) (lb : Fin 128 → Fin 2000)
    (hx : ∀ (r : Fin 128) (v : Fin 2000), x (ix3 (0 : Fin 1) r v) = ((xr r v : ℝ) : EReal))
    (hl : ∀ r : Fin 128, (l (ix3 (0 : Fin 1) r (0 : Fin 1))).toInt = ((lb r).val : ℤ))
    (a : Vec Ideal S1x1 .f32) :
    k0_pay12 (F := Ideal) v2 Row.classIota x l a (ix2 (0 : Fin 1) (0 : Fin 1))
      = a (ix2 (0 : Fin 1) (0 : Fin 1)) + ((Spec.ceSpan 128 256 xr lb v2.toInt : ℝ) : EReal) :=
  ChunkValue.ce_chunk 256 (by norm_num) v2 x l xr lb hx hl a

theorem pay16_eq (v2 : BitVec 32) (x : Vec Ideal S1x128x2000 .f32) (l : Vec Ideal S1x128x1 .i32)
    (xr : Fin 128 → Fin 2000 → ℝ) (lb : Fin 128 → Fin 2000)
    (hx : ∀ (r : Fin 128) (v : Fin 2000), x (ix3 (0 : Fin 1) r v) = ((xr r v : ℝ) : EReal))
    (hl : ∀ r : Fin 128, (l (ix3 (0 : Fin 1) r (0 : Fin 1))).toInt = ((lb r).val : ℤ))
    (a : Vec Ideal S1x1 .f32) :
    k0_pay16 (F := Ideal) v2 Row.classIota x l a (ix2 (0 : Fin 1) (0 : Fin 1))
      = a (ix2 (0 : Fin 1) (0 : Fin 1)) + ((Spec.ceSpan 128 384 xr lb v2.toInt : ℝ) : EReal) :=
  ChunkValue.ce_chunk 384 (by norm_num) v2 x l xr lb hx hl a

theorem pay5_eq (v2 : BitVec 32) (x : Vec Ideal S1x128x2000 .f32) (l : Vec Ideal S1x128x1 .i32)
    (xr : Fin 128 → Fin 2000 → ℝ) (lb : Fin 128 → Fin 2000)
    (hx : ∀ (r : Fin 128) (v : Fin 2000), x (ix3 (0 : Fin 1) r v) = ((xr r v : ℝ) : EReal))
    (hl : ∀ r : Fin 128, (l (ix3 (0 : Fin 1) r (0 : Fin 1))).toInt = ((lb r).val : ℤ))
    (a : Vec Ideal S1x1 .f32) :
    k0_pay5 (F := Ideal) v2 Row.classIota x l a (ix2 (0 : Fin 1) (0 : Fin 1))
      = a (ix2 (0 : Fin 1) (0 : Fin 1)) + ((Spec.proSpan 128 0 xr lb v2.toInt : ℝ) : EReal) :=
  ChunkValue.pro_chunk 0 (by norm_num) v2 x l xr lb hx hl a

theorem pay9_eq (v2 : BitVec 32) (x : Vec Ideal S1x128x2000 .f32) (l : Vec Ideal S1x128x1 .i32)
    (xr : Fin 128 → Fin 2000 → ℝ) (lb : Fin 128 → Fin 2000)
    (hx : ∀ (r : Fin 128) (v : Fin 2000), x (ix3 (0 : Fin 1) r v) = ((xr r v : ℝ) : EReal))
    (hl : ∀ r : Fin 128, (l (ix3 (0 : Fin 1) r (0 : Fin 1))).toInt = ((lb r).val : ℤ))
    (a : Vec Ideal S1x1 .f32) :
    k0_pay9 (F := Ideal) v2 Row.classIota x l a (ix2 (0 : Fin 1) (0 : Fin 1))
      = a (ix2 (0 : Fin 1) (0 : Fin 1)) + ((Spec.proSpan 128 128 xr lb v2.toInt : ℝ) : EReal) :=
  ChunkValue.pro_chunk 128 (by norm_num) v2 x l xr lb hx hl a

theorem pay13_eq (v2 : BitVec 32) (x : Vec Ideal S1x128x2000 .f32) (l : Vec Ideal S1x128x1 .i32)
    (xr : Fin 128 → Fin 2000 → ℝ) (lb : Fin 128 → Fin 2000)
    (hx : ∀ (r : Fin 128) (v : Fin 2000), x (ix3 (0 : Fin 1) r v) = ((xr r v : ℝ) : EReal))
    (hl : ∀ r : Fin 128, (l (ix3 (0 : Fin 1) r (0 : Fin 1))).toInt = ((lb r).val : ℤ))
    (a : Vec Ideal S1x1 .f32) :
    k0_pay13 (F := Ideal) v2 Row.classIota x l a (ix2 (0 : Fin 1) (0 : Fin 1))
      = a (ix2 (0 : Fin 1) (0 : Fin 1)) + ((Spec.proSpan 128 256 xr lb v2.toInt : ℝ) : EReal) :=
  ChunkValue.pro_chunk 256 (by norm_num) v2 x l xr lb hx hl a

theorem pay17_eq (v2 : BitVec 32) (x : Vec Ideal S1x128x2000 .f32) (l : Vec Ideal S1x128x1 .i32)
    (xr : Fin 128 → Fin 2000 → ℝ) (lb : Fin 128 → Fin 2000)
    (hx : ∀ (r : Fin 128) (v : Fin 2000), x (ix3 (0 : Fin 1) r v) = ((xr r v : ℝ) : EReal))
    (hl : ∀ r : Fin 128, (l (ix3 (0 : Fin 1) r (0 : Fin 1))).toInt = ((lb r).val : ℤ))
    (a : Vec Ideal S1x1 .f32) :
    k0_pay17 (F := Ideal) v2 Row.classIota x l a (ix2 (0 : Fin 1) (0 : Fin 1))
      = a (ix2 (0 : Fin 1) (0 : Fin 1)) + ((Spec.proSpan 128 384 xr lb v2.toInt : ℝ) : EReal) :=
  ChunkValue.pro_chunk 384 (by norm_num) v2 x l xr lb hx hl a

end Cert.KernelIdeal.RowValue

end
-- ==== Proof.RowValue.lean ====
/-
  One row: the four chunks put together.

  The body visits the chunk that starts at `off` exactly when  off < threshold  (signed); a chunk it skips would have
  contributed 0, every one of its masks being 0. So whichever chunks are visited, each accumulator ends at the masked
  sum over all 512 positions, and each output block holds that number on every lane. The table word w is at least 3,
  so the threshold  w − 2  does not wrap and is the integer  w − 2 ≥ 1.
-/
import proofs.«426013_j77464030151294_3_alg».proof.Proof.ChunkValue

noncomputable section

namespace Cert.KernelIdeal.RowValue

open Idealize.ShloMosaic Idealize.ShloMosaic.ValueIdx Cert.KernelIdeal Cert.KernelIdeal.Gen

/-- The printed guard says  off < v2  as signed integers: the inner bit is the signed comparison, widening a bit
    and asking whether the word is not 0 gives the bit back. -/
theorem live_iff (v2 off : BitVec 32) : Row.live v2 off ↔ off.toInt < v2.toInt := by
  rw [← BitVec.slt_iff_toInt_lt]
  show BitVec.ofBool ((BitVec.ofBool (off.slt v2)).setWidth 32 != 0#32) = 1#1 ↔ off.slt v2 = true
  cases off.slt v2 <;> decide

/-- For a table word of at least 3 the threshold is the integer  w − 2:  1 ≤ w − 2 < 2^31, so the 32-bit
    difference read signed is the difference of the integers. -/
theorem thr_toInt (w : BitVec 32) (hw : 3 ≤ w.toInt) : (Row.thr w).toInt = w.toInt - 2 := by
  show (w - 2#32).toInt = w.toInt - 2
  have hlt : w.toInt < 2 ^ (32 - 1) := BitVec.toInt_lt
  have h2 : (2#32 : BitVec 32).toInt = 2 := by decide
  rw [BitVec.toInt_sub, h2, Int.bmod_def]
  omega

/-! ## The pieces around a chunk: the zero start, the cast of a 1×1 vector to itself, the entry (0, 0) -/

/-- Both accumulators start at 0. -/
private theorem pay18_zero : k0_pay18 (F := Ideal) (ix2 (0 : Fin 1) (0 : Fin 1)) = 0 := by
  show (Ideal.ofBits .f32 0x00000000#32 : EReal) = 0
  exact Ideal.ofBits_zero_f32

private theorem pay19_zero : k0_pay19 (F := Ideal) (ix2 (0 : Fin 1) (0 : Fin 1)) = 0 := by
  show (Ideal.ofBits .f32 0x00000000#32 : EReal) = 0
  exact Ideal.ofBits_zero_f32

/-- Casting a 1×1 vector to its own shape changes nothing. -/
private theorem cast11 (a : Vec Ideal S1x1 .f32) :
    shapeCast S1x1 a shapeCasts_S1x1_S1x1 (ix2 (0 : Fin 1) (0 : Fin 1)) = a (ix2 (0 : Fin 1) (0 : Fin 1)) := by
  unfold shapeCast
  rw [Shape.reshapeEquiv_self]

/-- The extraction at position [0, 0] is the entry (0, 0). -/
private theorem extract00 (a : Vec Ideal S1x1 .f32) :
    extractAt ![0, 0] a inpos_S1x1_p0_0 = a (ix2 (0 : Fin 1) (0 : Fin 1)) := by
  unfold extractAt
  refine congrArg a (funext fun d => ?_)
  match d with
  | ⟨0, _⟩ => rfl
  | ⟨1, _⟩ => rfl

/-! ## One guarded step -/

/-- If the visited chunk adds  s  to the accumulator, and  s = 0  whenever the threshold is at most the chunk's
    start (the chunk is then skipped), the step adds  s  either way. -/
private theorem guarded_step (v2 offw : BitVec 32) (off : ℕ) (hoff : offw.toInt = (off : ℤ))
    (p a : Vec Ideal S1x1 .f32) (s : ℝ)
    (hp : p (ix2 (0 : Fin 1) (0 : Fin 1)) = a (ix2 (0 : Fin 1) (0 : Fin 1)) + ((s : ℝ) : EReal))
    (hs : v2.toInt ≤ (off : ℤ) → s = 0) :
    (if Row.live v2 offw then p else a) (ix2 (0 : Fin 1) (0 : Fin 1))
      = a (ix2 (0 : Fin 1) (0 : Fin 1)) + ((s : ℝ) : EReal) := by
  by_cases h : Row.live v2 offw
  · rw [if_pos h]; exact hp
  · rw [if_neg h]
    have hle : v2.toInt ≤ (off : ℤ) := by
      rw [live_iff, hoff] at h
      omega
    rw [hs hle, EReal.coe_zero, add_zero]

/-! ## The eight steps: each adds its chunk's masked sum, visited or not -/

section Chunk
variable (v2 : BitVec 32) (x : Vec Ideal S1x128x2000 .f32) (l : Vec Ideal S1x128x1 .i32)
    (xr : Fin 128 → Fin 2000 → ℝ) (lb : Fin 128 → Fin 2000)
    (hx : ∀ (r : Fin 128) (v : Fin 2000), x (ix3 (0 : Fin 1) r v) = ((xr r v : ℝ) : EReal))
    (hl : ∀ r : Fin 128, (l (ix3 (0 : Fin 1) r (0 : Fin 1))).toInt = ((lb r).val : ℤ))
    (a : Vec Ideal S1x1 .f32)
include hx hl

private theorem ce1_eq : Row.ce1 (F := Ideal) v2 x l (ix2 (0 : Fin 1) (0 : Fin 1))
    = ((Spec.ceSpan 128 0 xr lb v2.toInt : ℝ) : EReal) := by
  have h := guarded_step v2 0#32 0 (by decide)
    (k0_pay4 (F := Ideal) v2 Row.classIota x l (k0_pay18 (F := Ideal)))
    (k0_pay18 (F := Ideal)) _ (pay4_eq v2 x l xr lb hx hl _)
    (Spec.ceSpan_of_le 128 0 xr lb v2.toInt)
  rw [pay18_zero, zero_add] at h
  exact h

private theorem ce2_eq : Row.ce2 (F := Ideal) v2 x l a (ix2 (0 : Fin 1) (0 : Fin 1))
    = a (ix2 (0 : Fin 1) (0 : Fin 1)) + ((Spec.ceSpan 128 128 xr lb v2.toInt : ℝ) : EReal) :=
  guarded_step v2 128#32 128 (by decide) _ a _
    (pay8_eq v2 x l xr lb hx hl a) (Spec.ceSpan_of_le 128 128 xr lb v2.toInt)

private theorem ce3_eq : Row.ce3 (F := Ideal) v2 x l a (ix2 (0 : Fin 1) (0 : Fin 1))
    = a (ix2 (0 : Fin 1) (0 : Fin 1)) + ((Spec.ceSpan 128 256 xr lb v2.toInt : ℝ) : EReal) :=
  guarded_step v2 256#32 256 (by decide) _ a _
    (pay12_eq v2 x l xr lb hx hl a) (Spec.ceSpan_of_le 128 256 xr lb v2.toInt)

private theorem ce4_eq : Row.ce4 (F := Ideal) v2 x l a (ix2 (0 : Fin 1) (0 : Fin 1))
    = a (ix2 (0 : Fin 1) (0 : Fin 1)) + ((Spec.ceSpan 128 384 xr lb v2.toInt : ℝ) : EReal) :=
  guarded_step v2 384#32 384 (by decide) _ a _
    (pay16_eq v2 x l xr lb hx hl a) (Spec.ceSpan_of_le 128 384 xr lb v2.toInt)

private theorem pro1_eq : Row.pro1 (F := Ideal) v2 x l (ix2 (0 : Fin 1) (0 : Fin 1))
    = ((Spec.proSpan 128 0 xr lb v2.toInt : ℝ) : EReal) := by
  have h := guarded_step v2 0#32 0 (by decide)
    (k0_pay20 (k0_pay5 (F := Ideal) v2 Row.classIota x l (k0_pay19 (F := Ideal))))
    (k0_pay19 (F := Ideal)) _ ((cast11 _).trans (pay5_eq v2 x l xr lb hx hl _))
    (Spec.proSpan_of_le 128 0 xr lb v2.toInt)
  rw [pay19_zero, zero_add] at h
  exact h

private theorem pro2_eq : Row.pro2 (F := Ideal) v2 x l a (ix2 (0 : Fin 1) (0 : Fin 1))
    = a (ix2 (0 : Fin 1) (0 : Fin 1)) + ((Spec.proSpan 128 128 xr lb v2.toInt : ℝ) : EReal) :=
  guarded_step v2 128#32 128 (by decide) (k0_pay21 (k0_pay9 (F := Ideal) v2 Row.classIota x l a)) a _
    ((cast11 _).trans (pay9_eq v2 x l xr lb hx hl a)) (Spec.proSpan_of_le 128 128 xr lb v2.toInt)

private theorem pro3_eq : Row.pro3 (F := Ideal) v2 x l a (ix2 (0 : Fin 1) (0 : Fin 1))
    = a (ix2 (0 : Fin 1) (0 : Fin 1)) + ((Spec.proSpan 128 256 xr lb v2.toInt : ℝ) : EReal) :=
  guarded_step v2 256#32 256 (by decide) (k0_pay22 (k0_pay13 (F := Ideal) v2 Row.classIota x l a)) a _
    ((cast11 _).trans (pay13_eq v2 x l xr lb hx hl a)) (Spec.proSpan_of_le 128 256 xr lb v2.toInt)

private theorem pro4_eq : Row.pro4 (F := Ideal) v2 x l a (ix2 (0 : Fin 1) (0 : Fin 1))
    = a (ix2 (0 : Fin 1) (0 : Fin 1)) + ((Spec.proSpan 128 384 xr lb v2.toInt : ℝ) : EReal) :=
  guarded_step v2 384#32 384 (by decide) (k0_pay23 (k0_pay17 (F := Ideal) v2 Row.classIota x l a)) a _
    ((cast11 _).trans (pay17_eq v2 x l xr lb hx hl a)) (Spec.proSpan_of_le 128 384 xr lb v2.toInt)

end Chunk

/-! ## The 512 positions as four chunks named by their first positions -/

/-- The row's first sum is the sum of its four chunks' sums. -/
private theorem ceRow_four (f : Fin 512 → Fin 2000 → ℝ) (lab : Fin 512 → Fin 2000) (thr : ℤ) :
    Spec.ceRow f lab thr =
      Spec.ceSpan 128 0 (fun r => f ⟨r.val, by omega⟩) (fun r => lab ⟨r.val, by omega⟩) thr
      + Spec.ceSpan 128 128 (fun r => f ⟨128 + r.val, by omega⟩) (fun r => lab ⟨128 + r.val, by omega⟩) thr
      + Spec.ceSpan 128 256 (fun r => f ⟨256 + r.val, by omega⟩) (fun r => lab ⟨256 + r.val, by omega⟩) thr
      + Spec.ceSpan 128 384 (fun r => f ⟨384 + r.val, by omega⟩) (fun r => lab ⟨384 + r.val, by omega⟩) thr := by
  rw [Spec.ceRow_chunks, Fin.sum_univ_four]
  -- chunk 0 starts at position 128 · 0 + r = r; the other three starts are the literals 128, 256, 384
  have hi : ∀ r : Fin 128,
      (⟨128 * (0 : Fin 4).val + r.val, by have := r.isLt; show 0 + r.val < 512; omega⟩ : Fin 512) = ⟨r.val, by omega⟩ :=
    fun r => Fin.ext (Nat.zero_add _)
  simp only [hi]
  rfl

/-- The row's second sum is the sum of its four chunks' sums. -/
private theorem proRow_four (f : Fin 512 → Fin 2000 → ℝ) (lab : Fin 512 → Fin 2000) (thr : ℤ) :
    Spec.proRow f lab thr =
      Spec.proSpan 128 0 (fun r => f ⟨r.val, by omega⟩) (fun r => lab ⟨r.val, by omega⟩) thr
      + Spec.proSpan 128 128 (fun r => f ⟨128 + r.val, by omega⟩) (fun r => lab ⟨128 + r.val, by omega⟩) thr
      + Spec.proSpan 128 256 (fun r => f ⟨256 + r.val, by omega⟩) (fun r => lab ⟨256 + r.val, by omega⟩) thr
      + Spec.proSpan 128 384 (fun r => f ⟨384 + r.val, by omega⟩) (fun r => lab ⟨384 + r.val, by omega⟩) thr := by
  rw [Spec.proRow_chunks, Fin.sum_univ_four]
  -- chunk 0 starts at position 128 · 0 + r = r; the other three starts are the literals 128, 256, 384
  have hi : ∀ r : Fin 128,
      (⟨128 * (0 : Fin 4).val + r.val, by have := r.isLt; show 0 + r.val < 512; omega⟩ : Fin 512) = ⟨r.val, by omega⟩ :=
    fun r => Fin.ext (Nat.zero_add _)
  simp only [hi]
  rfl

/-! ## The row -/

theorem ceAcc_eq (w : BitVec 32) (x0 x1 x2 x3 : Vec Ideal S1x128x2000 .f32) (l0 l1 l2 l3 : Vec Ideal S1x128x1 .i32)
    (xr : Fin 512 → Fin 2000 → ℝ) (lb : Fin 512 → Fin 2000)
    (hx0 : ∀ (r : Fin 128) (v : Fin 2000), x0 (ix3 (0 : Fin 1) r v) = ((xr ⟨r.val, by omega⟩ v : ℝ) : EReal))
    (hx1 : ∀ (r : Fin 128) (v : Fin 2000), x1 (ix3 (0 : Fin 1) r v) = ((xr ⟨128 + r.val, by omega⟩ v : ℝ) : EReal))
    (hx2 : ∀ (r : Fin 128) (v : Fin 2000), x2 (ix3 (0 : Fin 1) r v) = ((xr ⟨256 + r.val, by omega⟩ v : ℝ) : EReal))
    (hx3 : ∀ (r : Fin 128) (v : Fin 2000), x3 (ix3 (0 : Fin 1) r v) = ((xr ⟨384 + r.val, by omega⟩ v : ℝ) : EReal))
    (hl0 : ∀ r : Fin 128, (l0 (ix3 (0 : Fin 1) r (0 : Fin 1))).toInt = ((lb ⟨r.val, by omega⟩).val : ℤ))
    (hl1 : ∀ r : Fin 128, (l1 (ix3 (0 : Fin 1) r (0 : Fin 1))).toInt = ((lb ⟨128 + r.val, by omega⟩).val : ℤ))
    (hl2 : ∀ r : Fin 128, (l2 (ix3 (0 : Fin 1) r (0 : Fin 1))).toInt = ((lb ⟨256 + r.val, by omega⟩).val : ℤ))
    (hl3 : ∀ r : Fin 128, (l3 (ix3 (0 : Fin 1) r (0 : Fin 1))).toInt = ((lb ⟨384 + r.val, by omega⟩).val : ℤ))
    (hw : 3 ≤ w.toInt) :
    Row.ceAcc (F := Ideal) w x0 x1 x2 x3 l0 l1 l2 l3 (ix2 (0 : Fin 1) (0 : Fin 1))
      = ((Spec.ceRow xr lb (w.toInt - 2) : ℝ) : EReal) := by
  unfold Row.ceAcc
  rw [ce4_eq (Row.thr w) x3 l3 (fun r => xr ⟨384 + r.val, by omega⟩) (fun r => lb ⟨384 + r.val, by omega⟩) hx3 hl3,
    ce3_eq (Row.thr w) x2 l2 (fun r => xr ⟨256 + r.val, by omega⟩) (fun r => lb ⟨256 + r.val, by omega⟩) hx2 hl2,
    ce2_eq (Row.thr w) x1 l1 (fun r => xr ⟨128 + r.val, by omega⟩) (fun r => lb ⟨128 + r.val, by omega⟩) hx1 hl1,
    ce1_eq (Row.thr w) x0 l0 (fun r => xr ⟨r.val, by omega⟩) (fun r => lb ⟨r.val, by omega⟩) hx0 hl0,
    thr_toInt w hw, ceRow_four, EReal.coe_add, EReal.coe_add, EReal.coe_add]

theorem proAcc_eq (w : BitVec 32) (x0 x1 x2 x3 : Vec Ideal S1x128x2000 .f32) (l0 l1 l2 l3 : Vec Ideal S1x128x1 .i32)
    (xr : Fin 512 → Fin 2000 → ℝ) (lb : Fin 512 → Fin 2000)
    (hx0 : ∀ (r : Fin 128) (v : Fin 2000), x0 (ix3 (0 : Fin 1) r v) = ((xr ⟨r.val, by omega⟩ v : ℝ) : EReal))
    (hx1 : ∀ (r : Fin 128) (v : Fin 2000), x1 (ix3 (0 : Fin 1) r v) = ((xr ⟨128 + r.val, by omega⟩ v : ℝ) : EReal))
    (hx2 : ∀ (r : Fin 128) (v : Fin 2000), x2 (ix3 (0 : Fin 1) r v) = ((xr ⟨256 + r.val, by omega⟩ v : ℝ) : EReal))
    (hx3 : ∀ (r : Fin 128) (v : Fin 2000), x3 (ix3 (0 : Fin 1) r v) = ((xr ⟨384 + r.val, by omega⟩ v : ℝ) : EReal))
    (hl0 : ∀ r : Fin 128, (l0 (ix3 (0 : Fin 1) r (0 : Fin 1))).toInt = ((lb ⟨r.val, by omega⟩).val : ℤ))
    (hl1 : ∀ r : Fin 128, (l1 (ix3 (0 : Fin 1) r (0 : Fin 1))).toInt = ((lb ⟨128 + r.val, by omega⟩).val : ℤ))
    (hl2 : ∀ r : Fin 128, (l2 (ix3 (0 : Fin 1) r (0 : Fin 1))).toInt = ((lb ⟨256 + r.val, by omega⟩).val : ℤ))
    (hl3 : ∀ r : Fin 128, (l3 (ix3 (0 : Fin 1) r (0 : Fin 1))).toInt = ((lb ⟨384 + r.val, by omega⟩).val : ℤ))
    (hw : 3 ≤ w.toInt) :
    Row.proAcc (F := Ideal) w x0 x1 x2 x3 l0 l1 l2 l3 (ix2 (0 : Fin 1) (0 : Fin 1))
      = ((Spec.proRow xr lb (w.toInt - 2) : ℝ) : EReal) := by
  unfold Row.proAcc
  rw [pro4_eq (Row.thr w) x3 l3 (fun r => xr ⟨384 + r.val, by omega⟩) (fun r => lb ⟨384 + r.val, by omega⟩) hx3 hl3,
    pro3_eq (Row.thr w) x2 l2 (fun r => xr ⟨256 + r.val, by omega⟩) (fun r => lb ⟨256 + r.val, by omega⟩) hx2 hl2,
    pro2_eq (Row.thr w) x1 l1 (fun r => xr ⟨128 + r.val, by omega⟩) (fun r => lb ⟨128 + r.val, by omega⟩) hx1 hl1,
    pro1_eq (Row.thr w) x0 l0 (fun r => xr ⟨r.val, by omega⟩) (fun r => lb ⟨r.val, by omega⟩) hx0 hl0,
    thr_toInt w hw, proRow_four, EReal.coe_add, EReal.coe_add, EReal.coe_add]

/-- Every lane of the first output block holds the row's first sum, -/
theorem outCe_apply (w : BitVec 32) (x0 x1 x2 x3 : Vec Ideal S1x128x2000 .f32) (l0 l1 l2 l3 : Vec Ideal S1x128x1 .i32)
    (xr : Fin 512 → Fin 2000 → ℝ) (lb : Fin 512 → Fin 2000)
    (hx0 : ∀ (r : Fin 128) (v : Fin 2000), x0 (ix3 (0 : Fin 1) r v) = ((xr ⟨r.val, by omega⟩ v : ℝ) : EReal))
    (hx1 : ∀ (r : Fin 128) (v : Fin 2000), x1 (ix3 (0 : Fin 1) r v) = ((xr ⟨128 + r.val, by omega⟩ v : ℝ) : EReal))
    (hx2 : ∀ (r : Fin 128) (v : Fin 2000), x2 (ix3 (0 : Fin 1) r v) = ((xr ⟨256 + r.val, by omega⟩ v : ℝ) : EReal))
    (hx3 : ∀ (r : Fin 128) (v : Fin 2000), x3 (ix3 (0 : Fin 1) r v) = ((xr ⟨384 + r.val, by omega⟩ v : ℝ) : EReal))
    (hl0 : ∀ r : Fin 128, (l0 (ix3 (0 : Fin 1) r (0 : Fin 1))).toInt = ((lb ⟨r.val, by omega⟩).val : ℤ))
    (hl1 : ∀ r : Fin 128, (l1 (ix3 (0 : Fin 1) r (0 : Fin 1))).toInt = ((lb ⟨128 + r.val, by omega⟩).val : ℤ))
    (hl2 : ∀ r : Fin 128, (l2 (ix3 (0 : Fin 1) r (0 : Fin 1))).toInt = ((lb ⟨256 + r.val, by omega⟩).val : ℤ))
    (hl3 : ∀ r : Fin 128, (l3 (ix3 (0 : Fin 1) r (0 : Fin 1))).toInt = ((lb ⟨384 + r.val, by omega⟩).val : ℤ))
    (hw : 3 ≤ w.toInt) (j : Fin 128) :
    Row.outCe (F := Ideal) w x0 x1 x2 x3 l0 l1 l2 l3 (ix3 (0 : Fin 1) (0 : Fin 1) j)
      = ((Spec.ceRow xr lb (w.toInt - 2) : ℝ) : EReal) := by
  -- a broadcast scalar is read on every lane; the scalar is the accumulator's entry (0, 0)
  show extractAt ![0, 0] (Row.ceAcc (F := Ideal) w x0 x1 x2 x3 l0 l1 l2 l3) inpos_S1x1_p0_0 = _
  rw [extract00]
  exact ceAcc_eq w x0 x1 x2 x3 l0 l1 l2 l3 xr lb hx0 hx1 hx2 hx3 hl0 hl1 hl2 hl3 hw

/-- and every lane of the second the row's second sum. -/
theorem outPro_apply (w : BitVec 32) (x0 x1 x2 x3 : Vec Ideal S1x128x2000 .f32) (l0 l1 l2 l3 : Vec Ideal S1x128x1 .i32)
    (xr : Fin 512 → Fin 2000 → ℝ) (lb : Fin 512 → Fin 2000)
    (hx0 : ∀ (r : Fin 128) (v : Fin 2000), x0 (ix3 (0 : Fin 1) r v) = ((xr ⟨r.val, by omega⟩ v : ℝ) : EReal))
    (hx1 : ∀ (r : Fin 128) (v : Fin 2000), x1 (ix3 (0 : Fin 1) r v) = ((xr ⟨128 + r.val, by omega⟩ v : ℝ) : EReal))
    (hx2 : ∀ (r : Fin 128) (v : Fin 2000), x2 (ix3 (0 : Fin 1) r v) = ((xr ⟨256 + r.val, by omega⟩ v : ℝ) : EReal))
    (hx3 : ∀ (r : Fin 128) (v : Fin 2000), x3 (ix3 (0 : Fin 1) r v) = ((xr ⟨384 + r.val, by omega⟩ v : ℝ) : EReal))
    (hl0 : ∀ r : Fin 128, (l0 (ix3 (0 : Fin 1) r (0 : Fin 1))).toInt = ((lb ⟨r.val, by omega⟩).val : ℤ))
    (hl1 : ∀ r : Fin 128, (l1 (ix3 (0 : Fin 1) r (0 : Fin 1))).toInt = ((lb ⟨128 + r.val, by omega⟩).val : ℤ))
    (hl2 : ∀ r : Fin 128, (l2 (ix3 (0 : Fin 1) r (0 : Fin 1))).toInt = ((lb ⟨256 + r.val, by omega⟩).val : ℤ))
    (hl3 : ∀ r : Fin 128, (l3 (ix3 (0 : Fin 1) r (0 : Fin 1))).toInt = ((lb ⟨384 + r.val, by omega⟩).val : ℤ))
    (hw : 3 ≤ w.toInt) (j : Fin 128) :
    Row.outPro (F := Ideal) w x0 x1 x2 x3 l0 l1 l2 l3 (ix3 (0 : Fin 1) (0 : Fin 1) j)
      = ((Spec.proRow xr lb (w.toInt - 2) : ℝ) : EReal) := by
  -- a broadcast scalar is read on every lane; the scalar is the accumulator's entry (0, 0)
  show extractAt ![0, 0] (Row.proAcc (F := Ideal) w x0 x1 x2 x3 l0 l1 l2 l3) inpos_S1x1_p0_0 = _
  rw [extract00]
  exact proAcc_eq w x0 x1 x2 x3 l0 l1 l2 l3 xr lb hx0 hx1 hx2 hx3 hl0 hl1 hl2 hl3 hw

end Cert.KernelIdeal.RowValue

end
-- ==== Proof.ArrayValue.lean ====
/-
  The two result arrays after the region, read over the real numbers.

  Grid point t writes back row t of each result array: block t of a result array is rows [t, t+1) of it, the blocks
  are disjoint and cover the array, so after the last point entry (b, 0, j) is what point b stored on lane j. Point
  b's input blocks are row b of the logits and of the reshaped labels; a chunk slice's entry (0, r, v) is the block's
  entry (0, 128k + r, v). With real logits, labels in range and a table word of at least 3, the row functions are the
  specification's row sums: every lane of row b holds them.
-/
import proofs.«426013_j77464030151294_3_alg».proof.Proof.KData
import proofs.«426013_j77464030151294_3_alg».proof.Proof.RowValue
import Idealize.ShloMosaic.Lib.Pipeline.Value

set_option maxRecDepth 16384

noncomputable section

namespace Cert.KernelIdeal.ArrayValue

open Cert.KernelIdeal Cert.KernelIdeal.Gen Cert.KernelIdeal.Run
open Idealize.ShloMosaic Idealize.ShloMosaic.TcCoe Idealize.ShloMosaic.ValueIdx
open Idealize.ShloMosaic.Pipeline (Dat Cfg Window)

attribute [local instance] Cert.KernelIdeal.Gen.facts

variable (m : (ℓ : Loc nD τ sig) → Buf (Elt Ideal) ℓ)

/-! ## The grid and the index maps -/

theorem N_eq : (cfg m).N = 64 := rfl

/-- The grid point of batch row `b`. -/
def pt (b : Fin 64) : Fin (cfg m).N := ⟨b.val, b.isLt⟩

/-- The printed index maps, decided over the grid: every window's block index at point t is (t, 0, 0), and the
    grid's one coordinate at point t is t. -/
theorem idx_facts : ∀ t : Fin grid0.N,
    cc0_transform_0 (grid0.coords t) 0 = t.val ∧ cc0_transform_0 (grid0.coords t) 1 = 0 ∧ cc0_transform_0 (grid0.coords t) 2 = 0
    ∧ cc0_transform_1 (grid0.coords t) 0 = t.val ∧ cc0_transform_1 (grid0.coords t) 1 = 0 ∧ cc0_transform_1 (grid0.coords t) 2 = 0
    ∧ cc0_transform_2 (grid0.coords t) 0 = t.val ∧ cc0_transform_2 (grid0.coords t) 1 = 0 ∧ cc0_transform_2 (grid0.coords t) 2 = 0
    ∧ cc0_transform_3 (grid0.coords t) 0 = t.val ∧ cc0_transform_3 (grid0.coords t) 1 = 0 ∧ cc0_transform_3 (grid0.coords t) 2 = 0
    ∧ (grid0.coords t 0).val = t.val := by
  decide +kernel

/-- Every point writes its two output blocks back. -/
theorem flush_facts : ∀ t : Fin grid0.N,
    Window.flushOf grid0 true cc0_transform_2 t = true ∧ Window.flushOf grid0 true cc0_transform_3 t = true := by
  decide +kernel

theorem flush2 (t : Fin (cfg m).N) : ((cfg m).win 2).flush t = true := (flush_facts t).1
theorem flush3 (t : Fin (cfg m).N) : ((cfg m).win 3).flush t = true := (flush_facts t).2

theorem index0 (t : Fin (cfg m).N) : ((cfg m).win 0).index t = cc0_transform_0 (grid0.coords t) := rfl
theorem index1 (t : Fin (cfg m).N) : ((cfg m).win 1).index t = cc0_transform_1 (grid0.coords t) := rfl
theorem index2 (t : Fin (cfg m).N) : ((cfg m).win 2).index t = cc0_transform_2 (grid0.coords t) := rfl
theorem index3 (t : Fin (cfg m).N) : ((cfg m).win 3).index t = cc0_transform_3 (grid0.coords t) := rfl

/-- The table word the body reads at point t is the table's entry t. -/
theorem tblWord_pt (t : Fin (cfg m).N) (tb : S64.Idx → BitVec 32) :
    Row.tblWord (grid0.coords t) tb = tb (ix1 (n := 64) ⟨t.val, t.isLt⟩) := by
  unfold Row.tblWord
  exact congrArg tb (congrArg (ix1 (n := 64)) (Fin.ext (idx_facts t).2.2.2.2.2.2.2.2.2.2.2.2))

/-! ## A point's input blocks, and the body's chunk slices of them -/

/-- Point t's block of logits is row t of the logits array. -/
theorem iblk0_apply (c : Dev nD) (t : Fin (cfg m).N) (s : Fin 512) (v : Fin 2000) :
    (iblk m c 0 t : S1x512x2000.Idx → Elt Ideal .f32) (ix3 (0 : Fin 1) s v)
      = V m c main_arg0 (ix3 (⟨t.val, t.isLt⟩ : Fin 64) s v) := by
  obtain ⟨e0, e1, e2, -⟩ := idx_facts t
  unfold iblk
  show V m c main_arg0 ((((cfg m).win 0).blk t).view.emb (ix3 (0 : Fin 1) s v)) = V m c main_arg0 _
  refine congrArg (V m c main_arg0) (funext fun a => Fin.ext ?_)
  match a with
  | ⟨0, _⟩ => show cc0_transform_0 (grid0.coords t) 0 * 1 + 1 * 0 = t.val; omega
  | ⟨1, _⟩ => show cc0_transform_0 (grid0.coords t) 1 * 512 + 1 * s.val = s.val; omega
  | ⟨2, _⟩ => show cc0_transform_0 (grid0.coords t) 2 * 2000 + 1 * v.val = v.val; omega

/-- Point t's block of labels is row t of the reshaped label array. -/
theorem iblk1_apply (c : Dev nD) (t : Fin (cfg m).N) (s : Fin 512) :
    (iblk m c 1 t : S1x512x1.Idx → Elt Ideal .i32) (ix3 (0 : Fin 1) s (0 : Fin 1))
      = V m c main_v0 (ix3 (⟨t.val, t.isLt⟩ : Fin 64) s (0 : Fin 1)) := by
  obtain ⟨-, -, -, e0, e1, e2, -⟩ := idx_facts t
  unfold iblk
  show V m c main_v0 ((((cfg m).win 1).blk t).view.emb (ix3 (0 : Fin 1) s (0 : Fin 1))) = V m c main_v0 _
  refine congrArg (V m c main_v0) (funext fun a => Fin.ext ?_)
  match a with
  | ⟨0, _⟩ => show cc0_transform_1 (grid0.coords t) 0 * 1 + 1 * 0 = t.val; omega
  | ⟨1, _⟩ => show cc0_transform_1 (grid0.coords t) 1 * 512 + 1 * s.val = s.val; omega
  | ⟨2, _⟩ => show cc0_transform_1 (grid0.coords t) 2 * 1 + 1 * 0 = 0; omega

/-- A slice of 128 positions from position `o` of a block of logits reads the block at position `o + r`. -/
theorem ld_x (o : ℕ) (inb : ∀ a, (![0, o, 0] : Fin 3 → Nat) a + S1x128x2000.size a ≤ S1x512x2000.size a)
    (X : S1x512x2000.Idx → Elt Ideal .f32) (r : Fin 128) (v : Fin 2000) (k : Fin 512) (hk : k.val = o + r.val) :
    View.ld X (Rect.unit (s := S1x512x2000) ![0, o, 0] S1x128x2000.size inb) (ix3 (0 : Fin 1) r v)
      = X (ix3 (0 : Fin 1) k v) := by
  refine congrArg X (funext fun a => Fin.ext ?_)
  match a with
  | ⟨0, _⟩ => rfl
  | ⟨1, _⟩ => show o + 1 * r.val = k.val; omega
  | ⟨2, _⟩ => show 0 + 1 * v.val = v.val; omega

/-- The same for a block of labels. -/
theorem ld_l (o : ℕ) (inb : ∀ a, (![0, o, 0] : Fin 3 → Nat) a + S1x128x1.size a ≤ S1x512x1.size a)
    (Lb : S1x512x1.Idx → Elt Ideal .i32) (r : Fin 128) (k : Fin 512) (hk : k.val = o + r.val) :
    View.ld Lb (Rect.unit (s := S1x512x1) ![0, o, 0] S1x128x1.size inb) (ix3 (0 : Fin 1) r (0 : Fin 1))
      = Lb (ix3 (0 : Fin 1) k (0 : Fin 1)) := by
  refine congrArg Lb (funext fun a => Fin.ext ?_)
  match a with
  | ⟨0, _⟩ => rfl
  | ⟨1, _⟩ => show o + 1 * r.val = k.val; omega
  | ⟨2, _⟩ => rfl

/-! ## One point's output blocks over the reals -/

/-- With real logits, labels in range and a table word of at least 3, every lane of the first output block of a
    point holds the row's first sum, -/
theorem pointCe_eq (w : BitVec 32) (X : S1x512x2000.Idx → Elt Ideal .f32) (Lb : S1x512x1.Idx → Elt Ideal .i32)
    (xr : Fin 512 → Fin 2000 → ℝ) (lb : Fin 512 → Fin 2000)
    (hX : ∀ (s : Fin 512) (v : Fin 2000), X (ix3 (0 : Fin 1) s v) = ((xr s v : ℝ) : EReal))
    (hL : ∀ s : Fin 512, (Lb (ix3 (0 : Fin 1) s (0 : Fin 1))).toInt = ((lb s).val : ℤ))
    (hw : 3 ≤ w.toInt) (j : Fin 128) :
    Row.pointCe (F := Ideal) w X Lb (ix3 (0 : Fin 1) (0 : Fin 1) j) = ((Spec.ceRow xr lb (w.toInt - 2) : ℝ) : EReal) := by
  unfold Row.pointCe
  exact RowValue.outCe_apply w _ _ _ _ _ _ _ _ xr lb
    (fun r v => (ld_x 0 _ X r v ⟨r.val, by omega⟩ (by simp)).trans (hX _ v))
    (fun r v => (ld_x 128 _ X r v ⟨128 + r.val, by omega⟩ rfl).trans (hX _ v))
    (fun r v => (ld_x 256 _ X r v ⟨256 + r.val, by omega⟩ rfl).trans (hX _ v))
    (fun r v => (ld_x 384 _ X r v ⟨384 + r.val, by omega⟩ rfl).trans (hX _ v))
    (fun r => (congrArg BitVec.toInt (ld_l 0 _ Lb r ⟨r.val, by omega⟩ (by simp))).trans (hL _))
    (fun r => (congrArg BitVec.toInt (ld_l 128 _ Lb r ⟨128 + r.val, by omega⟩ rfl)).trans (hL _))
    (fun r => (congrArg BitVec.toInt (ld_l 256 _ Lb r ⟨256 + r.val, by omega⟩ rfl)).trans (hL _))
    (fun r => (congrArg BitVec.toInt (ld_l 384 _ Lb r ⟨384 + r.val, by omega⟩ rfl)).trans (hL _))
    hw j

/-- and every lane of the second the row's second sum. -/
theorem pointPro_eq (w : BitVec 32) (X : S1x512x2000.Idx → Elt Ideal .f32) (Lb : S1x512x1.Idx → Elt Ideal .i32)
    (xr : Fin 512 → Fin 2000 → ℝ) (lb : Fin 512 → Fin 2000)
    (hX : ∀ (s : Fin 512) (v : Fin 2000), X (ix3 (0 : Fin 1) s v) = ((xr s v : ℝ) : EReal))
    (hL : ∀ s : Fin 512, (Lb (ix3 (0 : Fin 1) s (0 : Fin 1))).toInt = ((lb s).val : ℤ))
    (hw : 3 ≤ w.toInt) (j : Fin 128) :
    Row.pointPro (F := Ideal) w X Lb (ix3 (0 : Fin 1) (0 : Fin 1) j) = ((Spec.proRow xr lb (w.toInt - 2) : ℝ) : EReal) := by
  unfold Row.pointPro
  exact RowValue.outPro_apply w _ _ _ _ _ _ _ _ xr lb
    (fun r v => (ld_x 0 _ X r v ⟨r.val, by omega⟩ (by simp)).trans (hX _ v))
    (fun r v => (ld_x 128 _ X r v ⟨128 + r.val, by omega⟩ rfl).trans (hX _ v))
    (fun r v => (ld_x 256 _ X r v ⟨256 + r.val, by omega⟩ rfl).trans (hX _ v))
    (fun r v => (ld_x 384 _ X r v ⟨384 + r.val, by omega⟩ rfl).trans (hX _ v))
    (fun r => (congrArg BitVec.toInt (ld_l 0 _ Lb r ⟨r.val, by omega⟩ (by simp))).trans (hL _))
    (fun r => (congrArg BitVec.toInt (ld_l 128 _ Lb r ⟨128 + r.val, by omega⟩ rfl)).trans (hL _))
    (fun r => (congrArg BitVec.toInt (ld_l 256 _ Lb r ⟨256 + r.val, by omega⟩ rfl)).trans (hL _))
    (fun r => (congrArg BitVec.toInt (ld_l 384 _ Lb r ⟨384 + r.val, by omega⟩ rfl)).trans (hL _))
    hw j

/-! ## The result arrays after the last point -/

/-- What point t leaves in its first output block, -/
def pointCeOf (c : Dev nD) (t : Fin (cfg m).N) : S1x1x128.Idx → Elt Ideal .f32 :=
  Row.pointCe (F := Ideal) (Row.tblWord (grid0.coords t) (tbl m 0)) (iblk m c 0 t) (iblk m c 1 t)

/-- and in its second. -/
def pointProOf (c : Dev nD) (t : Fin (cfg m).N) : S1x1x128.Idx → Elt Ideal .f32 :=
  Row.pointPro (F := Ideal) (Row.tblWord (grid0.coords t) (tbl m 0)) (iblk m c 0 t) (iblk m c 1 t)

/-- The first result array as one function of the arrays the region finds: row b, lane j holds lane j of what
    point b leaves. -/
def G2 (c : Dev nD) : S64x1x128.Idx → Elt Ideal .f32 := fun i =>
  pointCeOf m c ⟨(i 0).val, (i 0).isLt⟩ (ix3 (0 : Fin 1) (0 : Fin 1) (⟨(i 2).val, (i 2).isLt⟩ : Fin 128))

/-- The second result array likewise. -/
def G3 (c : Dev nD) : S64x1x128.Idx → Elt Ideal .f32 := fun i =>
  pointProOf m c ⟨(i 0).val, (i 0).isLt⟩ (ix3 (0 : Fin 1) (0 : Fin 1) (⟨(i 2).val, (i 2).isLt⟩ : Fin 128))

/-- What point t writes back to the first result array is block t of `G2`. -/
theorem flushed2_eq (c : Dev nD) (t : Fin (cfg m).N) :
    (dats m 0 c).flushed (2 : Fin 4) t = (((cfg m).win 2).blk t).view.read (Elt Ideal) (G2 m c) := by
  obtain ⟨-, -, -, -, -, -, e0, e1, e2, -⟩ := idx_facts t
  funext y
  refine (congrFun (after_2 m c t) (((cfg m).win 2).xinj ((cfg m).grid.coords t) y)).trans ?_
  show pointCeOf m c t (((cfg m).win 2).xinj ((cfg m).grid.coords t) y)
    = G2 m c ((((cfg m).win 2).blk t).view.emb y)
  have h0 : (y 0).val < 1 := (y 0).isLt
  have h1 : (y 1).val < 1 := (y 1).isLt
  unfold G2
  refine congrArg₂ (pointCeOf m c) (Fin.ext ?_) (funext fun a => Fin.ext ?_)
  · show t.val = cc0_transform_2 (grid0.coords t) 0 * 1 + 1 * (y 0).val; omega
  · match a with
    | ⟨0, _⟩ => show (y 0).val = 0; omega
    | ⟨1, _⟩ => show (y 1).val = 0; omega
    | ⟨2, _⟩ => show (y 2).val = cc0_transform_2 (grid0.coords t) 2 * 128 + 1 * (y 2).val; omega

/-- What point t writes back to the second result array is block t of `G3`. -/
theorem flushed3_eq (c : Dev nD) (t : Fin (cfg m).N) :
    (dats m 0 c).flushed (3 : Fin 4) t = (((cfg m).win 3).blk t).view.read (Elt Ideal) (G3 m c) := by
  obtain ⟨-, -, -, -, -, -, -, -, -, e0, e1, e2, -⟩ := idx_facts t
  funext y
  refine (congrFun (after_3 m c t) (((cfg m).win 3).xinj ((cfg m).grid.coords t) y)).trans ?_
  show pointProOf m c t (((cfg m).win 3).xinj ((cfg m).grid.coords t) y)
    = G3 m c ((((cfg m).win 3).blk t).view.emb y)
  have h0 : (y 0).val < 1 := (y 0).isLt
  have h1 : (y 1).val < 1 := (y 1).isLt
  unfold G3
  refine congrArg₂ (pointProOf m c) (Fin.ext ?_) (funext fun a => Fin.ext ?_)
  · show t.val = cc0_transform_3 (grid0.coords t) 0 * 1 + 1 * (y 0).val; omega
  · match a with
    | ⟨0, _⟩ => show (y 0).val = 0; omega
    | ⟨1, _⟩ => show (y 1).val = 0; omega
    | ⟨2, _⟩ => show (y 2).val = cc0_transform_3 (grid0.coords t) 2 * 128 + 1 * (y 2).val; omega

/-- Entry (b, 0, j) of the first result array lies in point b's block, -/
theorem mem_blk2 (b : Fin 64) (j : Fin 128) :
    (ix3 b (0 : Fin 1) j : S64x1x128.Idx) ∈ (((cfg m).win 2).blk (pt m b)).view.set := by
  obtain ⟨-, -, -, -, -, -, e0, e1, e2, -⟩ := idx_facts (pt m b)
  have e0' : cc0_transform_2 (grid0.coords (pt m b)) 0 = b.val := e0
  show _ ∈ ((View.whole main_v1_0).slice (((cfg m).win 2).rect (pt m b))).set
  refine (Finset.ext_iff.mp (View.set_slice_whole main_v1_0 (((cfg m).win 2).rect (pt m b))) _).mpr ?_
  refine Rect.mem_set_unit.mpr fun a => ?_
  match a with
  | ⟨0, _⟩ =>
    show cc0_transform_2 (grid0.coords (pt m b)) 0 * 1 ≤ b.val ∧ b.val < cc0_transform_2 (grid0.coords (pt m b)) 0 * 1 + 1
    omega
  | ⟨1, _⟩ =>
    show cc0_transform_2 (grid0.coords (pt m b)) 1 * 1 ≤ 0 ∧ 0 < cc0_transform_2 (grid0.coords (pt m b)) 1 * 1 + 1
    omega
  | ⟨2, _⟩ =>
    show cc0_transform_2 (grid0.coords (pt m b)) 2 * 128 ≤ j.val ∧ j.val < cc0_transform_2 (grid0.coords (pt m b)) 2 * 128 + 128
    omega

/-- and of the second likewise. -/
theorem mem_blk3 (b : Fin 64) (j : Fin 128) :
    (ix3 b (0 : Fin 1) j : S64x1x128.Idx) ∈ (((cfg m).win 3).blk (pt m b)).view.set := by
  obtain ⟨-, -, -, -, -, -, -, -, -, e0, e1, e2, -⟩ := idx_facts (pt m b)
  have e0' : cc0_transform_3 (grid0.coords (pt m b)) 0 = b.val := e0
  show _ ∈ ((View.whole main_v1_1).slice (((cfg m).win 3).rect (pt m b))).set
  refine (Finset.ext_iff.mp (View.set_slice_whole main_v1_1 (((cfg m).win 3).rect (pt m b))) _).mpr ?_
  refine Rect.mem_set_unit.mpr fun a => ?_
  match a with
  | ⟨0, _⟩ =>
    show cc0_transform_3 (grid0.coords (pt m b)) 0 * 1 ≤ b.val ∧ b.val < cc0_transform_3 (grid0.coords (pt m b)) 0 * 1 + 1
    omega
  | ⟨1, _⟩ =>
    show cc0_transform_3 (grid0.coords (pt m b)) 1 * 1 ≤ 0 ∧ 0 < cc0_transform_3 (grid0.coords (pt m b)) 1 * 1 + 1
    omega
  | ⟨2, _⟩ =>
    show cc0_transform_3 (grid0.coords (pt m b)) 2 * 128 ≤ j.val ∧ j.val < cc0_transform_3 (grid0.coords (pt m b)) 2 * 128 + 128
    omega

/-- Row b of the first result array holds the row's first sum on every lane, -/
theorem arr_ce (c : Dev nD) (xr : Fin 64 → Fin 512 → Fin 2000 → ℝ) (lb : Fin 64 → Fin 512 → Fin 2000)
    (hx : ∀ (b : Fin 64) (s : Fin 512) (v : Fin 2000), V m c main_arg0 (ix3 b s v) = ((xr b s v : ℝ) : EReal))
    (hlab : ∀ (b : Fin 64) (s : Fin 512), (V m c main_v0 (ix3 b s (0 : Fin 1))).toInt = ((lb b s).val : ℤ))
    (hsl : ∀ b : Fin 64, 3 ≤ (tbl m 0 (ix1 b)).toInt) (b : Fin 64) (j : Fin 128) :
    (dats m 0 c).arrAt (2 : Fin 4) (cfg m).N (ix3 b (0 : Fin 1) j)
      = ((Spec.ceRow (xr b) (lb b) ((tbl m 0 (ix1 b)).toInt - 2) : ℝ) : EReal) := by
  refine ((dats m 0 c).arrAt_apply_of_mem (2 : Fin 4) (G2 m c) (fun t _ => flushed2_eq m c t) (cfg m).N (pt m b)
    (ix3 b (0 : Fin 1) j) (pt m b).isLt (flush2 m _) (mem_blk2 m b j)).trans ?_
  show Row.pointCe (F := Ideal) (Row.tblWord (grid0.coords (pt m b)) (tbl m 0)) (iblk m c 0 (pt m b)) (iblk m c 1 (pt m b))
    (ix3 (0 : Fin 1) (0 : Fin 1) j) = _
  refine (congrArg (fun w => Row.pointCe (F := Ideal) w (iblk m c 0 (pt m b)) (iblk m c 1 (pt m b))
    (ix3 (0 : Fin 1) (0 : Fin 1) j)) (tblWord_pt m (pt m b) (tbl m 0))).trans ?_
  exact pointCe_eq (tbl m 0 (ix1 b)) _ _ (xr b) (lb b)
    (fun s v => (iblk0_apply m c (pt m b) s v).trans (hx b s v))
    (fun s => (congrArg BitVec.toInt (iblk1_apply m c (pt m b) s)).trans (hlab b s)) (hsl b) j

/-- and row b of the second the row's second sum. -/
theorem arr_pro (c : Dev nD) (xr : Fin 64 → Fin 512 → Fin 2000 → ℝ) (lb : Fin 64 → Fin 512 → Fin 2000)
    (hx : ∀ (b : Fin 64) (s : Fin 512) (v : Fin 2000), V m c main_arg0 (ix3 b s v) = ((xr b s v : ℝ) : EReal))
    (hlab : ∀ (b : Fin 64) (s : Fin 512), (V m c main_v0 (ix3 b s (0 : Fin 1))).toInt = ((lb b s).val : ℤ))
    (hsl : ∀ b : Fin 64, 3 ≤ (tbl m 0 (ix1 b)).toInt) (b : Fin 64) (j : Fin 128) :
    (dats m 0 c).arrAt (3 : Fin 4) (cfg m).N (ix3 b (0 : Fin 1) j)
      = ((Spec.proRow (xr b) (lb b) ((tbl m 0 (ix1 b)).toInt - 2) : ℝ) : EReal) := by
  refine ((dats m 0 c).arrAt_apply_of_mem (3 : Fin 4) (G3 m c) (fun t _ => flushed3_eq m c t) (cfg m).N (pt m b)
    (ix3 b (0 : Fin 1) j) (pt m b).isLt (flush3 m _) (mem_blk3 m b j)).trans ?_
  show Row.pointPro (F := Ideal) (Row.tblWord (grid0.coords (pt m b)) (tbl m 0)) (iblk m c 0 (pt m b)) (iblk m c 1 (pt m b))
    (ix3 (0 : Fin 1) (0 : Fin 1) j) = _
  refine (congrArg (fun w => Row.pointPro (F := Ideal) w (iblk m c 0 (pt m b)) (iblk m c 1 (pt m b))
    (ix3 (0 : Fin 1) (0 : Fin 1) j)) (tblWord_pt m (pt m b) (tbl m 0))).trans ?_
  exact pointPro_eq (tbl m 0 (ix1 b)) _ _ (xr b) (lb b)
    (fun s v => (iblk0_apply m c (pt m b) s v).trans (hx b s v))
    (fun s => (congrArg BitVec.toInt (iblk1_apply m c (pt m b) s)).trans (hlab b s)) (hsl b) j

end Cert.KernelIdeal.ArrayValue

end
-- ==== Proof.Consts.lean ====
/-
  The float literals the two programs share, as real numbers: 0, 1, 2, 64 exactly, and the three weights of the
  closing sum (each a finite pattern, so a real number; their values are never needed, only that both programs
  carry the same ones).
-/
import Idealize.ShloMosaic.PureOps.Ideal

noncomputable section

namespace Cert.Consts

open Idealize.ShloMosaic

theorem ofBits_zero : Ideal.ofBits .f32 0x00000000#32 = (0 : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
/-- The pattern of negative infinity is the bottom element. -/
theorem ofBits_neg_inf : Ideal.ofBits .f32 0xFF800000#32 = (⊥ : EReal) := by
  simp [Ideal.ofBits, Ideal.ieee]

/-- A 32-bit pattern whose exponent field is not all ones denotes a real number: a zero or subnormal when the field
    is zero, a normal number otherwise. -/
theorem real_of_exponent (b : BitVec 32) (h : (b.extractLsb' 23 8).toNat ≠ 2 ^ 8 - 1) :
    ∃ r : ℝ, Ideal.ofBits .f32 b = (r : EReal) := by
  show ∃ r : ℝ, Ideal.ieee 8 23 b = (r : EReal)
  unfold Ideal.ieee
  dsimp only
  rw [if_neg h]
  split <;> exact ⟨_, rfl⟩

/-- An extended real that is a real number is the coercion of its real part. -/
theorem coe_toReal_of_real (a : EReal) (h : ∃ r : ℝ, a = (r : EReal)) : a = ((a.toReal : ℝ) : EReal) := by
  obtain ⟨r, rfl⟩ := h
  rfl

/-- The three weights of the closing sum, as the real numbers their patterns denote. -/
def c₁ : ℝ := (Ideal.ofBits .f32 0x3727C5AC#32).toReal
def c₂ : ℝ := (Ideal.ofBits .f32 0x3EC80000#32).toReal
def c₃ : ℝ := (Ideal.ofBits .f32 0x41200000#32).toReal
theorem ofBits_c₁ : Ideal.ofBits .f32 0x3727C5AC#32 = ((c₁ : ℝ) : EReal) :=
  coe_toReal_of_real _ (real_of_exponent 0x3727C5AC#32 (by decide))
theorem ofBits_c₂ : Ideal.ofBits .f32 0x3EC80000#32 = ((c₂ : ℝ) : EReal) :=
  coe_toReal_of_real _ (real_of_exponent 0x3EC80000#32 (by decide))
theorem ofBits_c₃ : Ideal.ofBits .f32 0x41200000#32 = ((c₃ : ℝ) : EReal) :=
  coe_toReal_of_real _ (real_of_exponent 0x41200000#32 (by decide))

end Cert.Consts

end
-- ==== Proof.KernelTail.lean ====
/-
  The kernel's closing host operations, read over the real numbers.

  After the region, two arrays hold each row's two sums on every one of 128 lanes. The host takes lane 0 of each, forms
  L = max (sequence_len − 2, 1) as a number — which is the threshold itself, the threshold being at least 1 —, divides
  the first sum twice and the second once by L, averages over the 64 rows, averages the two loss vectors, and adds the
  three with the literal weights.
-/
import proofs.«426013_j77464030151294_3_alg».proof.Proof.Gen.KernelIdeal.Launch
import proofs.«426013_j77464030151294_3_alg».proof.Proof.Consts
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Mathlib.Algebra.BigOperators.Fin

noncomputable section

namespace Cert.KernelIdeal.Tail

open Idealize.ShloMosaic Idealize.ShloMosaic.TcCoe Idealize.ShloMosaic.ValueIdx Idealize.ShloMosaic.StableHlo
open Cert.KernelIdeal Cert.KernelIdeal.Gen
open scoped BigOperators

attribute [local instance] Cert.KernelIdeal.Gen.facts

/-! ## One element, over the extended reals -/

/-- The coercion of a finite sum of real numbers is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A real number divided by a nonzero real number, as extended reals, is the real quotient. -/
theorem div_real (a L : ℝ) (hL : L ≠ 0) : Ideal.div (a : EReal) (L : EReal) = ((a / L : ℝ) : EReal) := by
  rw [Ideal.div_coe hL, ← EReal.coe_mul, mul_one_div]

/-- A rank-1 index set is its coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The operations at an index -/

/-- The quotient of two vectors at an index where both are real and the divisor is not zero. -/
theorem divf_real {s : Shape} (x y : FVec Ideal s .f32) (i : s.Idx) (a L : ℝ) (hx : x i = (a : EReal))
    (hy : y i = (L : EReal)) (hL : L ≠ 0) : Host.divf x y i = ((a / L : ℝ) : EReal) := by
  show Ideal.div (x i) (y i) = _
  rw [hx, hy, div_real a L hL]

/-- Lane 0 of row b of a [64, 1, 128] array, taken by a slice and a reshape to [64]. -/
theorem lane0 {α : Type} (A : (⟨3, ![64, 1, 128]⟩ : Shape).Idx → α)
    (hs : (⟨3, ![64, 1, 128]⟩ : Shape).Slices ![0, 0, 0] ⟨3, ![64, 1, 1]⟩)
    (hc : (⟨3, ![64, 1, 1]⟩ : Shape).ShapeCasts ⟨1, ![64]⟩) (b : Fin 64) :
    shapeCast ⟨1, ![64]⟩ (extractStridedSlice ⟨3, ![64, 1, 1]⟩ ![0, 0, 0] A hs) hc (ix1 b)
      = A (ix3 b (0 : Fin 1) (0 : Fin 128)) := by
  refine (shapeCast_apply _ hc (ix1 b) (ix3 b (0 : Fin 1) (0 : Fin 1)) ?_).trans
    (extractStridedSlice_apply _ A hs _ (ix3 b (0 : Fin 1) (0 : Fin 128)) ?_)
  · rw [Shape.rowMajor_val_three, Shape.rowMajor_val_one]
    show (b.val * 1 + 0) * 1 + 0 = b.val
    omega
  · intro a
    match a with
    | ⟨0, _⟩ => show b.val = 0 + b.val; omega
    | ⟨1, _⟩ => rfl
    | ⟨2, _⟩ => rfl

/-- The divisor L = max (sequence_len − 2, 1) at row b: the threshold, which is at least 1. -/
theorem divisor_apply (sl : IVec (⟨1, ![64]⟩ : Shape) 32) (hb : (⟨0, ![]⟩ : Shape).BroadcastsInDim ⟨1, ![64]⟩ ![])
    (b : Fin 64) (t : ℤ) (hsl : (sl (ix1 b)).toInt = t + 2) (ht : 1 ≤ t) :
    maximumf (subf (sitofp (F := Ideal) .f32 sl) (broadcastInDim ⟨1, ![64]⟩ ![] hb (constant (F := Ideal) ⟨0, ![]⟩ .f32 0x40000000#32)))
        (broadcastInDim ⟨1, ![64]⟩ ![] hb (constant (F := Ideal) ⟨0, ![]⟩ .f32 0x3F800000#32)) (ix1 b)
      = ((t : ℝ) : EReal) := by
  show max ((((sl (ix1 b)).toInt : ℝ) : EReal) - Ideal.ofBits .f32 0x40000000#32) (Ideal.ofBits .f32 0x3F800000#32) = _
  rw [hsl, Consts.ofBits_two, Consts.ofBits_one, ← EReal.coe_sub]
  have e : (((t + 2 : ℤ) : ℝ) - 2) = (t : ℝ) := by push_cast; ring
  rw [e]
  exact max_eq_left (EReal.coe_le_coe_iff.2 (by exact_mod_cast ht))

/-- The mean the host takes: the sum of a vector of real numbers from the initial value 0, divided by a literal that
    denotes a nonzero real. -/
theorem mean_apply {n : Nat} (x : FVec Ideal (⟨1, ![n]⟩ : Shape) .f32) (r : Fin n → ℝ) (hx : ∀ b, x (ix1 b) = ((r b : ℝ) : EReal))
    (c : BitVec 32) (d : ℝ) (hc : Ideal.ofBits .f32 c = ((d : ℝ) : EReal)) (hd : d ≠ 0)
    (h : (⟨1, ![n]⟩ : Shape).ReducesTo [0] ⟨0, ![]⟩) (hu : 0 < (⟨0, ![]⟩ : Shape).numel) (j : (⟨0, ![]⟩ : Shape).Idx) :
    Host.divf (Host.reduceAdd x (constant (F := Ideal) ⟨0, ![]⟩ .f32 0x00000000#32) h hu) (constant (F := Ideal) ⟨0, ![]⟩ .f32 c) j
      = (((∑ b, r b) / d : ℝ) : EReal) := by
  refine divf_real _ _ j (∑ b, r b) d ?_ hc hd
  show Ideal.hostReduceAdd h x (Ideal.ofBits .f32 0x00000000#32) j = _
  rw [Ideal.hostReduceAdd_total h (fun b => b.elim0), Consts.ofBits_zero, zero_add, sum_idx1, coe_sum]
  exact Finset.sum_congr rfl fun b _ => hx b

/-- The closing weighted sum of three scalars, each real, with three literal weights, each denoting a real. -/
theorem weighted_apply (a b c : BitVec 32) (x y z : FVec Ideal (⟨0, ![]⟩ : Shape) .f32) (i : (⟨0, ![]⟩ : Shape).Idx)
    (ra rb rc rx ry rz : ℝ)
    (ha : Ideal.ofBits .f32 a = ((ra : ℝ) : EReal)) (hb : Ideal.ofBits .f32 b = ((rb : ℝ) : EReal))
    (hc : Ideal.ofBits .f32 c = ((rc : ℝ) : EReal))
    (hx : x i = ((rx : ℝ) : EReal)) (hy : y i = ((ry : ℝ) : EReal)) (hz : z i = ((rz : ℝ) : EReal)) :
    addf (addf (mulf (constant (F := Ideal) ⟨0, ![]⟩ .f32 a) x) (mulf (constant (F := Ideal) ⟨0, ![]⟩ .f32 b) y))
        (mulf (constant (F := Ideal) ⟨0, ![]⟩ .f32 c) z) i
      = ((ra * rx + rb * ry + rc * rz : ℝ) : EReal) := by
  show Ideal.ofBits .f32 a * x i + Ideal.ofBits .f32 b * y i + Ideal.ofBits .f32 c * z i = _
  rw [ha, hb, hc, hx, hy, hz, ← EReal.coe_mul, ← EReal.coe_mul, ← EReal.coe_mul, ← EReal.coe_add, ← EReal.coe_add]

/-! ## The three results -/

section Results
variable (V : Valuation τ sig (Elt Ideal))
  (ceR proR : Fin 64 → ℝ) (thr : Fin 64 → ℤ) (gr : Fin 64 → ℝ) (ur : Fin 1 → ℝ)

/-- The threshold, at least 1, is a nonzero real. -/
theorem thr_ne_zero (hthr : ∀ b : Fin 64, 1 ≤ thr b) (b : Fin 64) : ((thr b : ℤ) : ℝ) ≠ 0 := by
  have := hthr b
  exact_mod_cast (by omega : thr b ≠ 0)

/-- The mean over the rows of the first sum divided twice by the threshold. -/
theorem rec_spec
    (hce : ∀ (b : Fin 64) (j : Fin 128), V (Proc.devRef .tc main_v1_0) (ix3 b (0 : Fin 1) j) = ((ceR b : ℝ) : EReal))
    (hsl : ∀ b : Fin 64, (V (Proc.devRef .tc main_arg2) (ix1 b)).toInt = thr b + 2)
    (hthr : ∀ b : Fin 64, 1 ≤ thr b) :
    StableHlo.after (hostOps1 (F := Ideal)) V (Proc.devRef .tc main_v14)
        = (fun _ => (((∑ b : Fin 64, ceR b / (thr b : ℝ) / (thr b : ℝ)) / 64 : ℝ) : EReal)) := by
  after_results
  funext i
  refine mean_apply _ (fun b => ceR b / (thr b : ℝ) / (thr b : ℝ)) (fun b => ?_) _ 64 Consts.ofBits_64 (by norm_num) _ _ i
  refine divf_real _ _ _ (ceR b / (thr b : ℝ)) (thr b : ℝ) ?_ (divisor_apply _ _ b (thr b) (hsl b) (hthr b)) (thr_ne_zero thr hthr b)
  refine divf_real _ _ _ (ceR b) (thr b : ℝ) ?_ (divisor_apply _ _ b (thr b) (hsl b) (hthr b)) (thr_ne_zero thr hthr b)
  exact (lane0 _ _ _ b).trans (hce b 0)

/-- The mean over the rows of the second sum divided by the threshold. -/
theorem avg_spec
    (hpro : ∀ (b : Fin 64) (j : Fin 128), V (Proc.devRef .tc main_v1_1) (ix3 b (0 : Fin 1) j) = ((proR b : ℝ) : EReal))
    (hsl : ∀ b : Fin 64, (V (Proc.devRef .tc main_arg2) (ix1 b)).toInt = thr b + 2)
    (hthr : ∀ b : Fin 64, 1 ≤ thr b) :
    StableHlo.after (hostOps1 (F := Ideal)) V (Proc.devRef .tc main_v17)
        = (fun _ => (((∑ b : Fin 64, proR b / (thr b : ℝ)) / 64 : ℝ) : EReal)) := by
  after_results
  funext i
  refine mean_apply _ (fun b => proR b / (thr b : ℝ)) (fun b => ?_) _ 64 Consts.ofBits_64 (by norm_num) _ _ i
  refine divf_real _ _ _ (proR b) (thr b : ℝ) ?_ (divisor_apply _ _ b (thr b) (hsl b) (hthr b)) (thr_ne_zero thr hthr b)
  exact (lane0 _ _ _ b).trans (hpro b 0)

/-- The weighted total of the first mean and the means of the two loss vectors. -/
theorem loss_spec
    (hce : ∀ (b : Fin 64) (j : Fin 128), V (Proc.devRef .tc main_v1_0) (ix3 b (0 : Fin 1) j) = ((ceR b : ℝ) : EReal))
    (hsl : ∀ b : Fin 64, (V (Proc.devRef .tc main_arg2) (ix1 b)).toInt = thr b + 2)
    (hthr : ∀ b : Fin 64, 1 ≤ thr b)
    (hg : ∀ b : Fin 64, V (Proc.devRef .tc main_arg3) (ix1 b) = ((gr b : ℝ) : EReal))
    (hu : ∀ j : Fin 1, V (Proc.devRef .tc main_arg4) (ix1 j) = ((ur j : ℝ) : EReal)) :
    StableHlo.after (hostOps1 (F := Ideal)) V (Proc.devRef .tc main_v26)
        = (fun _ => ((Consts.c₁ * ((∑ b : Fin 64, ceR b / (thr b : ℝ) / (thr b : ℝ)) / 64) + Consts.c₂ * ((∑ b : Fin 64, gr b) / 64)
              + Consts.c₃ * ((∑ j : Fin 1, ur j) / 1) : ℝ) : EReal)) := by
  after_results_simp
  funext i
  refine weighted_apply _ _ _ _ _ _ i Consts.c₁ Consts.c₂ Consts.c₃ _ _ _ Consts.ofBits_c₁ Consts.ofBits_c₂ Consts.ofBits_c₃ ?_ ?_ ?_
  · refine mean_apply _ (fun b => ceR b / (thr b : ℝ) / (thr b : ℝ)) (fun b => ?_) _ 64 Consts.ofBits_64 (by norm_num) _ _ i
    refine divf_real _ _ _ (ceR b / (thr b : ℝ)) (thr b : ℝ) ?_ (divisor_apply _ _ b (thr b) (hsl b) (hthr b)) (thr_ne_zero thr hthr b)
    refine divf_real _ _ _ (ceR b) (thr b : ℝ) ?_ (divisor_apply _ _ b (thr b) (hsl b) (hthr b)) (thr_ne_zero thr hthr b)
    exact (lane0 _ _ _ b).trans (hce b 0)
  · exact mean_apply _ gr hg _ 64 Consts.ofBits_64 (by norm_num) _ _ i
  · exact mean_apply _ ur hu _ 1 Consts.ofBits_one (by norm_num) _ _ i

end Results

/-- The three results together. -/
theorem tail_spec (V : Valuation τ sig (Elt Ideal))
    (ceR proR : Fin 64 → ℝ) (thr : Fin 64 → ℤ) (gr : Fin 64 → ℝ) (ur : Fin 1 → ℝ)
    (hce : ∀ (b : Fin 64) (j : Fin 128), V (Proc.devRef .tc main_v1_0) (ix3 b (0 : Fin 1) j) = ((ceR b : ℝ) : EReal))
    (hpro : ∀ (b : Fin 64) (j : Fin 128), V (Proc.devRef .tc main_v1_1) (ix3 b (0 : Fin 1) j) = ((proR b : ℝ) : EReal))
    (hsl : ∀ b : Fin 64, (V (Proc.devRef .tc main_arg2) (ix1 b)).toInt = thr b + 2)
    (hthr : ∀ b : Fin 64, 1 ≤ thr b)
    (hg : ∀ b : Fin 64, V (Proc.devRef .tc main_arg3) (ix1 b) = ((gr b : ℝ) : EReal))
    (hu : ∀ j : Fin 1, V (Proc.devRef .tc main_arg4) (ix1 j) = ((ur j : ℝ) : EReal)) :
    StableHlo.after (hostOps1 (F := Ideal)) V (Proc.devRef .tc main_v26)
        = (fun _ => ((Consts.c₁ * ((∑ b : Fin 64, ceR b / (thr b : ℝ) / (thr b : ℝ)) / 64) + Consts.c₂ * ((∑ b : Fin 64, gr b) / 64)
              + Consts.c₃ * ((∑ j : Fin 1, ur j) / 1) : ℝ) : EReal))
    ∧ StableHlo.after (hostOps1 (F := Ideal)) V (Proc.devRef .tc main_v14)
        = (fun _ => (((∑ b : Fin 64, ceR b / (thr b : ℝ) / (thr b : ℝ)) / 64 : ℝ) : EReal))
    ∧ StableHlo.after (hostOps1 (F := Ideal)) V (Proc.devRef .tc main_v17)
        = (fun _ => (((∑ b : Fin 64, proR b / (thr b : ℝ)) / 64 : ℝ) : EReal)) := by
  exact ⟨loss_spec V ceR thr gr ur hce hsl hthr hg hu, rec_spec V ceR thr hce hsl hthr, avg_spec V proR thr hpro hsl hthr⟩

end Cert.KernelIdeal.Tail

end
-- ==== Proof.KValue.lean ====
/-
  The kernel program, read over the real numbers.

  Under the precondition's facts — every logit and every entry of the two loss vectors a real number, every label a
  class 0 .. 1999, every sequence length at least 3 — the kernel program's three results are the specification's
  `loss`, `rec` and `avg` of those real inputs, with threshold  sequence_len − 2:  after the region row b of the two
  result arrays holds the row's two masked sums on every lane, and the closing host operations divide, average and
  weigh them.
-/
import proofs.«426013_j77464030151294_3_alg».proof.Proof.KFrame
import proofs.«426013_j77464030151294_3_alg».proof.Proof.ArrayValue
import proofs.«426013_j77464030151294_3_alg».proof.Proof.KernelTail

set_option maxRecDepth 16384

noncomputable section

namespace Cert.KernelIdeal.KValue

open Cert.KernelIdeal Cert.KernelIdeal.Gen Cert.KernelIdeal.Run
open Idealize.ShloMosaic Idealize.ShloMosaic.TcCoe Idealize.ShloMosaic.ValueIdx Idealize.ShloMosaic.StableHlo
open Idealize.SL.Sem

attribute [local instance] Cert.KernelIdeal.Gen.facts

/-! ## What the region finds and leaves, at the buffers the closing operations read -/

/-- When the region is entered the logits are as launched, -/
theorem arg0_entry (m : (ℓ : Loc nD τ sig) → Buf (Elt Ideal) ℓ) (c : Dev nD) :
    V m c main_arg0 = m ((c.tc : Thread nD τ).loc main_arg0) :=
  (head_kept (F := Ideal) (V₀ m c)).1

/-- and the reshaped labels' entry (b, s, 0) is the labels' entry (b, s). -/
theorem v0_entry (m : (ℓ : Loc nD τ sig) → Buf (Elt Ideal) ℓ) (c : Dev nD) (b : Fin 64) (s : Fin 512) :
    V m c main_v0 (ix3 b s (0 : Fin 1)) = m ((c.tc : Thread nD τ).loc main_arg1) (ix2 b s) := by
  have e : StableHlo.after (hostOps0 (F := Ideal)) (V₀ m c) (Proc.devRef .tc main_v0)
      = fun i => shapeCast S64x512x1 (V₀ m c (Proc.devRef .tc main_arg1)) shapeCasts_S64x512_S64x512x1 i := by
    after_results
    rfl
  refine (congrFun e (ix3 b s (0 : Fin 1))).trans ?_
  refine shapeCast_apply _ _ _ (ix2 b s) ?_
  rw [Shape.rowMajor_val_two, Shape.rowMajor_val_three]
  show b.val * 512 + s.val = (b.val * 512 + s.val) * 1 + 0
  omega

/-- After the region the two result arrays are what the write-backs left. -/
theorem V2_v1_0 (m : (ℓ : Loc nD τ sig) → Buf (Elt Ideal) ℓ) (c : Dev nD) :
    V2 m c (Proc.devRef .tc main_v1_0) = (dats m 0 c).arrAt (2 : Fin 4) (cfg m).N :=
  Pipeline.withArrays_arr spec0 (launch0 (F := Ideal)).win.arr_inj c (V1 m c) (fun w => (dats m 0 c).arrAt w (cfg m).N) (2 : Fin 4)

theorem V2_v1_1 (m : (ℓ : Loc nD τ sig) → Buf (Elt Ideal) ℓ) (c : Dev nD) :
    V2 m c (Proc.devRef .tc main_v1_1) = (dats m 0 c).arrAt (3 : Fin 4) (cfg m).N :=
  Pipeline.withArrays_arr spec0 (launch0 (F := Ideal)).win.arr_inj c (V1 m c) (fun w => (dats m 0 c).arrAt w (cfg m).N) (3 : Fin 4)

/-- The length table and the two loss vectors pass the region and the reshape before it untouched. -/
theorem V2_arg2 (m : (ℓ : Loc nD τ sig) → Buf (Elt Ideal) ℓ) (c : Dev nD) :
    V2 m c (Proc.devRef .tc main_arg2) = m ((c.tc : Thread nD τ).loc main_arg2) :=
  (V2_other m c main_arg2 (by decide)).trans (head_kept (F := Ideal) (V₀ m c)).2.2.1

theorem V2_arg3 (m : (ℓ : Loc nD τ sig) → Buf (Elt Ideal) ℓ) (c : Dev nD) :
    V2 m c (Proc.devRef .tc main_arg3) = m ((c.tc : Thread nD τ).loc main_arg3) :=
  (V2_other m c main_arg3 (by decide)).trans (head_kept (F := Ideal) (V₀ m c)).2.2.2.1

theorem V2_arg4 (m : (ℓ : Loc nD τ sig) → Buf (Elt Ideal) ℓ) (c : Dev nD) :
    V2 m c (Proc.devRef .tc main_arg4) = m ((c.tc : Thread nD τ).loc main_arg4) :=
  (V2_other m c main_arg4 (by decide)).trans (head_kept (F := Ideal) (V₀ m c)).2.2.2.2

/-- The table the region's proof data carry is the launched length table (the program runs on one device). -/
theorem tbl_eq (m : (ℓ : Loc nD τ sig) → Buf (Elt Ideal) ℓ) (c : Dev nD) (b : Fin 64) :
    tbl m 0 (ix1 b) = m ((c.tc : Thread nD τ).loc main_arg2) (ix1 b) := by
  obtain rfl : c = 0 := dev_eq_zero c
  rfl

/-- The kernel program's run, with its three results as the specification's real numbers. -/
theorem kernel_spec (m : (ℓ : Loc nD τ sig) → Buf (Elt Ideal) ℓ) (ρ : Dev nD → PrngReg)
    (xr : Fin 64 → Fin 512 → Fin 2000 → ℝ) (lb : Fin 64 → Fin 512 → Fin 2000) (gr : Fin 64 → ℝ) (ur : Fin 1 → ℝ)
    (hx : ∀ (c : Dev nD) (b : Fin 64) (s : Fin 512) (v : Fin 2000), m ((c.tc : Thread nD τ).loc main_arg0) (ix3 b s v) = ((xr b s v : ℝ) : EReal))
    (hlab : ∀ (c : Dev nD) (b : Fin 64) (s : Fin 512), (m ((c.tc : Thread nD τ).loc main_arg1) (ix2 b s)).toInt = ((lb b s).val : ℤ))
    (hsl : ∀ (c : Dev nD) (b : Fin 64), 3 ≤ (m ((c.tc : Thread nD τ).loc main_arg2) (ix1 b)).toInt)
    (hg : ∀ (c : Dev nD) (b : Fin 64), m ((c.tc : Thread nD τ).loc main_arg3) (ix1 b) = ((gr b : ℝ) : EReal))
    (hu : ∀ (c : Dev nD) (j : Fin 1), m ((c.tc : Thread nD τ).loc main_arg4) (ix1 j) = ((ur j : ℝ) : EReal)) :
    θ_run (defs (F := Ideal)) (onTc (τ := τ) (main (F := Ideal))) ⟨m, fun _ => 0, ρ⟩ fun r => ∀ c : Dev nD,
      r.2.mem ((c.tc : Thread nD τ).loc main_v26)
          = (fun _ => ((Spec.loss Consts.c₁ Consts.c₂ Consts.c₃ xr lb (fun b => (m ((c.tc : Thread nD τ).loc main_arg2) (ix1 b)).toInt - 2) gr ur : ℝ) : EReal))
      ∧ r.2.mem ((c.tc : Thread nD τ).loc main_v14)
          = (fun _ => ((Spec.rec xr lb (fun b => (m ((c.tc : Thread nD τ).loc main_arg2) (ix1 b)).toInt - 2) : ℝ) : EReal))
      ∧ r.2.mem ((c.tc : Thread nD τ).loc main_v17)
          = (fun _ => ((Spec.avg xr lb (fun b => (m ((c.tc : Thread nD τ).loc main_arg2) (ix1 b)).toInt - 2) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main (F := Ideal) m ρ)
  have hk := tail_kept (F := Ideal) (V2 m c)
  have hh := head_kept (F := Ideal) (V₀ m c)
  -- the thresholds, each at least 1
  have hthr : ∀ b : Fin 64, 1 ≤ (m ((c.tc : Thread nD τ).loc main_arg2) (ix1 b)).toInt - 2 := fun b => by
    have := hsl c b; omega
  -- the region's two result arrays
  have hX : ∀ (b : Fin 64) (s : Fin 512) (v : Fin 2000), V m c main_arg0 (ix3 b s v) = ((xr b s v : ℝ) : EReal) :=
    fun b s v => (congrFun (arg0_entry m c) _).trans (hx c b s v)
  have hL : ∀ (b : Fin 64) (s : Fin 512), (V m c main_v0 (ix3 b s (0 : Fin 1))).toInt = ((lb b s).val : ℤ) :=
    fun b s => (congrArg BitVec.toInt (v0_entry m c b s)).trans (hlab c b s)
  have hT : ∀ b : Fin 64, 3 ≤ (tbl m 0 (ix1 b)).toInt := fun b => by rw [tbl_eq m c b]; exact hsl c b
  have hce : ∀ (b : Fin 64) (j : Fin 128), V2 m c (Proc.devRef .tc main_v1_0) (ix3 b (0 : Fin 1) j)
      = ((Spec.ceRow (xr b) (lb b) ((m ((c.tc : Thread nD τ).loc main_arg2) (ix1 b)).toInt - 2) : ℝ) : EReal) :=
    fun b j => (congrFun (V2_v1_0 m c) _).trans ((ArrayValue.arr_ce m c xr lb hX hL hT b j).trans (by rw [tbl_eq m c b]))
  have hpro : ∀ (b : Fin 64) (j : Fin 128), V2 m c (Proc.devRef .tc main_v1_1) (ix3 b (0 : Fin 1) j)
      = ((Spec.proRow (xr b) (lb b) ((m ((c.tc : Thread nD τ).loc main_arg2) (ix1 b)).toInt - 2) : ℝ) : EReal) :=
    fun b j => (congrFun (V2_v1_1 m c) _).trans ((ArrayValue.arr_pro m c xr lb hX hL hT b j).trans (by rw [tbl_eq m c b]))
  -- the closing operations
  obtain ⟨t26, t14, t17⟩ := Tail.tail_spec (V2 m c)
    (fun b => Spec.ceRow (xr b) (lb b) ((m ((c.tc : Thread nD τ).loc main_arg2) (ix1 b)).toInt - 2))
    (fun b => Spec.proRow (xr b) (lb b) ((m ((c.tc : Thread nD τ).loc main_arg2) (ix1 b)).toInt - 2))
    (fun b => (m ((c.tc : Thread nD τ).loc main_arg2) (ix1 b)).toInt - 2) gr ur hce hpro
    (fun b => by rw [V2_arg2 m c]; omega) hthr
    (fun b => (congrFun (V2_arg3 m c) _).trans (hg c b))
    (fun j => (congrFun (V2_arg4 m c) _).trans (hu c j))
  refine ⟨?_, ?_, ?_, ?_, ?_, ?_, ?_, ?_⟩
  · exact (h c _ (mem_uc main_v26 rfl)).trans t26
  · exact (h c _ (mem_uc main_v14 rfl)).trans t14
  · exact (h c _ (mem_uc main_v17 rfl)).trans t17
  · exact (h c _ (mem_uc main_arg0 rfl)).trans (hk.1.trans ((V2_arg0 m c).trans hh.1))
  · exact (h c _ (mem_uc main_arg1 rfl)).trans (hk.2.1.trans ((V2_other m c main_arg1 (by decide)).trans hh.2.1))
  · exact (h c _ (mem_uc main_arg2 rfl)).trans (hk.2.2.1.trans ((V2_other m c main_arg2 (by decide)).trans hh.2.2.1))
  · exact (h c _ (mem_uc main_arg3 rfl)).trans (hk.2.2.2.1.trans ((V2_other m c main_arg3 (by decide)).trans hh.2.2.2.1))
  · exact (h c _ (mem_uc main_arg4 rfl)).trans (hk.2.2.2.2.trans ((V2_other m c main_arg4 (by decide)).trans hh.2.2.2.2))

end Cert.KernelIdeal.KValue

end
-- ==== Proof.RefOps.lean ====
import proofs.«426013_j77464030151294_3_alg».proof.Proof.RefRunGen

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- Operations 1 to 14 of @main (14 of them). -/
abbrev ops1 : List (HloOp τ sig (Elt F)) :=
  [ nullary main_c (constantI S_ 32 2#32),
    unary main_c main_v0 (broadcastInDim S64 ![] bcast_S_S64 : (⟨S_, .i32⟩ : BufTy).Contents (Elt F) → (⟨S64, .i32⟩ : BufTy).Contents (Elt F)),
    binary main_arg2 main_v0 main_v1 (subi : (⟨S64, .i32⟩ : BufTy).Contents (Elt F) → (⟨S64, .i32⟩ : BufTy).Contents (Elt F) → (⟨S64, .i32⟩ : BufTy).Contents (Elt F)),
    unary main_v1 main_v2 (sitofp .f32 : (⟨S64, .i32⟩ : BufTy).Contents (Elt F) → (⟨S64, .f32⟩ : BufTy).Contents (Elt F)),
    nullary main_v3 (iotaInDim S512 32 0),
    unary main_v3 main_v4 (broadcastInDim S1x512 ![1] bcast_S512_S1x512_1 : (⟨S512, .i32⟩ : BufTy).Contents (Elt F) → (⟨S1x512, .i32⟩ : BufTy).Contents (Elt F)),
    nullary main_c_0 (constantI S_ 32 2#32),
    unary main_c_0 main_v5 (broadcastInDim S64 ![] bcast_S_S64 : (⟨S_, .i32⟩ : BufTy).Contents (Elt F) → (⟨S64, .i32⟩ : BufTy).Contents (Elt F)),
    binary main_arg2 main_v5 main_v6 (subi : (⟨S64, .i32⟩ : BufTy).Contents (Elt F) → (⟨S64, .i32⟩ : BufTy).Contents (Elt F) → (⟨S64, .i32⟩ : BufTy).Contents (Elt F)),
    unary main_v6 main_v7 (broadcastInDim S64x1 ![0] bcast_S64_S64x1_0 : (⟨S64, .i32⟩ : BufTy).Contents (Elt F) → (⟨S64x1, .i32⟩ : BufTy).Contents (Elt F)),
    unary main_v4 main_v8 (broadcastInDim S64x512 ![0, 1] bcast_S1x512_S64x512_0_1 : (⟨S1x512, .i32⟩ : BufTy).Contents (Elt F) → (⟨S64x512, .i32⟩ : BufTy).Contents (Elt F)),
    unary main_v7 main_v9 (broadcastInDim S64x512 ![0, 1] bcast_S64x1_S64x512_0_1 : (⟨S64x1, .i32⟩ : BufTy).Contents (Elt F) → (⟨S64x512, .i32⟩ : BufTy).Contents (Elt F)),
    binary main_v8 main_v9 main_v10 (cmpi .slt : (⟨S64x512, .i32⟩ : BufTy).Contents (Elt F) → (⟨S64x512, .i32⟩ : BufTy).Contents (Elt F) → (⟨S64x512, .i1⟩ : BufTy).Contents (Elt F)),
    unary main_v10 main_v11 (uitofp .f32 : (⟨S64x512, .i1⟩ : BufTy).Contents (Elt F) → (⟨S64x512, .f32⟩ : BufTy).Contents (Elt F)) ]

/-- Operations 15 to 29 of @main (15 of them). -/
abbrev ops2 : List (HloOp τ sig (Elt F)) :=
  [ TRef.nullary (TRef.of (T := ⟨S_, .f32⟩) main_call0_cst) (constant S_ .f32 0xFF800000#32),
    TRef.binary (TRef.of (T := ⟨S64x512x2000, .f32⟩) main_arg0) (TRef.of (T := ⟨S_, .f32⟩) main_call0_cst) (TRef.of (T := ⟨S64x512, .f32⟩) main_call0_v0) (fun x v => Host.reduce FloatOps.maximumf x v reducesTo_S64x512x2000_S64x512_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S64x512, .f32⟩) main_call0_v1) (broadcastInDim S64x512 ![] bcast_S_S64x512),
    TRef.binary (TRef.of (T := ⟨S64x512, .f32⟩) main_call0_v1) (TRef.of (T := ⟨S64x512, .f32⟩) main_call0_v0) (TRef.of (T := ⟨S64x512, .f32⟩) main_call0_v2) maximumf,
    TRef.unary (TRef.of (T := ⟨S64x512, .f32⟩) main_call0_v2) (TRef.of (T := ⟨S64x512x1, .f32⟩) main_call0_v3) (broadcastInDim S64x512x1 ![0, 1] bcast_S64x512_S64x512x1_0_1),
    TRef.unary (TRef.of (T := ⟨S64x512x1, .f32⟩) main_call0_v3) (TRef.of (T := ⟨S64x512x2000, .f32⟩) main_call0_v4) (broadcastInDim S64x512x2000 ![0, 1, 2] bcast_S64x512x1_S64x512x2000_0_1_2),
    TRef.binary (TRef.of (T := ⟨S64x512x2000, .f32⟩) main_arg0) (TRef.of (T := ⟨S64x512x2000, .f32⟩) main_call0_v4) (TRef.of (T := ⟨S64x512x2000, .f32⟩) main_call0_v5) subf,
    TRef.unary (TRef.of (T := ⟨S64x512x2000, .f32⟩) main_call0_v5) (TRef.of (T := ⟨S64x512x2000, .f32⟩) main_call0_v6) Host.exp,
    TRef.nullary (TRef.of (T := ⟨S_, .f32⟩) main_call0_cst_1) (constant S_ .f32 0x00000000#32),
    TRef.binary (TRef.of (T := ⟨S64x512x2000, .f32⟩) main_call0_v6) (TRef.of (T := ⟨S_, .f32⟩) main_call0_cst_1) (TRef.of (T := ⟨S64x512, .f32⟩) main_call0_v7) (fun x v => Host.reduceAdd x v reducesTo_S64x512x2000_S64x512_d2 h_S_),
    TRef.unary (TRef.of (T := ⟨S64x512, .f32⟩) main_call0_v7) (TRef.of (T := ⟨S64x512x1, .f32⟩) main_call0_v8) (broadcastInDim S64x512x1 ![0, 1] bcast_S64x512_S64x512x1_0_1),
    TRef.unary (TRef.of (T := ⟨S64x512x1, .f32⟩) main_call0_v8) (TRef.of (T := ⟨S64x512x1, .f32⟩) main_call0_v9) Host.log,
    TRef.unary (TRef.of (T := ⟨S64x512x1, .f32⟩) main_call0_v9) (TRef.of (T := ⟨S64x512x2000, .f32⟩) main_call0_v10) (broadcastInDim S64x512x2000 ![0, 1, 2] bcast_S64x512x1_S64x512x2000_0_1_2),
    TRef.binary (TRef.of (T := ⟨S64x512x2000, .f32⟩) main_call0_v5) (TRef.of (T := ⟨S64x512x2000, .f32⟩) main_call0_v10) (TRef.of (T := ⟨S64x512x2000, .f32⟩) main_v12) subf ]

/-- Operations 30 to 52 of @main (23 of them). -/
abbrev ops3 : List (HloOp τ sig (Elt F)) :=
  [ unary main_arg1 main_v13 (broadcastInDim S64x512x1 ![0, 1] bcast_S64x512_S64x512x1_0_1 : (⟨S64x512, .i32⟩ : BufTy).Contents (Elt F) → (⟨S64x512x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S64x512x1, .i32⟩) main_call1_v0) (broadcastInDim S64x512x1 ![] bcast_S_S64x512x1),
    TRef.binary (TRef.of (T := ⟨S64x512x1, .i32⟩) main_v13) (TRef.of (T := ⟨S64x512x1, .i32⟩) main_call1_v0) (TRef.of (T := ⟨S64x512x1, .i1⟩) main_call1_v1) (cmpi .slt),
    TRef.nullary (TRef.of (T := ⟨S_, .i32⟩) main_call1_c_0) (constantI S_ 32 2000#32),
    TRef.unary (TRef.of (T := ⟨S_, .i32⟩) main_call1_c_0) (TRef.of (T := ⟨S64x512x1, .i32⟩) main_call1_v2) (broadcastInDim S64x512x1 ![] bcast_S_S64x512x1),
    TRef.binary (TRef.of (T := ⟨S64x512x1, .i32⟩) main_v13) (TRef.of (T := ⟨S64x512x1, .i32⟩) main_call1_v2) (TRef.of (T := ⟨S64x512x1, .i32⟩) main_call1_v3) addi,
    TRef.ternary (TRef.of (T := ⟨S64x512x1, .i1⟩) main_call1_v1) (TRef.of (T := ⟨S64x512x1, .i32⟩) main_call1_v3) (TRef.of (T := ⟨S64x512x1, .i32⟩) main_v13) (TRef.of (T := ⟨S64x512x1, .i32⟩) main_call1_v4) select,
    TRef.reshape (TRef.of (T := ⟨S64x512x1, .i32⟩) main_call1_v4) (TRef.of (T := ⟨S64x512x1x1, .i32⟩) main_call1_v5) rfl shapeCasts_S64x512x1_S64x512x1x1,
    TRef.nullary (TRef.of (T := ⟨S1, .i32⟩) main_call1_c_1) (constantI S1 32 1999#32),
    TRef.nullary (TRef.of (T := ⟨S_, .i32⟩) main_call1_c_2) (constantI S_ 32 0#32),
    TRef.unary (TRef.of (T := ⟨S_, .i32⟩) main_call1_c_2) (TRef.of (T := ⟨S64x512x1x1, .i32⟩) main_call1_v6) (broadcastInDim S64x512x1x1 ![] bcast_S_S64x512x1x1),
    TRef.binary (TRef.of (T := ⟨S64x512x1x1, .i32⟩) main_call1_v5) (TRef.of (T := ⟨S64x512x1x1, .i32⟩) main_call1_v6) (TRef.of (T := ⟨S64x512x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S64x512x1x1, .i32⟩) main_call1_v9) (broadcastInDim S64x512x1x1 ![0, 1, 2, 3] bcast_S1x1x1x1_S64x512x1x1_0_1_2_3),
    TRef.binary (TRef.of (T := ⟨S64x512x1x1, .i32⟩) main_call1_v5) (TRef.of (T := ⟨S64x512x1x1, .i32⟩) main_call1_v9) (TRef.of (T := ⟨S64x512x1x1, .i1⟩) main_call1_v10) (cmpi .sle),
    TRef.binary (TRef.of (T := ⟨S64x512x1x1, .i1⟩) main_call1_v7) (TRef.of (T := ⟨S64x512x1x1, .i1⟩) main_call1_v10) (TRef.of (T := ⟨S64x512x1x1, .i1⟩) main_call1_v11) andi,
    TRef.nullary (TRef.of (T := ⟨S_, .i1⟩) main_call1_c_3) (constantI S_ 1 1#1),
    TRef.binary (TRef.of (T := ⟨S64x512x1x1, .i1⟩) main_call1_v11) (TRef.of (T := ⟨S_, .i1⟩) main_call1_c_3) (TRef.of (T := ⟨S64x512x1, .i1⟩) main_call1_v12) (fun x v => Host.reduce IntOp.andi x v reducesTo_S64x512x1x1_S64x512x1_d3 h_S_),
    TRef.binary (TRef.of (T := ⟨S64x512x2000, .f32⟩) main_v12) (TRef.of (T := ⟨S64x512x1x1, .i32⟩) main_call1_v5) (TRef.of (T := ⟨S64x512x1, .f32⟩) main_call1_v13) (fun x i => Host.gather gather_S64x512x2000_S64x512x1x1_S64x512x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S64x512x1, .f32⟩) main_call1_v14) (broadcastInDim S64x512x1 ![] bcast_S_S64x512x1),
    TRef.ternary (TRef.of (T := ⟨S64x512x1, .i1⟩) main_call1_v12) (TRef.of (T := ⟨S64x512x1, .f32⟩) main_call1_v13) (TRef.of (T := ⟨S64x512x1, .f32⟩) main_call1_v14) (TRef.of (T := ⟨S64x512x1, .f32⟩) main_v14) select ]

/-- Operations 53 to 63 of @main (11 of them). -/
abbrev ops4 : List (HloOp τ sig (Elt F)) :=
  [ reshape main_v14 main_v15 rfl shapeCasts_S64x512x1_S64x512,
    unary main_v15 main_v16 (Host.negf : (⟨S64x512, .f32⟩ : BufTy).Contents (Elt F) → (⟨S64x512, .f32⟩ : BufTy).Contents (Elt F)),
    binary main_v16 main_v11 main_v17 (mulf : (⟨S64x512, .f32⟩ : BufTy).Contents (Elt F) → (⟨S64x512, .f32⟩ : BufTy).Contents (Elt F) → (⟨S64x512, .f32⟩ : BufTy).Contents (Elt F)),
    nullary main_cst (constant S_ .f32 0x00000000#32),
    binary main_v17 main_cst main_v18 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    binary main_v18 main_v2 main_v19 (Host.divf : (⟨S64, .f32⟩ : BufTy).Contents (Elt F) → (⟨S64, .f32⟩ : BufTy).Contents (Elt F) → (⟨S64, .f32⟩ : BufTy).Contents (Elt F)),
    binary main_v19 main_v2 main_v20 (Host.divf : (⟨S64, .f32⟩ : BufTy).Contents (Elt F) → (⟨S64, .f32⟩ : BufTy).Contents (Elt F) → (⟨S64, .f32⟩ : BufTy).Contents (Elt F)),
    nullary main_cst_1 (constant S_ .f32 0x00000000#32),
    binary main_v20 main_cst_1 main_v21 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_2 (constant S_ .f32 0x42800000#32),
    binary main_v21 main_cst_2 main_v22 (Host.divf : (⟨S_, .f32⟩ : BufTy).Contents (Elt F) → (⟨S_, .f32⟩ : BufTy).Contents (Elt F) → (⟨S_, .f32⟩ : BufTy).Contents (Elt F)) ]

/-- Operations 64 to 85 of @main (22 of them). -/
abbrev ops5 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S64x512x1, .i32⟩) main_call2_v0) (broadcastInDim S64x512x1 ![] bcast_S_S64x512x1),
    TRef.binary (TRef.of (T := ⟨S64x512x1, .i32⟩) main_v13) (TRef.of (T := ⟨S64x512x1, .i32⟩) main_call2_v0) (TRef.of (T := ⟨S64x512x1, .i1⟩) main_call2_v1) (cmpi .slt),
    TRef.nullary (TRef.of (T := ⟨S_, .i32⟩) main_call2_c_0) (constantI S_ 32 2000#32),
    TRef.unary (TRef.of (T := ⟨S_, .i32⟩) main_call2_c_0) (TRef.of (T := ⟨S64x512x1, .i32⟩) main_call2_v2) (broadcastInDim S64x512x1 ![] bcast_S_S64x512x1),
    TRef.binary (TRef.of (T := ⟨S64x512x1, .i32⟩) main_v13) (TRef.of (T := ⟨S64x512x1, .i32⟩) main_call2_v2) (TRef.of (T := ⟨S64x512x1, .i32⟩) main_call2_v3) addi,
    TRef.ternary (TRef.of (T := ⟨S64x512x1, .i1⟩) main_call2_v1) (TRef.of (T := ⟨S64x512x1, .i32⟩) main_call2_v3) (TRef.of (T := ⟨S64x512x1, .i32⟩) main_v13) (TRef.of (T := ⟨S64x512x1, .i32⟩) main_call2_v4) select,
    TRef.reshape (TRef.of (T := ⟨S64x512x1, .i32⟩) main_call2_v4) (TRef.of (T := ⟨S64x512x1x1, .i32⟩) main_call2_v5) rfl shapeCasts_S64x512x1_S64x512x1x1,
    TRef.nullary (TRef.of (T := ⟨S1, .i32⟩) main_call2_c_1) (constantI S1 32 1999#32),
    TRef.nullary (TRef.of (T := ⟨S_, .i32⟩) main_call2_c_2) (constantI S_ 32 0#32),
    TRef.unary (TRef.of (T := ⟨S_, .i32⟩) main_call2_c_2) (TRef.of (T := ⟨S64x512x1x1, .i32⟩) main_call2_v6) (broadcastInDim S64x512x1x1 ![] bcast_S_S64x512x1x1),
    TRef.binary (TRef.of (T := ⟨S64x512x1x1, .i32⟩) main_call2_v5) (TRef.of (T := ⟨S64x512x1x1, .i32⟩) main_call2_v6) (TRef.of (T := ⟨S64x512x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S64x512x1x1, .i32⟩) main_call2_v9) (broadcastInDim S64x512x1x1 ![0, 1, 2, 3] bcast_S1x1x1x1_S64x512x1x1_0_1_2_3),
    TRef.binary (TRef.of (T := ⟨S64x512x1x1, .i32⟩) main_call2_v5) (TRef.of (T := ⟨S64x512x1x1, .i32⟩) main_call2_v9) (TRef.of (T := ⟨S64x512x1x1, .i1⟩) main_call2_v10) (cmpi .sle),
    TRef.binary (TRef.of (T := ⟨S64x512x1x1, .i1⟩) main_call2_v7) (TRef.of (T := ⟨S64x512x1x1, .i1⟩) main_call2_v10) (TRef.of (T := ⟨S64x512x1x1, .i1⟩) main_call2_v11) andi,
    TRef.nullary (TRef.of (T := ⟨S_, .i1⟩) main_call2_c_3) (constantI S_ 1 1#1),
    TRef.binary (TRef.of (T := ⟨S64x512x1x1, .i1⟩) main_call2_v11) (TRef.of (T := ⟨S_, .i1⟩) main_call2_c_3) (TRef.of (T := ⟨S64x512x1, .i1⟩) main_call2_v12) (fun x v => Host.reduce IntOp.andi x v reducesTo_S64x512x1x1_S64x512x1_d3 h_S_),
    TRef.binary (TRef.of (T := ⟨S64x512x2000, .f32⟩) main_arg0) (TRef.of (T := ⟨S64x512x1x1, .i32⟩) main_call2_v5) (TRef.of (T := ⟨S64x512x1, .f32⟩) main_call2_v13) (fun x i => Host.gather gather_S64x512x2000_S64x512x1x1_S64x512x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S64x512x1, .f32⟩) main_call2_v14) (broadcastInDim S64x512x1 ![] bcast_S_S64x512x1),
    TRef.ternary (TRef.of (T := ⟨S64x512x1, .i1⟩) main_call2_v12) (TRef.of (T := ⟨S64x512x1, .f32⟩) main_call2_v13) (TRef.of (T := ⟨S64x512x1, .f32⟩) main_call2_v14) (TRef.of (T := ⟨S64x512x1, .f32⟩) main_v23) select ]

/-- Operations 86 to 110 of @main (25 of them). -/
abbrev ops6 : List (HloOp τ sig (Elt F)) :=
  [ reshape main_v23 main_v24 rfl shapeCasts_S64x512x1_S64x512,
    binary main_v24 main_v11 main_v25 (mulf : (⟨S64x512, .f32⟩ : BufTy).Contents (Elt F) → (⟨S64x512, .f32⟩ : BufTy).Contents (Elt F) → (⟨S64x512, .f32⟩ : BufTy).Contents (Elt F)),
    nullary main_cst_3 (constant S_ .f32 0x00000000#32),
    binary main_v25 main_cst_3 main_v26 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    binary main_v26 main_v2 main_v27 (Host.divf : (⟨S64, .f32⟩ : BufTy).Contents (Elt F) → (⟨S64, .f32⟩ : BufTy).Contents (Elt F) → (⟨S64, .f32⟩ : BufTy).Contents (Elt F)),
    nullary main_cst_4 (constant S_ .f32 0x00000000#32),
    binary main_v27 main_cst_4 main_v28 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_5 (constant S_ .f32 0x42800000#32),
    binary main_v28 main_cst_5 main_v29 (Host.divf : (⟨S_, .f32⟩ : BufTy).Contents (Elt F) → (⟨S_, .f32⟩ : BufTy).Contents (Elt F) → (⟨S_, .f32⟩ : BufTy).Contents (Elt F)),
    nullary main_cst_6 (constant S_ .f32 0x00000000#32),
    binary main_arg3 main_cst_6 main_v30 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_7 (constant S_ .f32 0x42800000#32),
    binary main_v30 main_cst_7 main_v31 (Host.divf : (⟨S_, .f32⟩ : BufTy).Contents (Elt F) → (⟨S_, .f32⟩ : BufTy).Contents (Elt F) → (⟨S_, .f32⟩ : BufTy).Contents (Elt F)),
    nullary main_cst_8 (constant S_ .f32 0x00000000#32),
    binary main_arg4 main_cst_8 main_v32 ((fun x v => Host.reduceAdd x v reducesTo_S1_S_d0 h_S_) : (⟨S1, .f32⟩ : BufTy).Contents (Elt F) → (⟨S_, .f32⟩ : BufTy).Contents (Elt F) → (⟨S_, .f32⟩ : BufTy).Contents (Elt F)),
    nullary main_cst_9 (constant S_ .f32 0x3F800000#32),
    binary main_v32 main_cst_9 main_v33 (Host.divf : (⟨S_, .f32⟩ : BufTy).Contents (Elt F) → (⟨S_, .f32⟩ : BufTy).Contents (Elt F) → (⟨S_, .f32⟩ : BufTy).Contents (Elt F)),
    nullary main_cst_10 (constant S_ .f32 0x3727C5AC#32),
    binary main_cst_10 main_v22 main_v34 (mulf : (⟨S_, .f32⟩ : BufTy).Contents (Elt F) → (⟨S_, .f32⟩ : BufTy).Contents (Elt F) → (⟨S_, .f32⟩ : BufTy).Contents (Elt F)),
    nullary main_cst_11 (constant S_ .f32 0x3EC80000#32),
    binary main_cst_11 main_v31 main_v35 (mulf : (⟨S_, .f32⟩ : BufTy).Contents (Elt F) → (⟨S_, .f32⟩ : BufTy).Contents (Elt F) → (⟨S_, .f32⟩ : BufTy).Contents (Elt F)),
    binary main_v34 main_v35 main_v36 (addf : (⟨S_, .f32⟩ : BufTy).Contents (Elt F) → (⟨S_, .f32⟩ : BufTy).Contents (Elt F) → (⟨S_, .f32⟩ : BufTy).Contents (Elt F)),
    nullary main_cst_12 (constant S_ .f32 0x41200000#32),
    binary main_cst_12 main_v33 main_v37 (mulf : (⟨S_, .f32⟩ : BufTy).Contents (Elt F) → (⟨S_, .f32⟩ : BufTy).Contents (Elt F) → (⟨S_, .f32⟩ : BufTy).Contents (Elt F)),
    binary main_v36 main_v37 main_v38 (addf : (⟨S_, .f32⟩ : BufTy).Contents (Elt F) → (⟨S_, .f32⟩ : BufTy).Contents (Elt F) → (⟨S_, .f32⟩ : BufTy).Contents (Elt F)) ]

set_option maxRecDepth 8192 in
/-- The stretches in order are the whole list. -/
theorem ops_split : (Cert.ReferenceIdeal.ValueP.ops (F := F)) = ops1 ++ ops2 ++ ops3 ++ ops4 ++ ops5 ++ ops6 := rfl

end Cert.ReferenceIdeal.Stretch

end
-- ==== Proof.RefPieces.lean ====
/-
  Two operations of the reference that are read by hand: the largest logit of a position, and the pick of a class.

  The reference takes each position's maximum as a host reduction by `maximum` over the class axis, started at −∞;
  over real logits that is the largest of the 2000 numbers. It picks a class with a batched gather: position (b, s)
  reads the logits' entry (b, s, k) where k is the index stored for that position; with the index in range the
  gather's own clamp does nothing.
-/
import proofs.«426013_j77464030151294_3_alg».proof.Proof.Gen.ReferenceIdeal
import proofs.«426013_j77464030151294_3_alg».proof.Proof.Spec
import proofs.«426013_j77464030151294_3_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Pieces

open Idealize.ShloMosaic Idealize.ShloMosaic.ValueIdx Cert.ReferenceIdeal

attribute [local instance] Cert.ReferenceIdeal.Gen.facts

/-- The reduced index (b, s) with class k put back on the class axis is (b, s, k). -/
private theorem lift_ix3 (h : S64x512x2000.Reduces [2] S64x512) (b : Fin 64) (s : Fin 512)
    (k : Fin (S64x512x2000.size 2)) : h.lift (ix2 b s) k = ix3 b s (⟨k.val, k.isLt⟩ : Fin 2000) := by
  funext c; apply Fin.ext
  fin_cases c <;> rfl

/-- The maximum, from −∞, of finitely many real numbers read as extended reals is their largest, read so: reading a
    real as an extended real is monotone, so it commutes with the largest of a nonempty family, and over the
    extended reals the largest of a family is the fold of `max` from the bottom element. -/
private theorem fold_max_coe (f : Fin 2000 → ℝ) :
    (Finset.univ : Finset (Fin 2000)).fold max (⊥ : EReal) (fun k => ((f k : ℝ) : EReal))
      = ((Finset.univ.sup' Finset.univ_nonempty f : ℝ) : EReal) := by
  rw [Finset.comp_sup'_eq_sup'_comp Finset.univ_nonempty (fun r : ℝ => (r : EReal))
      (fun a b => EReal.coe_strictMono.monotone.map_max), Finset.sup'_eq_sup]
  rfl

/-- The host's maximum over the class axis, started at −∞, of real logits is the largest of them. -/
theorem rowmax_apply (x : FVec Ideal S64x512x2000 .f32) (xr : Fin 64 → Fin 512 → Fin 2000 → ℝ)
    (hx : ∀ (b : Fin 64) (s : Fin 512) (v : Fin 2000), x (ix3 b s v) = ((xr b s v : ℝ) : EReal)) (b : Fin 64) (s : Fin 512) :
    Host.reduce FloatOps.maximumf x (constant (F := Ideal) S_ .f32 0xFF800000#32) Facts₀.reducesTo_S64x512x2000_S64x512_d2 Facts₀.h_S_ (ix2 b s)
      = ((Spec.rowMax (xr b s) : ℝ) : EReal) := by
  -- the reduction over the one class axis is the fold of the maximum, from the start value, over the 2000 classes
  have hR : S64x512x2000.Reduces [2] S64x512 := by decide
  rw [Host.reduce_eq_fold_single FloatOps.maximumf x _ Facts₀.reducesTo_S64x512x2000_S64x512_d2 hR Facts₀.h_S_]
  have hf : (x ∘ hR.lift (ix2 b s)) = fun k : Fin 2000 => ((xr b s k : ℝ) : EReal) :=
    funext fun k => (congrArg x (lift_ix3 hR b s k)).trans (hx b s _)
  rw [hf]
  show (Finset.univ : Finset (Fin 2000)).fold max (Ideal.ofBits .f32 0xFF800000#32)
    (fun k : Fin 2000 => ((xr b s k : ℝ) : EReal)) = _
  rw [Cert.Consts.ofBits_neg_inf]
  exact fold_max_coe (xr b s)

local notation "G" => gather_S64x512x2000_S64x512x1x1_S64x512x1_n_2_01_01_2_3_111

/-- On the first batching axis the operand index is the result index's first coordinate: the start and the offset
    are 0 there. -/
private theorem coord0 (idx : IVec S64x512x1x1 32) (j : S64x512x1.Idx) :
    ((G).operandIdx j idx (0 : Fin 3)).val = (j (0 : Fin 3)).val := by
  show (G).start j idx 0 + (G).batchCoord j 0 + (G).offCoord j 0 = _
  rw [(G).start_batching j idx 0 (by decide), (G).offCoord_eq_zero j 0 (by decide), Nat.zero_add, Nat.add_zero]
  rfl

/-- On the second batching axis it is the result index's second coordinate. -/
private theorem coord1 (idx : IVec S64x512x1x1 32) (j : S64x512x1.Idx) :
    ((G).operandIdx j idx (1 : Fin 3)).val = (j (1 : Fin 3)).val := by
  show (G).start j idx 1 + (G).batchCoord j 1 + (G).offCoord j 1 = _
  rw [(G).start_batching j idx 1 (by decide), (G).offCoord_eq_zero j 1 (by decide), Nat.zero_add, Nat.add_zero]
  rfl

/-- On the class axis (collapsed, and the one axis the start index names) it is the start alone: the word stored
    at (b, s, 0, 0), read signed and clamped into [0, 1999]. -/
private theorem coord2 (idx : IVec S64x512x1x1 32) (b : Fin 64) (s : Fin 512) :
    ((G).operandIdx (ix3 b s (0 : Fin 1)) idx (2 : Fin 3)).val
      = min (idx (ix4 b s (0 : Fin 1) (0 : Fin 1))).toInt.toNat (2000 - 1) := by
  show (G).start (ix3 b s (0 : Fin 1)) idx 2 + (G).batchCoord (ix3 b s (0 : Fin 1)) 2
    + (G).offCoord (ix3 b s (0 : Fin 1)) 2 = _
  rw [(G).batchCoord_eq_zero _ 2 (by decide), (G).offCoord_eq_zero _ 2 (by decide), Nat.add_zero]
  unfold GatherDims.start
  rw [dif_pos (show (2 : Fin 3) ∈ (G).startIndexMap from List.mem_singleton.mpr rfl)]
  -- the start index of result position (b, s, 0) is read at (b, s, 0, 0)
  have hsi : (G).siIdx (ix3 b s (0 : Fin 1)) ⟨List.idxOf (2 : Fin 3) (G).startIndexMap,
      List.idxOf_lt_length_iff.2 (List.mem_singleton.mpr rfl)⟩ = ix4 b s (0 : Fin 1) (0 : Fin 1) := by
    funext c; refine Fin.ext ?_
    match c with
    | ⟨0, _⟩ => rfl
    | ⟨1, _⟩ => rfl
    | ⟨2, _⟩ => rfl
    | ⟨3, _⟩ => rfl
  rw [hsi]
  rfl

/-- The batched gather at an index in range reads that class's entry. -/
theorem gather_apply (x : FVec Ideal S64x512x2000 .f32) (idx : IVec S64x512x1x1 32) (b : Fin 64) (s : Fin 512) (k : Fin 2000)
    (h : (idx (ix4 b s (0 : Fin 1) (0 : Fin 1))).toInt = (k.val : ℤ)) :
    Host.gather gather_S64x512x2000_S64x512x1x1_S64x512x1_n_2_01_01_2_3_111 x idx (ix3 b s (0 : Fin 1)) = x (ix3 b s k) := by
  unfold Host.gather
  refine congrArg x (funext fun a => Fin.ext ?_)
  match a with
  | ⟨0, _⟩ => exact coord0 idx _
  | ⟨1, _⟩ => exact coord1 idx _
  | ⟨2, _⟩ =>
    -- in range the clamp does nothing:  min k 1999 = k  for  k < 2000
    refine (coord2 idx b s).trans ?_
    rw [h, Int.toNat_natCast]
    show min k.val (2000 - 1) = k.val
    have := k.isLt
    omega

end Cert.ReferenceIdeal.Pieces

end
-- ==== Proof.RefStretchA.lean ====
/-
  The reference's arithmetic stretches, read over the real numbers.

  First stretch: the threshold  sequence_len − 2  as a number (it does not wrap, the length being at least 3) and the
  mask  position < threshold  as 1 or 0. Fourth: the masked, negated picks summed over a row's positions, divided
  twice by the threshold, averaged over the rows. Sixth: the masked picks of the raw logits summed, divided once,
  averaged; the two loss vectors averaged; the weighted total.
-/
import proofs.«426013_j77464030151294_3_alg».proof.Proof.RefOps
import proofs.«426013_j77464030151294_3_alg».proof.Proof.RefPieces
import proofs.«426013_j77464030151294_3_alg».proof.Proof.Spec
import proofs.«426013_j77464030151294_3_alg».proof.Proof.Consts
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Mathlib.Algebra.BigOperators.Fin

noncomputable section

namespace Cert.ReferenceIdeal.Stretch

open Idealize.ShloMosaic Idealize.ShloMosaic.TcCoe Idealize.ShloMosaic.ValueIdx Idealize.ShloMosaic.StableHlo
open Cert.ReferenceIdeal Cert.ReferenceIdeal.Gen
open scoped BigOperators

attribute [local instance] Cert.ReferenceIdeal.Gen.facts

/-! ## Real numbers among the extended reals -/

/-- The coercion of a finite sum of real numbers is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A real number divided by a nonzero real number, as extended reals, is the real quotient. -/
theorem div_real (a L : ℝ) (hL : L ≠ 0) : Ideal.div (a : EReal) (L : EReal) = ((a / L : ℝ) : EReal) := by
  rw [Ideal.div_coe hL, ← EReal.coe_mul, mul_one_div]

/-- A threshold that is at least 1 is a nonzero real. -/
theorem thr_ne_zero (thr : Fin 64 → ℤ) (hthr : ∀ b : Fin 64, 1 ≤ thr b) (b : Fin 64) : ((thr b : ℤ) : ℝ) ≠ 0 := by
  have := hthr b
  exact_mod_cast (by omega : thr b ≠ 0)

/-- A rank-1 index set is its coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Words -/

/-- A word whose signed value is t + 2 with t at least 1, less the word 2: the difference does not wrap, its signed
    value is t. -/
theorem toInt_sub_two (w : BitVec 32) (t : ℤ) (hw : w.toInt = t + 2) (ht : 1 ≤ t) : (w - 2#32).toInt = t := by
  have h2 : (2#32 : BitVec 32).toInt = 2 := by decide
  have hlt : w.toInt < 2 ^ (32 - 1) := BitVec.toInt_lt
  rw [BitVec.toInt_sub, h2, hw]
  have e : t + 2 - 2 = t := by omega
  rw [e]
  refine Int.bmod_eq_of_le_mul_two ?_ ?_
  · norm_num; omega
  · norm_num at hlt ⊢; omega

/-- The signed value of the word that spells a position below 512 is the position. -/
theorem toInt_ofNat_pos (s : Fin 512) : (BitVec.ofNat 32 s.val).toInt = (s.val : ℤ) := by
  rw [BitVec.toInt_ofNat']
  refine Int.bmod_eq_of_le_mul_two ?_ ?_
  · norm_num; omega
  · have := s.isLt; norm_num; omega

/-- The bit of a signed comparison, read as a number, is 1 when the comparison holds and 0 otherwise. -/
theorem toNat_cmpi_slt (x y : BitVec 32) : ((IntOp.cmpi .slt x y).toNat : ℝ) = if x.toInt < y.toInt then 1 else 0 := by
  show ((BitVec.ofBool (x.slt y)).toNat : ℝ) = _
  by_cases h : x.toInt < y.toInt
  · rw [if_pos h, BitVec.slt_iff_toInt_lt.2 h]; simp
  · rw [if_neg h]
    have : x.slt y = false := by
      rw [← Bool.not_eq_true]; exact fun hh => h (BitVec.slt_iff_toInt_lt.1 hh)
    rw [this]; simp

/-! ## The operations at an index -/

/-- The quotient of two vectors at an index where both are real and the divisor is not zero. -/
theorem divf_real {s : Shape} (x y : FVec Ideal s .f32) (i : s.Idx) (a L : ℝ) (hx : x i = (a : EReal))
    (hy : y i = (L : EReal)) (hL : L ≠ 0) : Host.divf x y i = ((a / L : ℝ) : EReal) := by
  show Ideal.div (x i) (y i) = _
  rw [hx, hy, div_real a L hL]

/-- The product of two vectors at an index where both are real. -/
theorem mulf_real {s : Shape} (x y : FVec Ideal s .f32) (i : s.Idx) (a c : ℝ) (hx : x i = (a : EReal))
    (hy : y i = (c : EReal)) : mulf x y i = ((a * c : ℝ) : EReal) := by
  show x i * y i = _
  rw [hx, hy, ← EReal.coe_mul]

/-- The negation of a vector at an index where it is real. -/
theorem negf_real {s : Shape} (x : FVec Ideal s .f32) (i : s.Idx) (a : ℝ) (hx : x i = (a : EReal)) :
    Host.negf x i = ((-a : ℝ) : EReal) := by
  show -(x i) = _
  rw [hx, ← EReal.coe_neg]

/-- A [64, 512, 1] array reshaped to [64, 512], at (b, s): the array at (b, s, 0). -/
theorem squeeze_apply {α : Type} (A : (⟨3, ![64, 512, 1]⟩ : Shape).Idx → α)
    (hc : (⟨3, ![64, 512, 1]⟩ : Shape).ShapeCasts ⟨2, ![64, 512]⟩) (b : Fin 64) (s : Fin 512) :
    shapeCast ⟨2, ![64, 512]⟩ A hc (ix2 b s) = A (ix3 b s (0 : Fin 1)) := by
  refine shapeCast_apply A hc (ix2 b s) (ix3 b s (0 : Fin 1)) ?_
  rw [Shape.rowMajor_val_three, Shape.rowMajor_val_two]
  show (b.val * 512 + s.val) * 1 + 0 = b.val * 512 + s.val
  omega

/-- The sum over a row's 512 positions, from the initial value 0, of a [64, 512] array whose row b is real. -/
theorem rowsum_apply (x : FVec Ideal (⟨2, ![64, 512]⟩ : Shape) .f32) (r : Fin 512 → ℝ) (b : Fin 64)
    (hx : ∀ s, x (ix2 b s) = ((r s : ℝ) : EReal))
    (h' : (⟨2, ![64, 512]⟩ : Shape).ReducesTo [1] ⟨1, ![64]⟩) (hu : 0 < (⟨0, ![]⟩ : Shape).numel) :
    Host.reduceAdd x (constant (F := Ideal) ⟨0, ![]⟩ .f32 0x00000000#32) h' hu (ix1 b) = ((∑ s, r s : ℝ) : EReal) := by
  have h : (⟨2, ![64, 512]⟩ : Shape).Reduces [1] ⟨1, ![64]⟩ := by decide
  show Ideal.hostReduceAdd h' x (Ideal.ofBits .f32 0x00000000#32) (ix1 b) = _
  rw [Ideal.hostReduceAdd_single h' h, Consts.ofBits_zero, zero_add, coe_sum]
  refine Finset.sum_congr rfl fun s _ => ?_
  have e : h.lift (ix1 b) s = ix2 b s := by
    funext a
    match a with
    | ⟨0, _⟩ => exact Fin.ext rfl
    | ⟨1, _⟩ => exact Fin.ext rfl
  rw [e]
  exact hx s

/-- The mean the host takes: the sum of a vector of real numbers from the initial value 0, divided by a literal that
    denotes a nonzero real. -/
theorem mean_apply {n : Nat} (x : FVec Ideal (⟨1, ![n]⟩ : Shape) .f32) (r : Fin n → ℝ) (hx : ∀ b, x (ix1 b) = ((r b : ℝ) : EReal))
    (c : BitVec 32) (d : ℝ) (hc : Ideal.ofBits .f32 c = ((d : ℝ) : EReal)) (hd : d ≠ 0)
    (h : (⟨1, ![n]⟩ : Shape).ReducesTo [0] ⟨0, ![]⟩) (hu : 0 < (⟨0, ![]⟩ : Shape).numel) (j : (⟨0, ![]⟩ : Shape).Idx) :
    Host.divf (Host.reduceAdd x (constant (F := Ideal) ⟨0, ![]⟩ .f32 0x00000000#32) h hu) (constant (F := Ideal) ⟨0, ![]⟩ .f32 c) j
      = (((∑ b, r b) / d : ℝ) : EReal) := by
  refine divf_real _ _ j (∑ b, r b) d ?_ hc hd
  show Ideal.hostReduceAdd h x (Ideal.ofBits .f32 0x00000000#32) j = _
  rw [Ideal.hostReduceAdd_total h (fun b => b.elim0), Consts.ofBits_zero, zero_add, sum_idx1, coe_sum]
  exact Finset.sum_congr rfl fun b _ => hx b

/-- The closing weighted sum of three scalars, each real, with three literal weights, each denoting a real. -/
theorem weighted_apply (a b c : BitVec 32) (x y z : FVec Ideal (⟨0, ![]⟩ : Shape) .f32) (i : (⟨0, ![]⟩ : Shape).Idx)
    (ra rb rc rx ry rz : ℝ)
    (ha : Ideal.ofBits .f32 a = ((ra : ℝ) : EReal)) (hb : Ideal.ofBits .f32 b = ((rb : ℝ) : EReal))
    (hc : Ideal.ofBits .f32 c = ((rc : ℝ) : EReal))
    (hx : x i = ((rx : ℝ) : EReal)) (hy : y i = ((ry : ℝ) : EReal)) (hz : z i = ((rz : ℝ) : EReal)) :
    addf (addf (mulf (constant (F := Ideal) ⟨0, ![]⟩ .f32 a) x) (mulf (constant (F := Ideal) ⟨0, ![]⟩ .f32 b) y))
        (mulf (constant (F := Ideal) ⟨0, ![]⟩ .f32 c) z) i
      = ((ra * rx + rb * ry + rc * rz : ℝ) : EReal) := by
  show Ideal.ofBits .f32 a * x i + Ideal.ofBits .f32 b * y i + Ideal.ofBits .f32 c * z i = _
  rw [ha, hb, hc, hx, hy, hz, ← EReal.coe_mul, ← EReal.coe_mul, ← EReal.coe_mul, ← EReal.coe_add, ← EReal.coe_add]

/-! ## The first stretch at an index -/

/-- The threshold word sequence_len − 2 at row b, through the broadcast of the literal 2. -/
theorem thr_word (sl : IVec (⟨1, ![64]⟩ : Shape) 32) (hb : (⟨0, ![]⟩ : Shape).BroadcastsInDim ⟨1, ![64]⟩ ![]) (b : Fin 64) :
    subi sl (broadcastInDim ⟨1, ![64]⟩ ![] hb (constantI ⟨0, ![]⟩ 32 2#32)) (ix1 b) = sl (ix1 b) - 2#32 := rfl

/-- The threshold as a number: the signed value of sequence_len − 2, which does not wrap. -/
theorem thr_apply (sl : IVec (⟨1, ![64]⟩ : Shape) 32) (hb : (⟨0, ![]⟩ : Shape).BroadcastsInDim ⟨1, ![64]⟩ ![]) (b : Fin 64)
    (t : ℤ) (hsl : (sl (ix1 b)).toInt = t + 2) (ht : 1 ≤ t) :
    sitofp (F := Ideal) .f32 (subi sl (broadcastInDim ⟨1, ![64]⟩ ![] hb (constantI ⟨0, ![]⟩ 32 2#32))) (ix1 b)
      = (((t : ℤ) : ℝ) : EReal) := by
  show ((((subi sl (broadcastInDim ⟨1, ![64]⟩ ![] hb (constantI ⟨0, ![]⟩ 32 2#32)) (ix1 b)).toInt : ℤ) : ℝ) : EReal) = _
  rw [thr_word, toInt_sub_two _ t hsl ht]

/-- The mask at (b, s): the comparison  position s < threshold of row b  as the number 1 or 0. The position word is the
    iota along the positions, broadcast over the rows; the threshold word is broadcast over the positions. -/
theorem mask_apply (sl : IVec (⟨1, ![64]⟩ : Shape) 32) (hb : (⟨0, ![]⟩ : Shape).BroadcastsInDim ⟨1, ![64]⟩ ![])
    (h1 : (⟨1, ![512]⟩ : Shape).BroadcastsInDim ⟨2, ![1, 512]⟩ ![1])
    (h2 : (⟨2, ![1, 512]⟩ : Shape).BroadcastsInDim ⟨2, ![64, 512]⟩ ![0, 1])
    (h3 : (⟨1, ![64]⟩ : Shape).BroadcastsInDim ⟨2, ![64, 1]⟩ ![0])
    (h4 : (⟨2, ![64, 1]⟩ : Shape).BroadcastsInDim ⟨2, ![64, 512]⟩ ![0, 1])
    (b : Fin 64) (s : Fin 512) (t : ℤ) (hsl : (sl (ix1 b)).toInt = t + 2) (ht : 1 ≤ t) :
    uitofp (F := Ideal) .f32
        (cmpi .slt
          (broadcastInDim ⟨2, ![64, 512]⟩ ![0, 1] h2 (broadcastInDim ⟨2, ![1, 512]⟩ ![1] h1 (iotaInDim ⟨1, ![512]⟩ 32 0)))
          (broadcastInDim ⟨2, ![64, 512]⟩ ![0, 1] h4 (broadcastInDim ⟨2, ![64, 1]⟩ ![0] h3
            (subi sl (broadcastInDim ⟨1, ![64]⟩ ![] hb (constantI ⟨0, ![]⟩ 32 2#32))))))
        (ix2 b s)
      = ((Spec.mask t s.val : ℝ) : EReal) := by
  -- the position word at (b, s)
  have ep : broadcastInDim ⟨2, ![64, 512]⟩ ![0, 1] h2 (broadcastInDim ⟨2, ![1, 512]⟩ ![1] h1 (iotaInDim ⟨1, ![512]⟩ 32 0)) (ix2 b s)
      = BitVec.ofNat 32 s.val := by
    refine (broadcastInDim_apply _ h2 _ (ix2 b s) (ix2 (0 : Fin 1) s) ?_).trans
      ((broadcastInDim_apply _ h1 _ (ix2 (0 : Fin 1) s) (ix1 s) ?_).trans rfl)
    · intro a
      match a with
      | ⟨0, _⟩ => rfl
      | ⟨1, _⟩ => rfl
    · intro a
      match a with
      | ⟨0, _⟩ => rfl
  -- the threshold word at (b, s)
  have et : broadcastInDim ⟨2, ![64, 512]⟩ ![0, 1] h4 (broadcastInDim ⟨2, ![64, 1]⟩ ![0] h3
        (subi sl (broadcastInDim ⟨1, ![64]⟩ ![] hb (constantI ⟨0, ![]⟩ 32 2#32)))) (ix2 b s)
      = sl (ix1 b) - 2#32 := by
    refine (broadcastInDim_apply _ h4 _ (ix2 b s) (ix2 b (0 : Fin 1)) ?_).trans
      ((broadcastInDim_apply _ h3 _ (ix2 b (0 : Fin 1)) (ix1 b) ?_).trans (thr_word sl hb b))
    · intro a
      match a with
      | ⟨0, _⟩ => rfl
      | ⟨1, _⟩ => rfl
    · intro a
      match a with
      | ⟨0, _⟩ => rfl
  show ((((IntOp.cmpi .slt
      (broadcastInDim ⟨2, ![64, 512]⟩ ![0, 1] h2 (broadcastInDim ⟨2, ![1, 512]⟩ ![1] h1 (iotaInDim ⟨1, ![512]⟩ 32 0)) (ix2 b s))
      (broadcastInDim ⟨2, ![64, 512]⟩ ![0, 1] h4 (broadcastInDim ⟨2, ![64, 1]⟩ ![0] h3
        (subi sl (broadcastInDim ⟨1, ![64]⟩ ![] hb (constantI ⟨0, ![]⟩ 32 2#32)))) (ix2 b s))).toNat : ℕ) : ℝ) : EReal) = _
  rw [ep, et, toNat_cmpi_slt, toInt_ofNat_pos, toInt_sub_two _ t hsl ht]
  rfl

/-- Stretch 1: the divisor and the mask. -/
theorem s1 (V : Valuation τ sig (Elt Ideal)) (thr : Fin 64 → ℤ)
    (hsl : ∀ b : Fin 64, (V (Proc.devRef .tc main_arg2) (ix1 b)).toInt = thr b + 2) (hthr : ∀ b : Fin 64, 1 ≤ thr b) :
    (∀ b : Fin 64, StableHlo.after (ops1 (F := Ideal)) V (Proc.devRef .tc main_v2) (ix1 b) = (((thr b : ℤ) : ℝ) : EReal))
    ∧ (∀ (b : Fin 64) (s : Fin 512), StableHlo.after (ops1 (F := Ideal)) V (Proc.devRef .tc main_v11) (ix2 b s) = ((Spec.mask (thr b) s.val : ℝ) : EReal)) := by
  refine ⟨fun b => ?_, fun b s => ?_⟩
  · after_results
    exact thr_apply _ _ b (thr b) (hsl b) (hthr b)
  · after_results
    exact mask_apply _ _ _ _ _ _ b s (thr b) (hsl b) (hthr b)

/-- Stretch 4: the first result, from the picked log-probabilities `N`, the mask `Mk` and the divisor. -/
theorem s4 (V : Valuation τ sig (Elt Ideal)) (N Mk : Fin 64 → Fin 512 → ℝ) (thr : Fin 64 → ℤ)
    (h14 : ∀ (b : Fin 64) (s : Fin 512), V (Proc.devRef .tc main_v14) (ix3 b s (0 : Fin 1)) = ((N b s : ℝ) : EReal))
    (h11 : ∀ (b : Fin 64) (s : Fin 512), V (Proc.devRef .tc main_v11) (ix2 b s) = ((Mk b s : ℝ) : EReal))
    (h2 : ∀ b : Fin 64, V (Proc.devRef .tc main_v2) (ix1 b) = (((thr b : ℤ) : ℝ) : EReal)) (hthr : ∀ b : Fin 64, 1 ≤ thr b) :
    StableHlo.after (ops4 (F := Ideal)) V (Proc.devRef .tc main_v22)
      = (fun _ => (((∑ b : Fin 64, (∑ s : Fin 512, (-(N b s)) * Mk b s) / (thr b : ℝ) / (thr b : ℝ)) / 64 : ℝ) : EReal)) := by
  after_results
  funext i
  refine mean_apply _ (fun b => (∑ s : Fin 512, (-(N b s)) * Mk b s) / (thr b : ℝ) / (thr b : ℝ)) (fun b => ?_) _ 64
    Consts.ofBits_64 (by norm_num) _ _ i
  refine divf_real _ _ _ ((∑ s : Fin 512, (-(N b s)) * Mk b s) / (thr b : ℝ)) (thr b : ℝ) ?_ (h2 b) (thr_ne_zero thr hthr b)
  refine divf_real _ _ _ (∑ s : Fin 512, (-(N b s)) * Mk b s) (thr b : ℝ) ?_ (h2 b) (thr_ne_zero thr hthr b)
  refine rowsum_apply _ (fun s => (-(N b s)) * Mk b s) b (fun s => ?_) _ _
  refine mulf_real _ _ _ (-(N b s)) (Mk b s) ?_ (h11 b s)
  refine negf_real _ _ (N b s) ?_
  exact (squeeze_apply _ _ b s).trans (h14 b s)

/-- Stretch 6: the other two results, from the picked logits `Pk`, the mask, the divisor, the first result `R` and the two
    loss vectors. -/
theorem s6 (V : Valuation τ sig (Elt Ideal)) (Pk Mk : Fin 64 → Fin 512 → ℝ) (thr : Fin 64 → ℤ) (R : ℝ) (gr : Fin 64 → ℝ) (ur : Fin 1 → ℝ)
    (h23 : ∀ (b : Fin 64) (s : Fin 512), V (Proc.devRef .tc main_v23) (ix3 b s (0 : Fin 1)) = ((Pk b s : ℝ) : EReal))
    (h11 : ∀ (b : Fin 64) (s : Fin 512), V (Proc.devRef .tc main_v11) (ix2 b s) = ((Mk b s : ℝ) : EReal))
    (h2 : ∀ b : Fin 64, V (Proc.devRef .tc main_v2) (ix1 b) = (((thr b : ℤ) : ℝ) : EReal)) (hthr : ∀ b : Fin 64, 1 ≤ thr b)
    (h22 : V (Proc.devRef .tc main_v22) = (fun _ => ((R : ℝ) : EReal)))
    (hg : ∀ b : Fin 64, V (Proc.devRef .tc main_arg3) (ix1 b) = ((gr b : ℝ) : EReal))
    (hu : ∀ j : Fin 1, V (Proc.devRef .tc main_arg4) (ix1 j) = ((ur j : ℝ) : EReal)) :
    StableHlo.after (ops6 (F := Ideal)) V (Proc.devRef .tc main_v29)
        = (fun _ => (((∑ b : Fin 64, (∑ s : Fin 512, Pk b s * Mk b s) / (thr b : ℝ)) / 64 : ℝ) : EReal))
    ∧ StableHlo.after (ops6 (F := Ideal)) V (Proc.devRef .tc main_v38)
        = (fun _ => ((Consts.c₁ * R + Consts.c₂ * ((∑ b : Fin 64, gr b) / 64) + Consts.c₃ * ((∑ j : Fin 1, ur j) / 1) : ℝ) : EReal)) := by
  refine ⟨?_, ?_⟩
  · after_results
    funext i
    refine mean_apply _ (fun b => (∑ s : Fin 512, Pk b s * Mk b s) / (thr b : ℝ)) (fun b => ?_) _ 64
      Consts.ofBits_64 (by norm_num) _ _ i
    refine divf_real _ _ _ (∑ s : Fin 512, Pk b s * Mk b s) (thr b : ℝ) ?_ (h2 b) (thr_ne_zero thr hthr b)
    refine rowsum_apply _ (fun s => Pk b s * Mk b s) b (fun s => ?_) _ _
    refine mulf_real _ _ _ (Pk b s) (Mk b s) ?_ (h11 b s)
    exact (squeeze_apply _ _ b s).trans (h23 b s)
  · after_results
    funext i
    refine weighted_apply _ _ _ _ _ _ i Consts.c₁ Consts.c₂ Consts.c₃ R _ _ Consts.ofBits_c₁ Consts.ofBits_c₂ Consts.ofBits_c₃
      (congrFun h22 i) ?_ ?_
    · exact mean_apply _ gr hg _ 64 Consts.ofBits_64 (by norm_num) _ _ i
    · exact mean_apply _ ur hu _ 1 Consts.ofBits_one (by norm_num) _ _ i

end Cert.ReferenceIdeal.Stretch

end
-- ==== Proof.RefStretchB.lean ====
/-
  The reference's log-softmax stretch, read over the real numbers.

  For real logits the position's maximum M is a real number, the shifted exponentials sum to at least 1, and the
  stretch leaves at every class  (x − M) − log Σ exp (x − M),  that is  x − (M + log Σ exp (x − M)).
-/
import proofs.«426013_j77464030151294_3_alg».proof.Proof.RefOps
import proofs.«426013_j77464030151294_3_alg».proof.Proof.RefPieces
import proofs.«426013_j77464030151294_3_alg».proof.Proof.Spec
import proofs.«426013_j77464030151294_3_alg».proof.Proof.Consts
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Mathlib.Algebra.BigOperators.Fin

noncomputable section

namespace Cert.ReferenceIdeal.Stretch

open Idealize.ShloMosaic Idealize.ShloMosaic.TcCoe Idealize.ShloMosaic.ValueIdx Idealize.ShloMosaic.StableHlo
open Cert.ReferenceIdeal Cert.ReferenceIdeal.Gen
open scoped BigOperators

attribute [local instance] Cert.ReferenceIdeal.Gen.facts

/-! ## Small facts over the extended reals -/

/-- The coercion of a finite sum of real numbers is the sum of the coercions. -/
private theorem coe_sum {ι : Type} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- A sum of exponentials over the 2000 classes is positive. -/
private theorem expSum_pos (f : Fin 2000 → ℝ) (m : ℝ) : 0 < ∑ u : Fin 2000, Real.exp (f u - m) :=
  Finset.sum_pos (fun u _ => Real.exp_pos _) Finset.univ_nonempty

/-! ## The operations at an index -/

/-- The host's exponential at an index is the exponential of the element. -/
private theorem hostExp_apply {s : Shape} (X : FVec Ideal s .f32) (i : s.Idx) : Host.exp X i = Ideal.exp (X i) := rfl

/-- The host's logarithm at an index is the logarithm of the element. -/
private theorem hostLog_apply {s : Shape} (X : FVec Ideal s .f32) (i : s.Idx) : Host.log X i = Ideal.log (X i) := rfl

/-- The host's sum over some axes is the exact sum from the initial value's element. -/
private theorem hostReduceAdd_apply {s t u : Shape} {axes : List (Fin s.rank)} (X : FVec Ideal s .f32) (init : u.Idx → Ideal .f32)
    (h : s.ReducesTo axes t) (hu : 0 < u.numel) (j : t.Idx) :
    Host.reduceAdd X init h hu j = Ideal.hostReduceAdd h X (init (Shape.Idx.first hu)) j := rfl

/-- The constant −∞ broadcast over the positions is the bottom element everywhere. -/
private theorem neg_inf_apply (j : S64x512.Idx) :
    broadcastInDim S64x512 ![] bcast_S_S64x512 (constant (F := Ideal) S_ .f32 0xFF800000#32) j = ⊥ :=
  Cert.Consts.ofBits_neg_inf

/-- The constant 0 is 0. -/
private theorem zero_apply (j : S_.Idx) : constant (F := Ideal) S_ .f32 0x00000000#32 j = 0 := Cert.Consts.ofBits_zero

/-- A [64, 512] array broadcast to [64, 512, 1], read at (b, s, 0), is the array at (b, s). -/
private theorem bcast_unit_apply {α : Type} (y : S64x512.Idx → α) (b : Fin 64) (s : Fin 512) :
    broadcastInDim S64x512x1 ![0, 1] bcast_S64x512_S64x512x1_0_1 y (ix3 b s (0 : Fin 1)) = y (ix2 b s) := by
  refine broadcastInDim_apply _ _ y _ (ix2 b s) fun a => ?_
  match a with
  | ⟨0, _⟩ => rfl
  | ⟨1, _⟩ => rfl

/-- A [64, 512, 1] array broadcast along the class axis, read at (b, s, v), is the array at (b, s, 0). -/
private theorem bcast_class_apply {α : Type} (y : S64x512x1.Idx → α) (b : Fin 64) (s : Fin 512) (v : Fin 2000) :
    broadcastInDim S64x512x2000 ![0, 1, 2] bcast_S64x512x1_S64x512x2000_0_1_2 y (ix3 b s v) = y (ix3 b s (0 : Fin 1)) := by
  refine broadcastInDim_apply _ _ y _ (ix3 b s (0 : Fin 1)) fun a => ?_
  match a with
  | ⟨0, _⟩ => rfl
  | ⟨1, _⟩ => rfl
  | ⟨2, _⟩ => rfl

/-- The reduced index (b, s) with class k put back on the class axis is (b, s, k). -/
private theorem lift_class (h : S64x512x2000.Reduces [2] S64x512) (b : Fin 64) (s : Fin 512)
    (k : Fin (S64x512x2000.size 2)) : h.lift (ix2 b s) k = ix3 b s (⟨k.val, k.isLt⟩ : Fin 2000) := by
  funext c; apply Fin.ext
  fin_cases c <;> rfl

/-! ## The stretch's values as functions of the logits -/

section Values
variable (x : FVec Ideal S64x512x2000 .f32)

/-- The positions' maxima: the larger of −∞ and the reduction by maximum over the class axis. -/
private abbrev maxV : FVec Ideal S64x512 .f32 :=
  maximumf (broadcastInDim S64x512 ![] bcast_S_S64x512 (constant (F := Ideal) S_ .f32 0xFF800000#32))
    (Host.reduce FloatOps.maximumf x (constant (F := Ideal) S_ .f32 0xFF800000#32) reducesTo_S64x512x2000_S64x512_d2 h_S_)

/-- The logits less their position's maximum. -/
private abbrev shiftV : FVec Ideal S64x512x2000 .f32 :=
  subf x (broadcastInDim S64x512x2000 ![0, 1, 2] bcast_S64x512x1_S64x512x2000_0_1_2
    (broadcastInDim S64x512x1 ![0, 1] bcast_S64x512_S64x512x1_0_1 (maxV x)))

/-- The sums over the classes of the exponentials of the shifted logits. -/
private abbrev sumV : FVec Ideal S64x512 .f32 :=
  Host.reduceAdd (Host.exp (shiftV x)) (constant (F := Ideal) S_ .f32 0x00000000#32) reducesTo_S64x512x2000_S64x512_d2 h_S_

/-- Their logarithms, on a unit class axis. -/
private abbrev logV : FVec Ideal S64x512x1 .f32 :=
  Host.log (broadcastInDim S64x512x1 ![0, 1] bcast_S64x512_S64x512x1_0_1 (sumV x))

/-- The log-probabilities. -/
private abbrev outV : FVec Ideal S64x512x2000 .f32 :=
  subf (shiftV x) (broadcastInDim S64x512x2000 ![0, 1, 2] bcast_S64x512x1_S64x512x2000_0_1_2 (logV x))

variable (xr : Fin 64 → Fin 512 → Fin 2000 → ℝ)
  (hx : ∀ (b : Fin 64) (s : Fin 512) (v : Fin 2000), x (ix3 b s v) = ((xr b s v : ℝ) : EReal))
include hx

/-- The maximum at (b, s) is the largest logit of the position: −∞ is below everything. -/
private theorem maxV_apply (b : Fin 64) (s : Fin 512) : maxV x (ix2 b s) = ((Spec.rowMax (xr b s) : ℝ) : EReal) := by
  unfold maxV
  rw [maximumf_apply, neg_inf_apply, Pieces.rowmax_apply x xr hx b s]
  exact max_eq_right bot_le

/-- The shifted logit at (b, s, v) is the real number  x − M. -/
private theorem shiftV_apply (b : Fin 64) (s : Fin 512) (v : Fin 2000) :
    shiftV x (ix3 b s v) = ((xr b s v - Spec.rowMax (xr b s) : ℝ) : EReal) := by
  unfold shiftV
  rw [subf_apply, bcast_class_apply, bcast_unit_apply, maxV_apply x xr hx b s, hx b s v, ← EReal.coe_sub]

/-- The sum at (b, s) is the real sum of the exponentials. -/
private theorem sumV_apply (b : Fin 64) (s : Fin 512) :
    sumV x (ix2 b s) = ((∑ u : Fin 2000, Real.exp (xr b s u - Spec.rowMax (xr b s)) : ℝ) : EReal) := by
  have hR : S64x512x2000.Reduces [2] S64x512 := by decide
  unfold sumV
  rw [hostReduceAdd_apply, zero_apply, Ideal.hostReduceAdd_single reducesTo_S64x512x2000_S64x512_d2 hR, zero_add, coe_sum]
  refine Finset.sum_congr rfl fun k _ => ?_
  rw [lift_class hR b s k, hostExp_apply, shiftV_apply x xr hx b s _, Ideal.exp_coe]
  rfl

/-- The logarithm at (b, s, 0) is the real logarithm of the sum, the sum being positive. -/
private theorem logV_apply (b : Fin 64) (s : Fin 512) :
    logV x (ix3 b s (0 : Fin 1)) = ((Real.log (∑ u : Fin 2000, Real.exp (xr b s u - Spec.rowMax (xr b s))) : ℝ) : EReal) := by
  unfold logV
  rw [hostLog_apply, bcast_unit_apply, sumV_apply x xr hx b s, Ideal.log_coe, if_neg (not_le.2 (expSum_pos (xr b s) _))]

/-- The log-probability at (b, s, v):  (x − M) − log Σ = x − (M + log Σ). -/
private theorem outV_apply (b : Fin 64) (s : Fin 512) (v : Fin 2000) :
    outV x (ix3 b s v)
      = ((xr b s v - (Spec.rowMax (xr b s) + Real.log (∑ u : Fin 2000, Real.exp (xr b s u - Spec.rowMax (xr b s)))) : ℝ) : EReal) := by
  unfold outV
  rw [subf_apply, bcast_class_apply, shiftV_apply x xr hx b s v, logV_apply x xr hx b s, ← EReal.coe_sub, sub_sub]

end Values

/-! ## The stretch -/

/-- Contents carried to a buffer's own type and back are unchanged. -/
private theorem ofBuf_toBuf {T : BufTy} (r : TRef sig T) (w : T.Contents (Elt Ideal)) : r.ofBuf (r.toBuf w) = w := by
  obtain ⟨r, h, h2, h3⟩ := r
  subst h
  rfl

/-- The logits as the stretch reads them are the logits' buffer's contents. -/
private theorem arg0_read (V : Valuation τ sig (Elt Ideal)) :
    (TRef.of (T := ⟨S64x512x2000, .f32⟩) main_arg0).ofBuf (V (Proc.devRef .tc (TRef.of (T := ⟨S64x512x2000, .f32⟩) main_arg0).ref))
      = V (Proc.devRef .tc main_arg0) := rfl

/-- The stretch's result as its buffer holds it is the result. -/
private theorem v12_write (w : (⟨S64x512x2000, .f32⟩ : BufTy).Contents (Elt Ideal)) :
    (TRef.of (T := ⟨S64x512x2000, .f32⟩) main_v12).toBuf w = w := rfl
/-- Stretch 2: the log-probabilities. -/
theorem s2 (V : Valuation τ sig (Elt Ideal)) (xr : Fin 64 → Fin 512 → Fin 2000 → ℝ)
    (hx : ∀ (b : Fin 64) (s : Fin 512) (v : Fin 2000), V (Proc.devRef .tc main_arg0) (ix3 b s v) = ((xr b s v : ℝ) : EReal)) :
    ∀ (b : Fin 64) (s : Fin 512) (v : Fin 2000), StableHlo.after (ops2 (F := Ideal)) V (Proc.devRef .tc main_v12) (ix3 b s v)
      = ((xr b s v - (Spec.rowMax (xr b s) + Real.log (∑ u : Fin 2000, Real.exp (xr b s u - Spec.rowMax (xr b s)))) : ℝ) : EReal) := by
  intro b s v
  -- the fifteen operations, as functions of the logits' buffer
  after_results
  rw [v12_write]
  repeat rw [ofBuf_toBuf]
  rw [arg0_read]
  beta_reduce
  exact outV_apply (V (Proc.devRef .tc main_arg0)) xr hx b s v

end Cert.ReferenceIdeal.Stretch

end
-- ==== Proof.RefStretchC.lean ====
/-
  The reference's two picks, read at an index.

  Each pick broadcasts the labels to [64, 512, 1], adds 2000 to a negative label (none is negative here), tests the
  index against 0 .. 1999 (true here), gathers along the class axis and keeps the gathered entry where the test holds:
  with labels in range it is the entry of the label's class. The first pick reads the log-probabilities, the second
  the raw logits.
-/
import proofs.«426013_j77464030151294_3_alg».proof.Proof.RefOps
import proofs.«426013_j77464030151294_3_alg».proof.Proof.RefPieces
import proofs.«426013_j77464030151294_3_alg».proof.Proof.Spec
import proofs.«426013_j77464030151294_3_alg».proof.Proof.Consts
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Mathlib.Algebra.BigOperators.Fin

noncomputable section

namespace Cert.ReferenceIdeal.Stretch

open Idealize.ShloMosaic Idealize.ShloMosaic.TcCoe Idealize.ShloMosaic.ValueIdx Idealize.ShloMosaic.StableHlo
open Cert.ReferenceIdeal Cert.ReferenceIdeal.Gen
open scoped BigOperators

attribute [local instance] Cert.ReferenceIdeal.Gen.facts

/-! ## Words read signed -/

/-- A word that reads, signed, as a natural number is not below zero, -/
private theorem cmpi_slt_zero {x : BitVec 32} {k : ℕ} (h : x.toInt = (k : ℤ)) : IntOp.cmpi .slt x 0#32 = 0#1 := by
  show BitVec.ofBool (decide (x.toInt < (0#32 : BitVec 32).toInt)) = 0#1
  rw [h, show (0#32 : BitVec 32).toInt = 0 from by decide, decide_eq_false (by omega)]
  rfl

/-- is at least zero, -/
private theorem cmpi_sge_zero {x : BitVec 32} {k : ℕ} (h : x.toInt = (k : ℤ)) : IntOp.cmpi .sge x 0#32 = 1#1 := by
  show BitVec.ofBool (decide ((0#32 : BitVec 32).toInt ≤ x.toInt)) = 1#1
  rw [h, show (0#32 : BitVec 32).toInt = 0 from by decide, decide_eq_true (by omega)]
  rfl

/-- and, when that number is below 2000, is at most 1999. -/
private theorem cmpi_sle_1999 {x : BitVec 32} {k : ℕ} (h : x.toInt = (k : ℤ)) (hk : k < 2000) : IntOp.cmpi .sle x 1999#32 = 1#1 := by
  show BitVec.ofBool (decide (x.toInt ≤ (1999#32 : BitVec 32).toInt)) = 1#1
  rw [h, show (1999#32 : BitVec 32).toInt = 1999 from by decide, decide_eq_true (by omega)]
  rfl

/-! ## The and-reduction of an array of ones -/

/-- A left fold by `and` from 1 over words that are all 1 is 1. -/
private theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- So a reduction by `and`, started at 1, of an array whose every entry is 1 is 1 at every index. -/
private theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  exact foldl_andi_ones x hx _

/-! ## The pick -/

/-- The labels laid out as [64, 512, 1] read, at (b, s, 0), the label of (b, s). -/
private theorem labels_apply {α : Type} (X : S64x512.Idx → α) (h : S64x512.BroadcastsInDim S64x512x1 ![0, 1]) (b : Fin 64) (s : Fin 512) :
    broadcastInDim S64x512x1 ![0, 1] h X (ix3 b s (0 : Fin 1)) = X (ix2 b s) := by
  refine broadcastInDim_apply ![0, 1] h X (ix3 b s (0 : Fin 1)) (ix2 b s) ?_
  intro a
  match a with
  | ⟨0, _⟩ => rfl
  | ⟨1, _⟩ => rfl

/-- The index the gather is given: a label that is not negative is kept by the wrap-around select, and the reshape to
    [64, 512, 1, 1] keeps its place. -/
private theorem index_apply (L : IVec S64x512x1 32) (hz : S_.BroadcastsInDim S64x512x1 ![]) (hn : S64x512x1.ShapeCasts S64x512x1x1)
    (b : Fin 64) (s : Fin 512) (k : ℕ) (hL : (L (ix3 b s (0 : Fin 1))).toInt = (k : ℤ)) :
    shapeCast S64x512x1x1
        (select (cmpi .slt L (broadcastInDim S64x512x1 ![] hz (constantI S_ 32 0#32)))
          (addi L (broadcastInDim S64x512x1 ![] hz (constantI S_ 32 2000#32))) L) hn (ix4 b s (0 : Fin 1) (0 : Fin 1))
      = L (ix3 b s (0 : Fin 1)) := by
  refine (shapeCast_apply _ hn (ix4 b s (0 : Fin 1) (0 : Fin 1)) (ix3 b s (0 : Fin 1)) ?_).trans ?_
  · rw [Shape.rowMajor_val_three, Shape.rowMajor_val_four]
    show (b.val * 512 + s.val) * 1 + 0 = ((b.val * 512 + s.val) * 1 + 0) * 1 + 0
    omega
  · show Scalar.select (IntOp.cmpi .slt (L (ix3 b s (0 : Fin 1))) 0#32) _ (L (ix3 b s (0 : Fin 1))) = _
    rw [cmpi_slt_zero hL, select_zero]

/-- The pick itself: where every index word reads, signed, as a class below 2000, the range test holds everywhere, so
    its and-reduction is 1 and the select keeps the gathered entry, which is the entry of that class. -/
private theorem pick_apply (x : FVec Ideal S64x512x2000 .f32) (idx : IVec S64x512x1x1 32) (nanv : FVec Ideal S64x512x1 .f32)
    (hz : S_.BroadcastsInDim S64x512x1x1 ![]) (h1 : S1.BroadcastsInDim S1x1x1x1 ![3])
    (h4 : S1x1x1x1.BroadcastsInDim S64x512x1x1 ![0, 1, 2, 3])
    (hr : S64x512x1x1.ReducesTo [3] S64x512x1) (hu : 0 < S_.numel)
    (lb : Fin 64 → Fin 512 → Fin 2000)
    (hidx : ∀ (b : Fin 64) (s : Fin 512), (idx (ix4 b s (0 : Fin 1) (0 : Fin 1))).toInt = ((lb b s).val : ℤ))
    (b : Fin 64) (s : Fin 512) :
    select
        (Host.reduce IntOp.andi
          (andi (cmpi .sge idx (broadcastInDim S64x512x1x1 ![] hz (constantI S_ 32 0#32)))
            (cmpi .sle idx (broadcastInDim S64x512x1x1 ![0, 1, 2, 3] h4 (broadcastInDim S1x1x1x1 ![3] h1 (constantI S1 32 1999#32)))))
          (constantI S_ 1 1#1) hr hu)
        (Host.gather gather_S64x512x2000_S64x512x1x1_S64x512x1_n_2_01_01_2_3_111 x idx) nanv (ix3 b s (0 : Fin 1))
      = x (ix3 b s (lb b s)) := by
  have hall : ∀ i : S64x512x1x1.Idx,
      andi (cmpi .sge idx (broadcastInDim S64x512x1x1 ![] hz (constantI S_ 32 0#32)))
        (cmpi .sle idx (broadcastInDim S64x512x1x1 ![0, 1, 2, 3] h4 (broadcastInDim S1x1x1x1 ![3] h1 (constantI S1 32 1999#32)))) i = 1#1 := by
    intro i
    have hi : ix4 (i 0) (i 1) (0 : Fin 1) (0 : Fin 1) = i := by
      funext a
      match a with
      | ⟨0, _⟩ => rfl
      | ⟨1, _⟩ => rfl
      | ⟨2, h⟩ => exact Fin.ext (by show (0 : ℕ) = (i ⟨2, h⟩).val; have : (i ⟨2, h⟩).val < 1 := (i ⟨2, h⟩).isLt; omega)
      | ⟨3, h⟩ => exact Fin.ext (by show (0 : ℕ) = (i ⟨3, h⟩).val; have : (i ⟨3, h⟩).val < 1 := (i ⟨3, h⟩).isLt; omega)
    have hw : (idx i).toInt = ((lb (i 0) (i 1)).val : ℤ) :=
      (congrArg (fun j => (idx j).toInt) hi.symm).trans (hidx (i 0) (i 1))
    show IntOp.andi (IntOp.cmpi .sge (idx i) 0#32) (IntOp.cmpi .sle (idx i) 1999#32) = 1#1
    rw [cmpi_sge_zero hw, cmpi_sle_1999 hw (lb (i 0) (i 1)).isLt]
    decide
  show Scalar.select (Host.reduce IntOp.andi _ (constantI S_ 1 1#1) hr hu (ix3 b s (0 : Fin 1)))
    (Host.gather gather_S64x512x2000_S64x512x1x1_S64x512x1_n_2_01_01_2_3_111 x idx (ix3 b s (0 : Fin 1))) _ = _
  rw [reduce_andi_ones _ _ hr hu _ rfl hall, select_one]
  exact Cert.ReferenceIdeal.Pieces.gather_apply x idx b s (lb b s) (hidx b s)

/-- Stretch 3: the labels broadcast, and the pick out of the log-probabilities `P`. -/
theorem s3 (V : Valuation τ sig (Elt Ideal)) (lb : Fin 64 → Fin 512 → Fin 2000) (P : Fin 64 → Fin 512 → Fin 2000 → ℝ)
    (hlab : ∀ (b : Fin 64) (s : Fin 512), (V (Proc.devRef .tc main_arg1) (ix2 b s)).toInt = ((lb b s).val : ℤ))
    (hP : ∀ (b : Fin 64) (s : Fin 512) (v : Fin 2000), V (Proc.devRef .tc main_v12) (ix3 b s v) = ((P b s v : ℝ) : EReal)) :
    (∀ (b : Fin 64) (s : Fin 512), StableHlo.after (ops3 (F := Ideal)) V (Proc.devRef .tc main_v14) (ix3 b s (0 : Fin 1)) = ((P b s (lb b s) : ℝ) : EReal))
    ∧ (∀ (b : Fin 64) (s : Fin 512), (StableHlo.after (ops3 (F := Ideal)) V (Proc.devRef .tc main_v13) (ix3 b s (0 : Fin 1))).toInt = ((lb b s).val : ℤ)) := by
  -- the labels laid out as [64, 512, 1] read the label of (b, s), which is a class below 2000
  have hL : ∀ (b : Fin 64) (s : Fin 512),
      (broadcastInDim S64x512x1 ![0, 1] Facts₀.bcast_S64x512_S64x512x1_0_1 (V (Proc.devRef .tc main_arg1)) (ix3 b s (0 : Fin 1))).toInt
        = ((lb b s).val : ℤ) := fun b s => by
    rw [labels_apply]; exact hlab b s
  refine ⟨fun b s => ?_, fun b s => ?_⟩
  · -- the picked entry: the index word at (b, s, 0, 0) is the label's own, so the pick reads the label's class
    after_results_simp
    simp only [TRef.ofBuf, TRef.toBuf, cast_eq]
    refine (pick_apply _ _ _ _ _ _ _ _ lb (fun b s => ?_) b s).trans (hP b s _)
    show BitVec.toInt (shapeCast S64x512x1x1 _ _ (ix4 b s (0 : Fin 1) (0 : Fin 1))) = _
    rw [index_apply _ _ _ b s _ (hL b s)]
    exact hL b s
  · -- the labels' own array
    after_results_simp
    exact hL b s

/-- Stretch 5: the pick out of the raw logits. -/
theorem s5 (V : Valuation τ sig (Elt Ideal)) (lb : Fin 64 → Fin 512 → Fin 2000) (xr : Fin 64 → Fin 512 → Fin 2000 → ℝ)
    (h13 : ∀ (b : Fin 64) (s : Fin 512), (V (Proc.devRef .tc main_v13) (ix3 b s (0 : Fin 1))).toInt = ((lb b s).val : ℤ))
    (hx : ∀ (b : Fin 64) (s : Fin 512) (v : Fin 2000), V (Proc.devRef .tc main_arg0) (ix3 b s v) = ((xr b s v : ℝ) : EReal)) :
    ∀ (b : Fin 64) (s : Fin 512), StableHlo.after (ops5 (F := Ideal)) V (Proc.devRef .tc main_v23) (ix3 b s (0 : Fin 1)) = ((xr b s (lb b s) : ℝ) : EReal) := by
  -- the same pick, the index word taken from the labels already laid out as [64, 512, 1]
  intro b s
  after_results_simp
  simp only [TRef.ofBuf, TRef.toBuf, cast_eq]
  refine (pick_apply _ _ _ _ _ _ _ _ lb (fun b s => ?_) b s).trans (hx b s _)
  show BitVec.toInt (shapeCast S64x512x1x1 _ _ (ix4 b s (0 : Fin 1) (0 : Fin 1))) = _
  rw [index_apply _ _ _ b s _ (h13 b s)]
  exact h13 b s

end Cert.ReferenceIdeal.Stretch

end
-- ==== Proof.RefValue.lean ====
/-
  The reference, read over the real numbers.

  Under the precondition's facts — every logit and every entry of the two loss vectors a real number, every label a
  class 0 .. 1999, every sequence length at least 3 — the reference's three results are the specification's
  `loss`, `rec` and `avg` of those real inputs, with threshold  sequence_len − 2:
  its log-softmax is  (x − M) − log Σ exp (x − M)  with M the position's maximum, its gather at an in-range label
  picks that class's entry, so the negated pick is the specification's negative log-likelihood; its mask is
  position < threshold; its divisor is the threshold as a number.
-/
import proofs.«426013_j77464030151294_3_alg».proof.Proof.RefStretchA
import proofs.«426013_j77464030151294_3_alg».proof.Proof.RefStretchB
import proofs.«426013_j77464030151294_3_alg».proof.Proof.RefStretchC
import proofs.«426013_j77464030151294_3_alg».proof.Proof.Spec
import proofs.«426013_j77464030151294_3_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.TcCoe Idealize.ShloMosaic.ValueIdx Idealize.SL.Sem
open Cert.ReferenceIdeal Cert.ReferenceIdeal.Gen

/-! ## The algebra, over the real numbers -/

/-- The negated pick of the log-softmax, masked and summed over a row, is the specification's masked sum of negative
    log-likelihoods; divided twice by the threshold and averaged over the rows it is the specification's first result. -/
theorem rec_eq (xr : Fin 64 → Fin 512 → Fin 2000 → ℝ) (lb : Fin 64 → Fin 512 → Fin 2000) (thr : Fin 64 → ℤ) :
    (∑ b : Fin 64, (∑ s : Fin 512,
        (-(xr b s (lb b s) - (Spec.rowMax (xr b s) + Real.log (∑ u : Fin 2000, Real.exp (xr b s u - Spec.rowMax (xr b s))))))
          * Spec.mask (thr b) s.val) / (thr b : ℝ) / (thr b : ℝ)) / 64
      = Spec.rec xr lb thr := by
  have row : ∀ b : Fin 64, (∑ s : Fin 512,
        (-(xr b s (lb b s) - (Spec.rowMax (xr b s) + Real.log (∑ u : Fin 2000, Real.exp (xr b s u - Spec.rowMax (xr b s))))))
          * Spec.mask (thr b) s.val) = Spec.ceRow (xr b) (lb b) (thr b) := by
    intro b
    unfold Spec.ceRow Spec.ceSpan Spec.nll
    refine Finset.sum_congr rfl fun s _ => ?_
    rw [Nat.zero_add]
    ring
  unfold Spec.rec
  simp only [row]

/-- The pick of the raw logits, masked and summed over a row, is the specification's masked sum of picked logits;
    divided by the threshold and averaged over the rows it is the specification's second result. -/
theorem avg_eq (xr : Fin 64 → Fin 512 → Fin 2000 → ℝ) (lb : Fin 64 → Fin 512 → Fin 2000) (thr : Fin 64 → ℤ) :
    (∑ b : Fin 64, (∑ s : Fin 512, xr b s (lb b s) * Spec.mask (thr b) s.val) / (thr b : ℝ)) / 64
      = Spec.avg xr lb thr := by
  have row : ∀ b : Fin 64, (∑ s : Fin 512, xr b s (lb b s) * Spec.mask (thr b) s.val) = Spec.proRow (xr b) (lb b) (thr b) := by
    intro b
    unfold Spec.proRow Spec.proSpan
    refine Finset.sum_congr rfl fun s _ => ?_
    rw [Nat.zero_add]
    ring
  unfold Spec.avg
  simp only [row]

/-! ## What each stretch leaves alone

A stretch writes only its own results; every other buffer holds after it what it held before. One fact per stretch and
per buffer that a later stretch, or the final statement, reads. -/

theorem kept1_arg0 (V : Valuation τ sig (Elt Ideal)) :
    StableHlo.after (Stretch.ops1 (F := Ideal)) V (Proc.devRef .tc main_arg0) = V (Proc.devRef .tc main_arg0) := by
  after_results

theorem kept1_arg1 (V : Valuation τ sig (Elt Ideal)) :
    StableHlo.after (Stretch.ops1 (F := Ideal)) V (Proc.devRef .tc main_arg1) = V (Proc.devRef .tc main_arg1) := by
  after_results

theorem kept1_arg2 (V : Valuation τ sig (Elt Ideal)) :
    StableHlo.after (Stretch.ops1 (F := Ideal)) V (Proc.devRef .tc main_arg2) = V (Proc.devRef .tc main_arg2) := by
  after_results

theorem kept1_arg3 (V : Valuation τ sig (Elt Ideal)) :
    StableHlo.after (Stretch.ops1 (F := Ideal)) V (Proc.devRef .tc main_arg3) = V (Proc.devRef .tc main_arg3) := by
  after_results

theorem kept1_arg4 (V : Valuation τ sig (Elt Ideal)) :
    StableHlo.after (Stretch.ops1 (F := Ideal)) V (Proc.devRef .tc main_arg4) = V (Proc.devRef .tc main_arg4) := by
  after_results

theorem kept2_arg0 (V : Valuation τ sig (Elt Ideal)) :
    StableHlo.after (Stretch.ops2 (F := Ideal)) V (Proc.devRef .tc main_arg0) = V (Proc.devRef .tc main_arg0) := by
  after_results

theorem kept2_arg1 (V : Valuation τ sig (Elt Ideal)) :
    StableHlo.after (Stretch.ops2 (F := Ideal)) V (Proc.devRef .tc main_arg1) = V (Proc.devRef .tc main_arg1) := by
  after_results

theorem kept2_arg2 (V : Valuation τ sig (Elt Ideal)) :
    StableHlo.after (Stretch.ops2 (F := Ideal)) V (Proc.devRef .tc main_arg2) = V (Proc.devRef .tc main_arg2) := by
  after_results

theorem kept2_arg3 (V : Valuation τ sig (Elt Ideal)) :
    StableHlo.after (Stretch.ops2 (F := Ideal)) V (Proc.devRef .tc main_arg3) = V (Proc.devRef .tc main_arg3) := by
  after_results

theorem kept2_arg4 (V : Valuation τ sig (Elt Ideal)) :
    StableHlo.after (Stretch.ops2 (F := Ideal)) V (Proc.devRef .tc main_arg4) = V (Proc.devRef .tc main_arg4) := by
  after_results

theorem kept2_v2 (V : Valuation τ sig (Elt Ideal)) :
    StableHlo.after (Stretch.ops2 (F := Ideal)) V (Proc.devRef .tc main_v2) = V (Proc.devRef .tc main_v2) := by
  after_results

theorem kept2_v11 (V : Valuation τ sig (Elt Ideal)) :
    StableHlo.after (Stretch.ops2 (F := Ideal)) V (Proc.devRef .tc main_v11) = V (Proc.devRef .tc main_v11) := by
  after_results

theorem kept3_arg0 (V : Valuation τ sig (Elt Ideal)) :
    StableHlo.after (Stretch.ops3 (F := Ideal)) V (Proc.devRef .tc main_arg0) = V (Proc.devRef .tc main_arg0) := by
  after_results

theorem kept3_arg1 (V : Valuation τ sig (Elt Ideal)) :
    StableHlo.after (Stretch.ops3 (F := Ideal)) V (Proc.devRef .tc main_arg1) = V (Proc.devRef .tc main_arg1) := by
  after_results

theorem kept3_arg2 (V : Valuation τ sig (Elt Ideal)) :
    StableHlo.after (Stretch.ops3 (F := Ideal)) V (Proc.devRef .tc main_arg2) = V (Proc.devRef .tc main_arg2) := by
  after_results

theorem kept3_arg3 (V : Valuation τ sig (Elt Ideal)) :
    StableHlo.after (Stretch.ops3 (F := Ideal)) V (Proc.devRef .tc main_arg3) = V (Proc.devRef .tc main_arg3) := by
  after_results

theorem kept3_arg4 (V : Valuation τ sig (Elt Ideal)) :
    StableHlo.after (Stretch.ops3 (F := Ideal)) V (Proc.devRef .tc main_arg4) = V (Proc.devRef .tc main_arg4) := by
  after_results

theorem kept3_v2 (V : Valuation τ sig (Elt Ideal)) :
    StableHlo.after (Stretch.ops3 (F := Ideal)) V (Proc.devRef .tc main_v2) = V (Proc.devRef .tc main_v2) := by
  after_results

theorem kept3_v11 (V : Valuation τ sig (Elt Ideal)) :
    StableHlo.after (Stretch.ops3 (F := Ideal)) V (Proc.devRef .tc main_v11) = V (Proc.devRef .tc main_v11) := by
  after_results

theorem kept4_arg0 (V : Valuation τ sig (Elt Ideal)) :
    StableHlo.after (Stretch.ops4 (F := Ideal)) V (Proc.devRef .tc main_arg0) = V (Proc.devRef .tc main_arg0) := by
  after_results

theorem kept4_arg1 (V : Valuation τ sig (Elt Ideal)) :
    StableHlo.after (Stretch.ops4 (F := Ideal)) V (Proc.devRef .tc main_arg1) = V (Proc.devRef .tc main_arg1) := by
  after_results

theorem kept4_arg2 (V : Valuation τ sig (Elt Ideal)) :
    StableHlo.after (Stretch.ops4 (F := Ideal)) V (Proc.devRef .tc main_arg2) = V (Proc.devRef .tc main_arg2) := by
  after_results

theorem kept4_arg3 (V : Valuation τ sig (Elt Ideal)) :
    StableHlo.after (Stretch.ops4 (F := Ideal)) V (Proc.devRef .tc main_arg3) = V (Proc.devRef .tc main_arg3) := by
  after_results

theorem kept4_arg4 (V : Valuation τ sig (Elt Ideal)) :
    StableHlo.after (Stretch.ops4 (F := Ideal)) V (Proc.devRef .tc main_arg4) = V (Proc.devRef .tc main_arg4) := by
  after_results

theorem kept4_v2 (V : Valuation τ sig (Elt Ideal)) :
    StableHlo.after (Stretch.ops4 (F := Ideal)) V (Proc.devRef .tc main_v2) = V (Proc.devRef .tc main_v2) := by
  after_results

theorem kept4_v11 (V : Valuation τ sig (Elt Ideal)) :
    StableHlo.after (Stretch.ops4 (F := Ideal)) V (Proc.devRef .tc main_v11) = V (Proc.devRef .tc main_v11) := by
  after_results

theorem kept4_v13 (V : Valuation τ sig (Elt Ideal)) :
    StableHlo.after (Stretch.ops4 (F := Ideal)) V (Proc.devRef .tc main_v13) = V (Proc.devRef .tc main_v13) := by
  after_results

theorem kept5_arg0 (V : Valuation τ sig (Elt Ideal)) :
    StableHlo.after (Stretch.ops5 (F := Ideal)) V (Proc.devRef .tc main_arg0) = V (Proc.devRef .tc main_arg0) := by
  after_results

theorem kept5_arg1 (V : Valuation τ sig (Elt Ideal)) :
    StableHlo.after (Stretch.ops5 (F := Ideal)) V (Proc.devRef .tc main_arg1) = V (Proc.devRef .tc main_arg1) := by
  after_results

theorem kept5_arg2 (V : Valuation τ sig (Elt Ideal)) :
    StableHlo.after (Stretch.ops5 (F := Ideal)) V (Proc.devRef .tc main_arg2) = V (Proc.devRef .tc main_arg2) := by
  after_results

theorem kept5_arg3 (V : Valuation τ sig (Elt Ideal)) :
    StableHlo.after (Stretch.ops5 (F := Ideal)) V (Proc.devRef .tc main_arg3) = V (Proc.devRef .tc main_arg3) := by
  after_results

theorem kept5_arg4 (V : Valuation τ sig (Elt Ideal)) :
    StableHlo.after (Stretch.ops5 (F := Ideal)) V (Proc.devRef .tc main_arg4) = V (Proc.devRef .tc main_arg4) := by
  after_results

theorem kept5_v2 (V : Valuation τ sig (Elt Ideal)) :
    StableHlo.after (Stretch.ops5 (F := Ideal)) V (Proc.devRef .tc main_v2) = V (Proc.devRef .tc main_v2) := by
  after_results

theorem kept5_v11 (V : Valuation τ sig (Elt Ideal)) :
    StableHlo.after (Stretch.ops5 (F := Ideal)) V (Proc.devRef .tc main_v11) = V (Proc.devRef .tc main_v11) := by
  after_results

theorem kept5_v22 (V : Valuation τ sig (Elt Ideal)) :
    StableHlo.after (Stretch.ops5 (F := Ideal)) V (Proc.devRef .tc main_v22) = V (Proc.devRef .tc main_v22) := by
  after_results

theorem kept6_arg0 (V : Valuation τ sig (Elt Ideal)) :
    StableHlo.after (Stretch.ops6 (F := Ideal)) V (Proc.devRef .tc main_arg0) = V (Proc.devRef .tc main_arg0) := by
  after_results

theorem kept6_arg1 (V : Valuation τ sig (Elt Ideal)) :
    StableHlo.after (Stretch.ops6 (F := Ideal)) V (Proc.devRef .tc main_arg1) = V (Proc.devRef .tc main_arg1) := by
  after_results

theorem kept6_arg2 (V : Valuation τ sig (Elt Ideal)) :
    StableHlo.after (Stretch.ops6 (F := Ideal)) V (Proc.devRef .tc main_arg2) = V (Proc.devRef .tc main_arg2) := by
  after_results

theorem kept6_arg3 (V : Valuation τ sig (Elt Ideal)) :
    StableHlo.after (Stretch.ops6 (F := Ideal)) V (Proc.devRef .tc main_arg3) = V (Proc.devRef .tc main_arg3) := by
  after_results

theorem kept6_arg4 (V : Valuation τ sig (Elt Ideal)) :
    StableHlo.after (Stretch.ops6 (F := Ideal)) V (Proc.devRef .tc main_arg4) = V (Proc.devRef .tc main_arg4) := by
  after_results

theorem kept6_v22 (V : Valuation τ sig (Elt Ideal)) :
    StableHlo.after (Stretch.ops6 (F := Ideal)) V (Proc.devRef .tc main_v22) = V (Proc.devRef .tc main_v22) := by
  after_results

/-! ## The six stretches in order -/

/-- The whole list run from V is the sixth stretch run after the fifth, …, after the first. -/
theorem after_ops (V : Valuation τ sig (Elt Ideal)) :
    StableHlo.after (ValueP.ops (F := Ideal)) V
      = StableHlo.after (Stretch.ops6 (F := Ideal)) (StableHlo.after (Stretch.ops5 (F := Ideal)) (StableHlo.after (Stretch.ops4 (F := Ideal))
          (StableHlo.after (Stretch.ops3 (F := Ideal)) (StableHlo.after (Stretch.ops2 (F := Ideal)) (StableHlo.after (Stretch.ops1 (F := Ideal)) V))))) := by
  rw [Stretch.ops_split, StableHlo.after_append, StableHlo.after_append, StableHlo.after_append, StableHlo.after_append,
    StableHlo.after_append]

/-- The six stretches chained: from contents V₀ whose arguments are real (labels in range, lengths thr + 2 with thr
    at least 1), the contents V₆ after the sixth stretch hold the specification's three numbers, and the arguments
    unchanged. The intermediate contents V₁ … V₅ enter only through the equations that define them. -/
theorem chain (V₀ V₁ V₂ V₃ V₄ V₅ V₆ : Valuation τ sig (Elt Ideal))
    (e1 : V₁ = StableHlo.after (Stretch.ops1 (F := Ideal)) V₀) (e2 : V₂ = StableHlo.after (Stretch.ops2 (F := Ideal)) V₁)
    (e3 : V₃ = StableHlo.after (Stretch.ops3 (F := Ideal)) V₂) (e4 : V₄ = StableHlo.after (Stretch.ops4 (F := Ideal)) V₃)
    (e5 : V₅ = StableHlo.after (Stretch.ops5 (F := Ideal)) V₄) (e6 : V₆ = StableHlo.after (Stretch.ops6 (F := Ideal)) V₅)
    (xr : Fin 64 → Fin 512 → Fin 2000 → ℝ) (lb : Fin 64 → Fin 512 → Fin 2000) (thr : Fin 64 → ℤ) (gr : Fin 64 → ℝ) (ur : Fin 1 → ℝ)
    (hx : ∀ (b : Fin 64) (s : Fin 512) (v : Fin 2000), V₀ (Proc.devRef .tc main_arg0) (ix3 b s v) = ((xr b s v : ℝ) : EReal))
    (hlab : ∀ (b : Fin 64) (s : Fin 512), (V₀ (Proc.devRef .tc main_arg1) (ix2 b s)).toInt = ((lb b s).val : ℤ))
    (hsl : ∀ b : Fin 64, (V₀ (Proc.devRef .tc main_arg2) (ix1 b)).toInt = thr b + 2) (hthr : ∀ b : Fin 64, 1 ≤ thr b)
    (hg : ∀ b : Fin 64, V₀ (Proc.devRef .tc main_arg3) (ix1 b) = ((gr b : ℝ) : EReal))
    (hu : ∀ j : Fin 1, V₀ (Proc.devRef .tc main_arg4) (ix1 j) = ((ur j : ℝ) : EReal)) :
    V₆ (Proc.devRef .tc main_v38) = (fun _ => ((Spec.loss Consts.c₁ Consts.c₂ Consts.c₃ xr lb thr gr ur : ℝ) : EReal))
    ∧ V₆ (Proc.devRef .tc main_v22) = (fun _ => ((Spec.rec xr lb thr : ℝ) : EReal))
    ∧ V₆ (Proc.devRef .tc main_v29) = (fun _ => ((Spec.avg xr lb thr : ℝ) : EReal))
    ∧ V₆ (Proc.devRef .tc main_arg0) = V₀ (Proc.devRef .tc main_arg0)
    ∧ V₆ (Proc.devRef .tc main_arg1) = V₀ (Proc.devRef .tc main_arg1)
    ∧ V₆ (Proc.devRef .tc main_arg2) = V₀ (Proc.devRef .tc main_arg2)
    ∧ V₆ (Proc.devRef .tc main_arg3) = V₀ (Proc.devRef .tc main_arg3)
    ∧ V₆ (Proc.devRef .tc main_arg4) = V₀ (Proc.devRef .tc main_arg4) := by
  -- the arguments through every stretch
  have a0_1 : V₁ (Proc.devRef .tc main_arg0) = V₀ (Proc.devRef .tc main_arg0) := by rw [e1]; exact kept1_arg0 V₀
  have a0_2 : V₂ (Proc.devRef .tc main_arg0) = V₀ (Proc.devRef .tc main_arg0) := by rw [e2, kept2_arg0]; exact a0_1
  have a0_3 : V₃ (Proc.devRef .tc main_arg0) = V₀ (Proc.devRef .tc main_arg0) := by rw [e3, kept3_arg0]; exact a0_2
  have a0_4 : V₄ (Proc.devRef .tc main_arg0) = V₀ (Proc.devRef .tc main_arg0) := by rw [e4, kept4_arg0]; exact a0_3
  have a0_5 : V₅ (Proc.devRef .tc main_arg0) = V₀ (Proc.devRef .tc main_arg0) := by rw [e5, kept5_arg0]; exact a0_4
  have a0_6 : V₆ (Proc.devRef .tc main_arg0) = V₀ (Proc.devRef .tc main_arg0) := by rw [e6, kept6_arg0]; exact a0_5
  have a1_1 : V₁ (Proc.devRef .tc main_arg1) = V₀ (Proc.devRef .tc main_arg1) := by rw [e1]; exact kept1_arg1 V₀
  have a1_2 : V₂ (Proc.devRef .tc main_arg1) = V₀ (Proc.devRef .tc main_arg1) := by rw [e2, kept2_arg1]; exact a1_1
  have a1_3 : V₃ (Proc.devRef .tc main_arg1) = V₀ (Proc.devRef .tc main_arg1) := by rw [e3, kept3_arg1]; exact a1_2
  have a1_4 : V₄ (Proc.devRef .tc main_arg1) = V₀ (Proc.devRef .tc main_arg1) := by rw [e4, kept4_arg1]; exact a1_3
  have a1_5 : V₅ (Proc.devRef .tc main_arg1) = V₀ (Proc.devRef .tc main_arg1) := by rw [e5, kept5_arg1]; exact a1_4
  have a1_6 : V₆ (Proc.devRef .tc main_arg1) = V₀ (Proc.devRef .tc main_arg1) := by rw [e6, kept6_arg1]; exact a1_5
  have a2_1 : V₁ (Proc.devRef .tc main_arg2) = V₀ (Proc.devRef .tc main_arg2) := by rw [e1]; exact kept1_arg2 V₀
  have a2_2 : V₂ (Proc.devRef .tc main_arg2) = V₀ (Proc.devRef .tc main_arg2) := by rw [e2, kept2_arg2]; exact a2_1
  have a2_3 : V₃ (Proc.devRef .tc main_arg2) = V₀ (Proc.devRef .tc main_arg2) := by rw [e3, kept3_arg2]; exact a2_2
  have a2_4 : V₄ (Proc.devRef .tc main_arg2) = V₀ (Proc.devRef .tc main_arg2) := by rw [e4, kept4_arg2]; exact a2_3
  have a2_5 : V₅ (Proc.devRef .tc main_arg2) = V₀ (Proc.devRef .tc main_arg2) := by rw [e5, kept5_arg2]; exact a2_4
  have a2_6 : V₆ (Proc.devRef .tc main_arg2) = V₀ (Proc.devRef .tc main_arg2) := by rw [e6, kept6_arg2]; exact a2_5
  have a3_1 : V₁ (Proc.devRef .tc main_arg3) = V₀ (Proc.devRef .tc main_arg3) := by rw [e1]; exact kept1_arg3 V₀
  have a3_2 : V₂ (Proc.devRef .tc main_arg3) = V₀ (Proc.devRef .tc main_arg3) := by rw [e2, kept2_arg3]; exact a3_1
  have a3_3 : V₃ (Proc.devRef .tc main_arg3) = V₀ (Proc.devRef .tc main_arg3) := by rw [e3, kept3_arg3]; exact a3_2
  have a3_4 : V₄ (Proc.devRef .tc main_arg3) = V₀ (Proc.devRef .tc main_arg3) := by rw [e4, kept4_arg3]; exact a3_3
  have a3_5 : V₅ (Proc.devRef .tc main_arg3) = V₀ (Proc.devRef .tc main_arg3) := by rw [e5, kept5_arg3]; exact a3_4
  have a3_6 : V₆ (Proc.devRef .tc main_arg3) = V₀ (Proc.devRef .tc main_arg3) := by rw [e6, kept6_arg3]; exact a3_5
  have a4_1 : V₁ (Proc.devRef .tc main_arg4) = V₀ (Proc.devRef .tc main_arg4) := by rw [e1]; exact kept1_arg4 V₀
  have a4_2 : V₂ (Proc.devRef .tc main_arg4) = V₀ (Proc.devRef .tc main_arg4) := by rw [e2, kept2_arg4]; exact a4_1
  have a4_3 : V₃ (Proc.devRef .tc main_arg4) = V₀ (Proc.devRef .tc main_arg4) := by rw [e3, kept3_arg4]; exact a4_2
  have a4_4 : V₄ (Proc.devRef .tc main_arg4) = V₀ (Proc.devRef .tc main_arg4) := by rw [e4, kept4_arg4]; exact a4_3
  have a4_5 : V₅ (Proc.devRef .tc main_arg4) = V₀ (Proc.devRef .tc main_arg4) := by rw [e5, kept5_arg4]; exact a4_4
  have a4_6 : V₆ (Proc.devRef .tc main_arg4) = V₀ (Proc.devRef .tc main_arg4) := by rw [e6, kept6_arg4]; exact a4_5
  -- stretch 1: the divisor and the mask, and their way to stretches 4 and 6
  obtain ⟨d1, k1⟩ := Stretch.s1 V₀ thr hsl hthr
  rw [← e1] at d1 k1
  have v2_2 : V₂ (Proc.devRef .tc main_v2) = V₁ (Proc.devRef .tc main_v2) := by rw [e2]; exact kept2_v2 V₁
  have v2_3 : V₃ (Proc.devRef .tc main_v2) = V₁ (Proc.devRef .tc main_v2) := by rw [e3, kept3_v2]; exact v2_2
  have v2_4 : V₄ (Proc.devRef .tc main_v2) = V₁ (Proc.devRef .tc main_v2) := by rw [e4, kept4_v2]; exact v2_3
  have v2_5 : V₅ (Proc.devRef .tc main_v2) = V₁ (Proc.devRef .tc main_v2) := by rw [e5, kept5_v2]; exact v2_4
  have v11_2 : V₂ (Proc.devRef .tc main_v11) = V₁ (Proc.devRef .tc main_v11) := by rw [e2]; exact kept2_v11 V₁
  have v11_3 : V₃ (Proc.devRef .tc main_v11) = V₁ (Proc.devRef .tc main_v11) := by rw [e3, kept3_v11]; exact v11_2
  have v11_4 : V₄ (Proc.devRef .tc main_v11) = V₁ (Proc.devRef .tc main_v11) := by rw [e4, kept4_v11]; exact v11_3
  have v11_5 : V₅ (Proc.devRef .tc main_v11) = V₁ (Proc.devRef .tc main_v11) := by rw [e5, kept5_v11]; exact v11_4
  -- stretch 2: the log-softmax
  have p2 := Stretch.s2 V₁ xr (fun b s v => by rw [a0_1]; exact hx b s v)
  rw [← e2] at p2
  -- stretch 3: its pick at the label
  obtain ⟨n3, l3⟩ := Stretch.s3 V₂ lb _ (fun b s => by rw [a1_2]; exact hlab b s) p2
  rw [← e3] at n3 l3
  -- stretch 4: the first result
  have r4 := Stretch.s4 V₃ _ (fun b s => Spec.mask (thr b) s.val) thr n3
    (fun b s => by rw [v11_3]; exact k1 b s) (fun b => by rw [v2_3]; exact d1 b) hthr
  rw [← e4, rec_eq] at r4
  -- stretch 5: the pick of the raw logits
  have q5 := Stretch.s5 V₄ lb xr (fun b s => by rw [e4, kept4_v13]; exact l3 b s) (fun b s v => by rw [a0_4]; exact hx b s v)
  rw [← e5] at q5
  -- stretch 6: the other two results
  have r4_5 : V₅ (Proc.devRef .tc main_v22) = (fun _ => ((Spec.rec xr lb thr : ℝ) : EReal)) := by
    rw [e5, kept5_v22]; exact r4
  obtain ⟨r6, t6⟩ := Stretch.s6 V₅ _ (fun b s => Spec.mask (thr b) s.val) thr (Spec.rec xr lb thr) gr ur q5
    (fun b s => by rw [v11_5]; exact k1 b s) (fun b => by rw [v2_5]; exact d1 b) hthr r4_5
    (fun b => by rw [a3_5]; exact hg b) (fun j => by rw [a4_5]; exact hu j)
  rw [← e6, avg_eq] at r6
  rw [← e6] at t6
  refine ⟨t6, ?_, r6, a0_6, a1_6, a2_6, a3_6, a4_6⟩
  rw [e6, kept6_v22]
  exact r4_5

/-- The reference's run, with its three results as the specification's real numbers. -/
theorem run_spec (m : (ℓ : Loc nD τ sig) → Buf (Elt Ideal) ℓ) (ρ : Dev nD → PrngReg)
    (xr : Fin 64 → Fin 512 → Fin 2000 → ℝ) (lb : Fin 64 → Fin 512 → Fin 2000) (gr : Fin 64 → ℝ) (ur : Fin 1 → ℝ)
    (hx : ∀ (c : Dev nD) (b : Fin 64) (s : Fin 512) (v : Fin 2000), m ((c.tc : Thread nD τ).loc main_arg0) (ix3 b s v) = ((xr b s v : ℝ) : EReal))
    (hlab : ∀ (c : Dev nD) (b : Fin 64) (s : Fin 512), (m ((c.tc : Thread nD τ).loc main_arg1) (ix2 b s)).toInt = ((lb b s).val : ℤ))
    (hsl : ∀ (c : Dev nD) (b : Fin 64), 3 ≤ (m ((c.tc : Thread nD τ).loc main_arg2) (ix1 b)).toInt)
    (hg : ∀ (c : Dev nD) (b : Fin 64), m ((c.tc : Thread nD τ).loc main_arg3) (ix1 b) = ((gr b : ℝ) : EReal))
    (hu : ∀ (c : Dev nD) (j : Fin 1), m ((c.tc : Thread nD τ).loc main_arg4) (ix1 j) = ((ur j : ℝ) : EReal)) :
    θ_run (defs (F := Ideal)) (onTc (τ := τ) (main (F := Ideal))) ⟨m, fun _ => 0, ρ⟩ fun r => ∀ c : Dev nD,
      r.2.mem ((c.tc : Thread nD τ).loc main_v38)
          = (fun _ => ((Spec.loss Consts.c₁ Consts.c₂ Consts.c₃ xr lb (fun b => (m ((c.tc : Thread nD τ).loc main_arg2) (ix1 b)).toInt - 2) gr ur : ℝ) : EReal))
      ∧ r.2.mem ((c.tc : Thread nD τ).loc main_v22)
          = (fun _ => ((Spec.rec xr lb (fun b => (m ((c.tc : Thread nD τ).loc main_arg2) (ix1 b)).toInt - 2) : ℝ) : EReal))
      ∧ r.2.mem ((c.tc : Thread nD τ).loc main_v29)
          = (fun _ => ((Spec.avg xr lb (fun b => (m ((c.tc : Thread nD τ).loc main_arg2) (ix1 b)).toInt - 2) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun r h c => ?_) (ValueP.run_raw (F := Ideal) m ρ)
  have key := chain (StableHlo.launchContents m c) _ _ _ _ _ _ rfl rfl rfl rfl rfl rfl xr lb
    (fun b => (m ((c.tc : Thread nD τ).loc main_arg2) (ix1 b)).toInt - 2) gr ur (hx c) (hlab c)
    (fun b => by
      show (m ((c.tc : Thread nD τ).loc main_arg2) (ix1 b)).toInt = (m ((c.tc : Thread nD τ).loc main_arg2) (ix1 b)).toInt - 2 + 2
      omega)
    (fun b => by have := hsl c b; omega) (hg c) (hu c)
  rw [← after_ops] at key
  rw [h c main_v38, h c main_v22, h c main_v29, h c main_arg0, h c main_arg1, h c main_arg2, h c main_arg3, h c main_arg4]
  exact key

end Cert.ReferenceIdeal.RefValue

end
-- ==== Proof.PreFacts.lean ====
/-
  THE PRECONDITION, DECODED. The predicate `Cert.Pre_finite_inputs.fn` is the conjunction of five whole-array
  "all" reductions: |outputs| < +∞, |batch_gaussian_loss| < +∞, |batch_uniform_loss| < +∞, 0 ≤ label < 2000 and
  3 ≤ sequence_len, the integer comparisons signed. Its result is one bit; when that bit is 1 every one of the five
  reductions is 1 (an `and` of bits is 1 only when both are), and an `and`-reduction over all axes that is 1 met a 1
  at every index. Read at one element, over the extended reals: |a| = max a (-a) is below the pattern 0x7F800000,
  which denotes +∞, exactly when a is neither +∞ nor -∞, that is, when a is a real number; and a signed comparison
  of 32-bit words that is 1 is the order of their signed values.
-/
import proofs.«426013_j77464030151294_3_alg».proof.Pre_finite_inputs
import proofs.«426013_j77464030151294_3_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreFacts

open Idealize.ShloMosaic Idealize.ShloMosaic.ValueIdx Cert.Pre_finite_inputs

attribute [local instance] Cert.Pre_finite_inputs.Gen.facts

/-- The scalar shape has one index. -/
instance subsingleton_S_ : Subsingleton S_.Idx := ⟨fun a b => funext fun d => d.elim0⟩

/-! ## One element -/

/-- The pattern 0x7F800000 (exponent all ones, significand zero, sign clear) denotes +∞. -/
theorem inf_pattern : Ideal.ofBits .f32 0x7F800000#32 = (⊤ : EReal) := by
  simp [Ideal.ofBits, Ideal.ieee]

/-- An extended real whose absolute value max a (-a) compares below +∞ is a real number: at -∞ the negation is +∞,
    at +∞ the value itself is. -/
theorem real_of_abs_lt_inf (a : EReal)
    (h : Ideal.cmp .olt (max a (-a)) (Ideal.ofBits .f32 0x7F800000#32) = 1#1) : ∃ r : ℝ, a = (r : EReal) := by
  rw [inf_pattern] at h
  have hlt : max a (-a) < ⊤ := by
    simpa only [Ideal.cmp, StableHlo.Predicate.ofBool_eq_one_iff, decide_eq_true_eq] using h
  induction a using EReal.rec with
  | bot => simp at hlt
  | coe r => exact ⟨r, rfl⟩
  | top => simp at hlt

/-- The signed values of the three literal words. -/
theorem toInt_zero : (0#32 : BitVec 32).toInt = 0 := by decide
theorem toInt_2000 : (2000#32 : BitVec 32).toInt = 2000 := by decide
theorem toInt_three : (3#32 : BitVec 32).toInt = 3 := by decide

/-- A word that compares signed at least 0 and below 2000 has its signed value in [0, 2000). -/
theorem range_of_cmp (w : BitVec 32)
    (h : IntOp.andi (IntOp.cmpi .sge w 0#32) (IntOp.cmpi .slt w 2000#32) = 1#1) : 0 ≤ w.toInt ∧ w.toInt < 2000 := by
  obtain ⟨h0, h1⟩ := IntOp.andi_eq_one.1 h
  have a := IntOp.cmpi_sge.1 h0
  have b := IntOp.cmpi_slt.1 h1
  rw [toInt_zero] at a
  rw [toInt_2000] at b
  exact ⟨a, b⟩

/-- A word that compares signed at least 3 has its signed value at least 3. -/
theorem ge_three_of_cmp (w : BitVec 32) (h : IntOp.cmpi .sge w 3#32 = 1#1) : 3 ≤ w.toInt := by
  have a := IntOp.cmpi_sge.1 h
  rw [toInt_three] at a
  exact a

/-! ## The five conjuncts -/

section
variable (x : FVec Ideal S64x512x2000 .f32) (lab : IVec S64x512 32) (sl : IVec S64 32)
  (g : FVec Ideal S64 .f32) (u : FVec Ideal S1 .f32)

/-- An `and` of two scalar bit arrays read at the one index. -/
theorem andi_ix0 (a b : IVec S_ 1) : andi a b ix0 = 1#1 ↔ a ix0 = 1#1 ∧ b ix0 = 1#1 := IntOp.andi_eq_one

/-- The predicate's bit is 1 exactly when each of its five reductions is 1; each reduction that is 1 had a 1 at
    every index; the elementwise facts, still as comparison bits. -/
theorem elementwise (h : fn (F := Ideal) x lab sl g u = fun _ => 1#1) :
    (∀ i, Ideal.cmp .olt (max (x i) (-(x i))) (Ideal.ofBits .f32 0x7F800000#32) = 1#1)
    ∧ (∀ i, Ideal.cmp .olt (max (g i) (-(g i))) (Ideal.ofBits .f32 0x7F800000#32) = 1#1)
    ∧ (∀ i, Ideal.cmp .olt (max (u i) (-(u i))) (Ideal.ofBits .f32 0x7F800000#32) = 1#1)
    ∧ (∀ i, IntOp.andi (IntOp.cmpi .sge (lab i) 0#32) (IntOp.cmpi .slt (lab i) 2000#32) = 1#1)
    ∧ (∀ i, IntOp.cmpi .sge (sl i) 3#32 = 1#1) := by
  have e := congrFun h ix0
  dsimp only [fn, fn_part1] at e
  simp only [andi_ix0] at e
  obtain ⟨⟨⟨⟨hx, hg⟩, hu⟩, hl⟩, hs⟩ := e
  exact ⟨fun i => Host.reduce_andi_all _ _ _ _ ix0 hx i, fun i => Host.reduce_andi_all _ _ _ _ ix0 hg i,
    fun i => Host.reduce_andi_all _ _ _ _ ix0 hu i, fun i => Host.reduce_andi_all _ _ _ _ ix0 hl i,
    fun i => Host.reduce_andi_all _ _ _ _ ix0 hs i⟩

/-! ## The facts -/

/-- Every entry of outputs is a real number. -/
theorem outputs_real (h : fn (F := Ideal) x lab sl g u = fun _ => 1#1) : ∀ i, ∃ r : ℝ, x i = (r : EReal) :=
  fun i => real_of_abs_lt_inf _ ((elementwise x lab sl g u h).1 i)

/-- Every entry of batch_gaussian_loss is a real number. -/
theorem gaussian_real (h : fn (F := Ideal) x lab sl g u = fun _ => 1#1) : ∀ i, ∃ r : ℝ, g i = (r : EReal) :=
  fun i => real_of_abs_lt_inf _ ((elementwise x lab sl g u h).2.1 i)

/-- The entry of batch_uniform_loss is a real number. -/
theorem uniform_real (h : fn (F := Ideal) x lab sl g u = fun _ => 1#1) : ∀ i, ∃ r : ℝ, u i = (r : EReal) :=
  fun i => real_of_abs_lt_inf _ ((elementwise x lab sl g u h).2.2.1 i)

/-- Every label, read signed, lies in [0, 2000). -/
theorem label_range (h : fn (F := Ideal) x lab sl g u = fun _ => 1#1) : ∀ i, 0 ≤ (lab i).toInt ∧ (lab i).toInt < 2000 :=
  fun i => range_of_cmp _ ((elementwise x lab sl g u h).2.2.2.1 i)

/-- Every sequence length, read signed, is at least 3. -/
theorem seqlen_ge (h : fn (F := Ideal) x lab sl g u = fun _ => 1#1) : ∀ i, 3 ≤ (sl i).toInt :=
  fun i => ge_three_of_cmp _ ((elementwise x lab sl g u h).2.2.2.2 i)

end

end Cert.PreFacts

end
-- ==== Proof.Bits.RowFns.lean ====
/-
  What one grid point of the kernel computes, as pure functions of what it reads.

  A grid point is one batch row. The body reads the row's word `w` of the length table, forms the threshold
  `w - 2` (32-bit, wrapping), zeroes two one-entry accumulators, and then visits the row's four chunks of 128
  positions: chunk k (rows 128k .. 128k+127 of the block) is visited only when the threshold exceeds 128k, and a
  visited chunk adds to the first accumulator the sum over its positions of  mask · (logsumexp − picked logit)
  and to the second the sum of  mask · picked logit,  where mask says that the position lies below the threshold.
  At the end each accumulator's entry is spread over a 128-lane output block.

  The functions below say this with the printed body's own value terms (its named payloads), as functions of the
  table word and of the four chunk pairs (logits, labels) the body loads; nothing about memory is said here.
-/
import proofs.«426013_j77464030151294_3_alg».proof.Proof.Gen.Kernel.Skeleton

noncomputable section

namespace Cert.Kernel.Row

open Idealize.ShloMosaic Cert.Kernel Cert.Kernel.Gen

variable {F : FTy → Type} [FloatOps F]

/-- The threshold of a row: its table word less two, in 32-bit arithmetic. -/
abbrev thr (w : BitVec 32) : BitVec 32 := Scalar.subi w 2#32

/-- The body visits the chunk starting at position `off` exactly when the threshold exceeds `off` (signed); this is
    the printed guard, word for word. -/
def live (v2 off : BitVec 32) : Prop :=
  Scalar.cmpi .ne (Scalar.extui (Scalar.cmpi .sgt v2 off) : BitVec 32) 0#32 = 1#1

instance (v2 off : BitVec 32) : Decidable (live v2 off) := by unfold live; infer_instance

/-- The class indices 0 .. 1999 along the last axis, which every chunk compares the labels with. -/
abbrev classIota : IVec S1x1x2000 32 := iota .tc S1x1x2000 32 [2] iota_S1x1x2000_d2_w32

/-- The first accumulator after chunk 0, 1, 2, 3 (each from the one before; the start is zero). -/
def ce1 (v2 : BitVec 32) (x0 : Vec F S1x128x2000 .f32) (l0 : Vec F S1x128x1 .i32) : FVec F S1x1 .f32 :=
  if live v2 0#32 then k0_pay4 v2 classIota x0 l0 (k0_pay18 (F := F)) else k0_pay18 (F := F)
def ce2 (v2 : BitVec 32) (x1 : Vec F S1x128x2000 .f32) (l1 : Vec F S1x128x1 .i32) (a : FVec F S1x1 .f32) : FVec F S1x1 .f32 :=
  if live v2 128#32 then k0_pay8 v2 classIota x1 l1 a else a
def ce3 (v2 : BitVec 32) (x2 : Vec F S1x128x2000 .f32) (l2 : Vec F S1x128x1 .i32) (a : FVec F S1x1 .f32) : FVec F S1x1 .f32 :=
  if live v2 256#32 then k0_pay12 v2 classIota x2 l2 a else a
def ce4 (v2 : BitVec 32) (x3 : Vec F S1x128x2000 .f32) (l3 : Vec F S1x128x1 .i32) (a : FVec F S1x1 .f32) : FVec F S1x1 .f32 :=
  if live v2 384#32 then k0_pay16 v2 classIota x3 l3 a else a

/-- The second accumulator after chunk 0, 1, 2, 3. -/
def pro1 (v2 : BitVec 32) (x0 : Vec F S1x128x2000 .f32) (l0 : Vec F S1x128x1 .i32) : FVec F S1x1 .f32 :=
  if live v2 0#32 then k0_pay20 (k0_pay5 v2 classIota x0 l0 (k0_pay19 (F := F))) else k0_pay19 (F := F)
def pro2 (v2 : BitVec 32) (x1 : Vec F S1x128x2000 .f32) (l1 : Vec F S1x128x1 .i32) (a : FVec F S1x1 .f32) : FVec F S1x1 .f32 :=
  if live v2 128#32 then k0_pay21 (k0_pay9 v2 classIota x1 l1 a) else a
def pro3 (v2 : BitVec 32) (x2 : Vec F S1x128x2000 .f32) (l2 : Vec F S1x128x1 .i32) (a : FVec F S1x1 .f32) : FVec F S1x1 .f32 :=
  if live v2 256#32 then k0_pay22 (k0_pay13 v2 classIota x2 l2 a) else a
def pro4 (v2 : BitVec 32) (x3 : Vec F S1x128x2000 .f32) (l3 : Vec F S1x128x1 .i32) (a : FVec F S1x1 .f32) : FVec F S1x1 .f32 :=
  if live v2 384#32 then k0_pay23 (k0_pay17 v2 classIota x3 l3 a) else a

/-- The row's two accumulators after all four chunks, from the table word and the four chunk pairs. -/
def ceAcc (w : BitVec 32) (x0 x1 x2 x3 : Vec F S1x128x2000 .f32) (l0 l1 l2 l3 : Vec F S1x128x1 .i32) : FVec F S1x1 .f32 :=
  ce4 (thr w) x3 l3 (ce3 (thr w) x2 l2 (ce2 (thr w) x1 l1 (ce1 (thr w) x0 l0)))
def proAcc (w : BitVec 32) (x0 x1 x2 x3 : Vec F S1x128x2000 .f32) (l0 l1 l2 l3 : Vec F S1x128x1 .i32) : FVec F S1x1 .f32 :=
  pro4 (thr w) x3 l3 (pro3 (thr w) x2 l2 (pro2 (thr w) x1 l1 (pro1 (thr w) x0 l0)))

/-- The two 128-lane output blocks the body stores: each accumulator's one entry on every lane. -/
def outCe (w : BitVec 32) (x0 x1 x2 x3 : Vec F S1x128x2000 .f32) (l0 l1 l2 l3 : Vec F S1x128x1 .i32) : FVec F S1x1x128 .f32 :=
  k0_pay25 (ceAcc w x0 x1 x2 x3 l0 l1 l2 l3)
def outPro (w : BitVec 32) (x0 x1 x2 x3 : Vec F S1x128x2000 .f32) (l0 l1 l2 l3 : Vec F S1x128x1 .i32) : FVec F S1x1x128 .f32 :=
  k0_pay1 (k0_pay24 (proAcc w x0 x1 x2 x3 l0 l1 l2 l3))

end Cert.Kernel.Row

end
-- ==== Proof.Bits.BodyDefs.lean ====
/-
  One grid point in terms of what its staging buffers hold.

  At a grid point the body is handed one row's block of logits (1 x 512 x 2000), the row's block of labels
  (1 x 512 x 1) and the whole length table. It reads the table at the row's own position, and the two blocks through
  four rectangles of 128 positions each, starting at positions 0, 128, 256, 384. The two output blocks it stores are
  the row functions of those eight slices and that word.
-/
import proofs.«426013_j77464030151294_3_alg».proof.Proof.Bits.RowFns
import Idealize.ShloMosaic.Lib.Pipeline.FrameBody
import Idealize.ShloMosaic.Lib.ValueIdx

noncomputable section

namespace Cert.Kernel.Row

open Idealize.ShloMosaic Idealize.ShloMosaic.ValueIdx Cert.Kernel Cert.Kernel.Gen

attribute [local instance] Cert.Kernel.Gen.facts

variable {F : FTy → Type} [FloatOps F]

/-- The length table's word for the row at grid point `i`. -/
def tblWord (i : grid0.Coords) (tb : S64.Idx → BitVec 32) : BitVec 32 := tb (ix1 (n := 64) (i 0))

/-- The four slices of 128 positions of a row's block of logits, -/
abbrev xChunk0 (X : S1x512x2000.Idx → Elt F .f32) : Vec F S1x128x2000 .f32 :=
  View.ld X (Rect.unit (s := S1x512x2000) ![0, 0, 0] S1x128x2000.size Facts₀.inb_S1x512x2000_S1x128x2000_0_0_0)
abbrev xChunk1 (X : S1x512x2000.Idx → Elt F .f32) : Vec F S1x128x2000 .f32 :=
  View.ld X (Rect.unit (s := S1x512x2000) ![0, 128, 0] S1x128x2000.size Facts₀.inb_S1x512x2000_S1x128x2000_0_128_0)
abbrev xChunk2 (X : S1x512x2000.Idx → Elt F .f32) : Vec F S1x128x2000 .f32 :=
  View.ld X (Rect.unit (s := S1x512x2000) ![0, 256, 0] S1x128x2000.size Facts₀.inb_S1x512x2000_S1x128x2000_0_256_0)
abbrev xChunk3 (X : S1x512x2000.Idx → Elt F .f32) : Vec F S1x128x2000 .f32 :=
  View.ld X (Rect.unit (s := S1x512x2000) ![0, 384, 0] S1x128x2000.size Facts₀.inb_S1x512x2000_S1x128x2000_0_384_0)

/-- and of its block of labels. -/
abbrev lChunk0 (Lb : S1x512x1.Idx → Elt F .i32) : Vec F S1x128x1 .i32 :=
  View.ld Lb (Rect.unit (s := S1x512x1) ![0, 0, 0] S1x128x1.size Facts₀.inb_S1x512x1_S1x128x1_0_0_0)
abbrev lChunk1 (Lb : S1x512x1.Idx → Elt F .i32) : Vec F S1x128x1 .i32 :=
  View.ld Lb (Rect.unit (s := S1x512x1) ![0, 128, 0] S1x128x1.size Facts₀.inb_S1x512x1_S1x128x1_0_128_0)
abbrev lChunk2 (Lb : S1x512x1.Idx → Elt F .i32) : Vec F S1x128x1 .i32 :=
  View.ld Lb (Rect.unit (s := S1x512x1) ![0, 256, 0] S1x128x1.size Facts₀.inb_S1x512x1_S1x128x1_0_256_0)
abbrev lChunk3 (Lb : S1x512x1.Idx → Elt F .i32) : Vec F S1x128x1 .i32 :=
  View.ld Lb (Rect.unit (s := S1x512x1) ![0, 384, 0] S1x128x1.size Facts₀.inb_S1x512x1_S1x128x1_0_384_0)

/-- The two output blocks of a grid point, from the table word and the two input blocks. -/
def pointCe (w : BitVec 32) (X : S1x512x2000.Idx → Elt F .f32) (Lb : S1x512x1.Idx → Elt F .i32) : FVec F S1x1x128 .f32 :=
  outCe w (xChunk0 X) (xChunk1 X) (xChunk2 X) (xChunk3 X) (lChunk0 Lb) (lChunk1 Lb) (lChunk2 Lb) (lChunk3 Lb)
def pointPro (w : BitVec 32) (X : S1x512x2000.Idx → Elt F .f32) (Lb : S1x512x1.Idx → Elt F .i32) : FVec F S1x1x128 .f32 :=
  outPro w (xChunk0 X) (xChunk1 X) (xChunk2 X) (xChunk3 X) (lChunk0 Lb) (lChunk1 Lb) (lChunk2 Lb) (lChunk3 Lb)

end Cert.Kernel.Row

end
-- ==== Proof.Bits.BodyRun.lean ====
/-
  The kernel body's run at one grid point.

  Holding the length table, the two input staging buffers, the two output staging buffers and the two one-entry
  accumulators, the body runs to its return without a fault; the table and the inputs are as they were; each output
  buffer has been overwritten whole, the first with the point's first output block and the second with its second
  (the row functions of the table word and the two input blocks); the accumulators hold something.
  The four guarded chunks are run both ways and joined: whichever way a guard goes, the accumulator read after it is
  the guarded update of the one read before it, which is how the row functions are written.
-/
import proofs.«426013_j77464030151294_3_alg».proof.Proof.Bits.BodyDefs
import proofs.«426013_j77464030151294_3_alg».proof.Proof.Gen.Kernel.Launch
import Idealize.ShloMosaic.Lib.Tactic
import Idealize.ShloMosaic.Lib.Pipeline.Kit
import Idealize.ShloMosaic.Lib.Pipeline.Value

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local instance] Cert.Kernel.Gen.facts

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section Cell

variable {sg : RefSig} {κ : Kind} {sp : Space} {S : Shape} {e : EltTy} {Val : EltTy → Type} [∀ e, Nonempty (Val e)]

/-- A buffer whose LAST store went through its whole rectangle reads, through that rectangle, that store's payload,
    whatever was stored before. -/
theorem readAt_writes_cons_unit_zero (v : View sg κ sp S e) {off : Fin S.rank → Nat} (h : off = fun _ => 0)
    (inb : ∀ a, off a + S.size a ≤ S.size a) (f : v.ty.Contents Val) (w : S.Idx → Val e) (L : List (View.Piece Val S e)) :
    v.readAt Val (Rect.unit off S.size inb).toLoadRect
      (v.writes Val f ((⟨Rect.unit off S.size inb, w⟩ : View.Piece Val S e) :: L)) = w := by
  rw [View.readAt_eq_ld, View.read_writes_eq_canon _ _ _ (fun y => ⟨_, List.mem_cons.mpr (Or.inl rfl), View.mem_set_unit_zero h inb y⟩),
    View.canon_cons_unit_zero h, View.ld_unit_zero h]

end Cell

theorem kernelRun (c : Dev nD) (i : grid0.Coords)
    (M2 : Memref sig .tc .vmem S1x512x2000 .f32) (h2 : M2.IsWhole) (M3 : Memref sig .tc .vmem S1x512x1 .i32) (h3 : M3.IsWhole)
    (M4 : Memref sig .tc .vmem S1x1x128 .f32) (h4 : M4.IsWhole) (M5 : Memref sig .tc .vmem S1x1x128 .f32) (h5 : M5.IsWhole)
    (tb : Bf (F := F) c (Memref.whole main_arg2)) (d2 : Bf (F := F) c M2) (d3 : Bf (F := F) c M3) (d4 : Bf (F := F) c M4) (d5 : Bf (F := F) c M5)
    (s6 : Bf (F := F) c (Memref.whole cc0_scratch0)) (s7 : Bf (F := F) c (Memref.whole cc0_scratch1))
    (W : Waits sig Unit) (Q : PUnit → sProp 𝕄) :
    iprop(pt c (Memref.whole main_arg2) tb ∗ pt c M2 d2 ∗ pt c M3 d3 ∗ pt c M4 d4 ∗ pt c M5 d5
        ∗ pt c (Memref.whole cc0_scratch0) s6 ∗ pt c (Memref.whole cc0_scratch1) s7 ∗ owes (c : Thread nD τ) 0 W
        ∗ (iprop(pt c (Memref.whole main_arg2) tb ∗ pt c M2 d2 ∗ pt c M3 d3
              ∗ pt c M4 (M4.view.writes (Elt F) d4 [⟨Rect.unit (s := S1x1x128) ![0, 0, 0] S1x1x128.size Facts₀.inb_S1x1x128_S1x1x128_0_0_0,
                    Row.pointCe (Row.tblWord i ((Memref.whole main_arg2).view.read (Elt F) tb)) (M2.view.read (Elt F) d2) (M3.view.read (Elt F) d3)⟩])
              ∗ pt c M5 (M5.view.writes (Elt F) d5 [⟨Rect.unit (s := S1x1x128) ![0, 0, 0] S1x1x128.size Facts₀.inb_S1x1x128_S1x1x128_0_0_0,
                    Row.pointPro (Row.tblWord i ((Memref.whole main_arg2).view.read (Elt F) tb)) (M2.view.read (Elt F) d2) (M3.view.read (Elt F) d3)⟩])
              ∗ (∃ f, pt c (Memref.whole cc0_scratch0) f) ∗ (∃ f, pt c (Memref.whole cc0_scratch1) f)
              ∗ owes (c : Thread nD τ) 0 W) -∗ Q ⟨⟩))
    ⊢ wp frame (wpE (defs₀ (F := F)) Variants.none c none) Set.univ
        (cc0__ragged_ce_kernel i (Memref.whole main_arg2) (Memref.isWhole_whole _) M2 h2 M3 h3 M4 h4 M5 h5
          (Memref.whole cc0_scratch0) (Memref.isWhole_whole _) (Memref.whole cc0_scratch1) (Memref.isWhole_whole _)) Q := by
  iintro ⟨Ht, H2, H3, H4, H5, H6, H7, HO, Hk⟩
  sl_exec
  have hz : (![0, 0] : Fin 2 → Nat) = fun _ => 0 := by funext a; fin_cases a <;> rfl
  -- The first accumulator. After its zeroing store it reads zero; read after a guarded chunk it is that chunk's update of
  -- the value read before it where the guard holds (the chunk's store went last, through the whole cell), and the value
  -- read before it where the guard fails (the cell is as it was).
  have e0 : kernelRun.sl.v59 (F := F) = k0_pay18 (F := F) := by
    unfold kernelRun.sl.v59 kernelRun.sl.H6_1
    exact View.readCov_unit_zero (S := S1x1) _ hz _ _
  have e1 : kernelRun.sl.v59_1 c i M2 M3 tb d2 d3 s6
      = Row.ce1 (kernelRun.sl.v2 c i tb) (Row.xChunk0 (M2.view.read (Elt F) d2)) (Row.lChunk0 (M3.view.read (Elt F) d3)) := by
    unfold kernelRun.sl.v59_1 kernelRun.sl.H6_1
    by_cases hc : kernelRun.sl.v14 c i tb = 1#1
    · rw [dif_pos hc, readAt_writes_cons_unit_zero (S := S1x1) _ hz, e0]
      unfold Row.ce1
      rw [if_pos (show Row.live (kernelRun.sl.v2 c i tb) 0#32 from hc)]
      rfl
    · rw [dif_neg hc, readAt_writes_cons_unit_zero (S := S1x1) _ hz]
      unfold Row.ce1
      rw [if_neg (show ¬ Row.live (kernelRun.sl.v2 c i tb) 0#32 from hc)]
  have e2 : kernelRun.sl.v59_2 c i M2 M3 tb d2 d3 s6
      = Row.ce2 (kernelRun.sl.v2 c i tb) (Row.xChunk1 (M2.view.read (Elt F) d2)) (Row.lChunk1 (M3.view.read (Elt F) d3))
          (kernelRun.sl.v59_1 c i M2 M3 tb d2 d3 s6) := by
    unfold kernelRun.sl.v59_2
    by_cases hc : kernelRun.sl.v17 c i tb = 1#1
    · rw [dif_pos hc, readAt_writes_cons_unit_zero (S := S1x1) _ hz]
      unfold Row.ce2
      rw [if_pos (show Row.live (kernelRun.sl.v2 c i tb) 128#32 from hc)]
      rfl
    · rw [dif_neg hc]
      unfold Row.ce2
      rw [if_neg (show ¬ Row.live (kernelRun.sl.v2 c i tb) 128#32 from hc)]
      rfl
  have e3 : kernelRun.sl.v59_3 c i M2 M3 tb d2 d3 s6
      = Row.ce3 (kernelRun.sl.v2 c i tb) (Row.xChunk2 (M2.view.read (Elt F) d2)) (Row.lChunk2 (M3.view.read (Elt F) d3))
          (kernelRun.sl.v59_2 c i M2 M3 tb d2 d3 s6) := by
    unfold kernelRun.sl.v59_3
    by_cases hc : kernelRun.sl.v20 c i tb = 1#1
    · rw [dif_pos hc, readAt_writes_cons_unit_zero (S := S1x1) _ hz]
      unfold Row.ce3
      rw [if_pos (show Row.live (kernelRun.sl.v2 c i tb) 256#32 from hc)]
      rfl
    · rw [dif_neg hc]
      unfold Row.ce3
      rw [if_neg (show ¬ Row.live (kernelRun.sl.v2 c i tb) 256#32 from hc)]
      rfl
  have e4 : kernelRun.sl.v24 c i M2 M3 tb d2 d3 s6
      = Row.ce4 (kernelRun.sl.v2 c i tb) (Row.xChunk3 (M2.view.read (Elt F) d2)) (Row.lChunk3 (M3.view.read (Elt F) d3))
          (kernelRun.sl.v59_3 c i M2 M3 tb d2 d3 s6) := by
    unfold kernelRun.sl.v24
    by_cases hc : kernelRun.sl.v23 c i tb = 1#1
    · rw [dif_pos hc, readAt_writes_cons_unit_zero (S := S1x1) _ hz]
      unfold Row.ce4
      rw [if_pos (show Row.live (kernelRun.sl.v2 c i tb) 384#32 from hc)]
      rfl
    · rw [dif_neg hc]
      unfold Row.ce4
      rw [if_neg (show ¬ Row.live (kernelRun.sl.v2 c i tb) 384#32 from hc)]
      rfl
  -- The second accumulator, the same way: the value a chunk stores is its sum added to the value read before it.
  have p0 : kernelRun.sl.v67 (F := F) = k0_pay19 (F := F) := by
    unfold kernelRun.sl.v67 kernelRun.sl.H7_1
    exact View.readCov_unit_zero (S := S1x1) _ hz _ _
  have p1 : kernelRun.sl.v67_1 c i M2 M3 tb d2 d3 s7
      = Row.pro1 (kernelRun.sl.v2 c i tb) (Row.xChunk0 (M2.view.read (Elt F) d2)) (Row.lChunk0 (M3.view.read (Elt F) d3)) := by
    unfold kernelRun.sl.v67_1 kernelRun.sl.H7_1
    by_cases hc : kernelRun.sl.v14 c i tb = 1#1
    · rw [dif_pos hc, readAt_writes_cons_unit_zero (S := S1x1) _ hz]
      unfold kernelRun.sl.r_1
      rw [p0]
      unfold Row.pro1
      rw [if_pos (show Row.live (kernelRun.sl.v2 c i tb) 0#32 from hc)]
      rfl
    · rw [dif_neg hc, readAt_writes_cons_unit_zero (S := S1x1) _ hz]
      unfold Row.pro1
      rw [if_neg (show ¬ Row.live (kernelRun.sl.v2 c i tb) 0#32 from hc)]
  have p2 : kernelRun.sl.v67_2 c i M2 M3 tb d2 d3 s7
      = Row.pro2 (kernelRun.sl.v2 c i tb) (Row.xChunk1 (M2.view.read (Elt F) d2)) (Row.lChunk1 (M3.view.read (Elt F) d3))
          (kernelRun.sl.v67_1 c i M2 M3 tb d2 d3 s7) := by
    unfold kernelRun.sl.v67_2
    by_cases hc : kernelRun.sl.v17 c i tb = 1#1
    · rw [dif_pos hc, readAt_writes_cons_unit_zero (S := S1x1) _ hz]
      unfold kernelRun.sl.r_2 Row.pro2
      rw [if_pos (show Row.live (kernelRun.sl.v2 c i tb) 128#32 from hc)]
      rfl
    · rw [dif_neg hc]
      unfold Row.pro2
      rw [if_neg (show ¬ Row.live (kernelRun.sl.v2 c i tb) 128#32 from hc)]
      rfl
  have p3 : kernelRun.sl.v67_3 c i M2 M3 tb d2 d3 s7
      = Row.pro3 (kernelRun.sl.v2 c i tb) (Row.xChunk2 (M2.view.read (Elt F) d2)) (Row.lChunk2 (M3.view.read (Elt F) d3))
          (kernelRun.sl.v67_2 c i M2 M3 tb d2 d3 s7) := by
    unfold kernelRun.sl.v67_3
    by_cases hc : kernelRun.sl.v20 c i tb = 1#1
    · rw [dif_pos hc, readAt_writes_cons_unit_zero (S := S1x1) _ hz]
      unfold kernelRun.sl.r_3 Row.pro3
      rw [if_pos (show Row.live (kernelRun.sl.v2 c i tb) 256#32 from hc)]
      rfl
    · rw [dif_neg hc]
      unfold Row.pro3
      rw [if_neg (show ¬ Row.live (kernelRun.sl.v2 c i tb) 256#32 from hc)]
      rfl
  have p4 : kernelRun.sl.v26 c i M2 M3 tb d2 d3 s7
      = Row.pro4 (kernelRun.sl.v2 c i tb) (Row.xChunk3 (M2.view.read (Elt F) d2)) (Row.lChunk3 (M3.view.read (Elt F) d3))
          (kernelRun.sl.v67_3 c i M2 M3 tb d2 d3 s7) := by
    unfold kernelRun.sl.v26
    by_cases hc : kernelRun.sl.v23 c i tb = 1#1
    · rw [dif_pos hc, readAt_writes_cons_unit_zero (S := S1x1) _ hz]
      unfold kernelRun.sl.r_4 Row.pro4
      rw [if_pos (show Row.live (kernelRun.sl.v2 c i tb) 384#32 from hc)]
      rfl
    · rw [dif_neg hc]
      unfold Row.pro4
      rw [if_neg (show ¬ Row.live (kernelRun.sl.v2 c i tb) 384#32 from hc)]
      rfl
  -- The table word the body reads is the row's own: the row number is below 64, so its 32-bit word is itself, and the
  -- one-entry rectangle at that offset holds exactly that position.
  have hr : kernelRun.sl.r c i tb = Row.tblWord i ((Memref.whole main_arg2).view.read (Elt F) tb) := by
    unfold kernelRun.sl.r Row.tblWord
    rw [View.readAt_apply]
    refine congrArg _ (funext fun (a : Fin 1) => Fin.ext ?_)
    obtain rfl : a = 0 := Subsingleton.elim _ _
    have hi : ((i 0 : Fin 64) : ℕ) < 64 := (i 0).isLt
    show (BitVec.ofNat 32 (i 0).val).toNat + 1 * 0 = (i 0).val
    rw [BitVec.toNat_ofNat]; omega
  -- so the threshold is the row's threshold,
  have hv2 : kernelRun.sl.v2 c i tb = Row.thr (Row.tblWord i ((Memref.whole main_arg2).view.read (Elt F) tb)) := by
    unfold kernelRun.sl.v2; rw [hr]
  -- and the two blocks stored last are the point's two output blocks.
  have key4 : k0_pay25 (kernelRun.sl.v24 c i M2 M3 tb d2 d3 s6)
      = Row.pointCe (Row.tblWord i ((Memref.whole main_arg2).view.read (Elt F) tb)) (M2.view.read (Elt F) d2) (M3.view.read (Elt F) d3) := by
    rw [e4, e3, e2, e1, hv2]; rfl
  have key5 : k0_pay1 (kernelRun.sl.r_5 c i M2 M3 tb d2 d3 s7)
      = Row.pointPro (Row.tblWord i ((Memref.whole main_arg2).view.read (Elt F) tb)) (M2.view.read (Elt F) d2) (M3.view.read (Elt F) d3) := by
    unfold kernelRun.sl.r_5
    rw [p4, p3, p2, p1, hv2]; rfl
  rw [key4, key5]
  -- The return: every buffer is handed back, the two accumulators at whatever they hold.
  sl_step
  iapply Hk
  isplitl [Ht]; · iexact Ht
  isplitl [H2]; · iexact H2
  isplitl [H3]; · iexact H3
  isplitl [H4]; · iexact H4
  isplitl [H5]; · iexact H5
  isplitl [H6]; · iexists _; iexact H6
  isplitl [H7]; · iexists _; iexact H7
  iexact HO

end Cert.Kernel.Body

end
-- ==== Proof.Bits.KData.lean ====
/-
  The pipeline's proof data.

  When the region is entered the label array has been reshaped by the one host operation before it; nothing else has
  changed. At grid point t (one batch row) the two input windows' staging buffers hold row t's blocks of logits and
  labels; the body leaves them in place and overwrites the two output windows' buffers with the row's two output
  blocks, the row functions of the table's word for row t and those two blocks. Between points the invariant is the
  length table, held whole and unchanged, and the scoped buffers no window stages (the two one-entry accumulators),
  at whatever they hold. Nothing is owed to other cores.
-/
import proofs.«426013_j77464030151294_3_alg».proof.Proof.Bits.BodyRun
import Idealize.ShloMosaic.Lib.Pipeline.Regions
import Idealize.ShloMosaic.Lib.Pipeline.FrameBody
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local instance] Cert.Kernel.Gen.facts

local notation "𝕄" => MT nD τ sig Unit (Elt F) ℕ (UR sig nD τ) ℕ

variable (m : (ℓ : Loc nD τ sig) → Buf (Elt F) ℓ)

/-- Core `c`'s buffers at launch, as a valuation; -/
abbrev V₀ (c : Dev nD) : Valuation τ sig (Elt F) := fun b => m ((c : Dev nD), b)
/-- and when the region is entered: the reshape of the labels has run. -/
abbrev V (c : Dev nD) (b : Ref sig .tc) : Buf (Elt F) ((c : Thread nD τ).loc b) := StableHlo.after hostOps0 (V₀ m c) b

/-- The length table's contents (the program runs on one device). -/
abbrev tbl : pre0.Contents (Elt F) := fun k => m (((0 : Dev nD) : Thread nD τ).loc (pre0.ref k))

/-- They are admissible: no index map reads the table, so nothing is asked of them. -/
abbrev adm : (p : Fin 1) → (pcfgs (F := F) p).Adm := fun _ => ⟨tbl m, show ok0 (F := F) (tbl m) from (ok0.eq_1 (tbl m)).mpr trivial⟩

/-- The pipeline at those contents. -/
abbrev cfg : Cfg sig Λ₀ := cfg0 (adm m 0)

/-- Window `w`'s block at point `t`, read off its array as the region finds it. -/
def iblk (c : Dev nD) (w : Fin (cfg m).W) (t : Fin (cfg m).N) : (((cfg m).win w).xblock ((cfg m).grid.coords t)).Idx → Elt F ((cfg m).win w).elt :=
  (((cfg m).win w).blk t).view.read (Elt F) (V m c (Pipeline.arrRef spec0 w))

/-- The invariant between points: the table whole at its contents, and the scoped buffers no window stages. -/
def Φc (c : Dev nD) : sProp 𝕄 :=
  iprop(Pipeline.prefHeld (Ix := Unit) (Name := ℕ) (U := UR sig nD τ) (Lvl := ℕ) pre0 c (fun _ => fullShare) (tbl m)
    ∗ Pipeline.scopedRest (Ix := Unit) (Name := ℕ) (U := UR sig nD τ) (Lvl := ℕ) (Val := Elt F) spec0 c)

/-- The proof data on core `c`. -/
def dats (_ : Fin 1) (c : Dev nD) : Dat τ (Elt F) Unit ℕ (UR sig nD τ) ℕ (cfg m) c where
  A w := V m c (Pipeline.arrRef spec0 w)
  after w t := match w with
    | ⟨0, _⟩ => iblk m c 0 t
    | ⟨1, _⟩ => iblk m c 1 t
    | ⟨2, _⟩ => Row.pointCe (Row.tblWord (grid0.coords t) (tbl m 0)) (iblk m c 0 t) (iblk m c 1 t)
    | ⟨3, _⟩ => Row.pointPro (Row.tblWord (grid0.coords t) (tbl m 0)) (iblk m c 0 t) (iblk m c 1 t)
  Φ _ := Φc m c
  q _ := fullShare
  owed _ := 0

theorem A_eq (c : Dev nD) (w : Fin (cfg m).W) : (dats m 0 c).A w = V m c (Pipeline.arrRef spec0 w) := by
  dsimp only [dats]

theorem after_0 (c : Dev nD) (t : Fin (cfg m).N) : (dats m 0 c).after (0 : Fin 4) t = iblk m c 0 t := by
  first | (dsimp only [dats]; done) | rfl
theorem after_1 (c : Dev nD) (t : Fin (cfg m).N) : (dats m 0 c).after (1 : Fin 4) t = iblk m c 1 t := by
  first | (dsimp only [dats]; done) | rfl
theorem after_2 (c : Dev nD) (t : Fin (cfg m).N) :
    (dats m 0 c).after (2 : Fin 4) t = Row.pointCe (Row.tblWord (grid0.coords t) (tbl m 0)) (iblk m c 0 t) (iblk m c 1 t) := by
  first | (dsimp only [dats]; done) | rfl
theorem after_3 (c : Dev nD) (t : Fin (cfg m).N) :
    (dats m 0 c).after (3 : Fin 4) t = Row.pointPro (Row.tblWord (grid0.coords t) (tbl m 0)) (iblk m c 0 t) (iblk m c 1 t) := by
  first | (dsimp only [dats]; done) | rfl

/-- Each input window's current staging buffer holds its block at every point. -/
theorem before_0 (c : Dev nD) (t : Fin (cfg m).N) (d) : (dats m 0 c).before (0 : Fin 4) t d = iblk m c 0 t :=
  ((dats m 0 c).before_in_eq_fetched (0 : Fin 4) rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin (cfg m).N) (d) : (dats m 0 c).before (1 : Fin 4) t d = iblk m c 1 t :=
  ((dats m 0 c).before_in_eq_fetched (1 : Fin 4) rfl (fun _ => rfl) (fun _ _ _ => rfl)
      (fun t => by rw [after_1]; unfold Dat.blockOf iblk; rw [A_eq]; try rfl) t d).trans
    (by unfold Dat.fetched Dat.blockOf iblk; rw [A_eq]; try rfl)

/-- A whole memref owned at contents `X` is its buffer held at some raw contents that read `X`. -/
theorem owns_of_whole {c : Dev nD} {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ (M.view.loc (c : Thread nD τ) ↦{fullShare} f)) := by
  unfold owns; rw [h.set_eq_univ]

/-- The three zero offsets, as the constant-zero function. -/
theorem hz3 : (![0, 0, 0] : Fin 3 → Nat) = fun _ => 0 := by funext a; fin_cases a <;> rfl

/-- The whole rectangle of a 1 x 1 x 128 buffer holds every index: its one piece covers. -/
theorem cover_one (v : S1x1x128.Idx → Elt F .f32) (y : S1x1x128.Idx) :
    ∃ p ∈ ([⟨Rect.unit (s := S1x1x128) ![0, 0, 0] S1x1x128.size Facts₀.inb_S1x1x128_S1x1x128_0_0_0, v⟩] : List (View.Piece (Elt F) S1x1x128 .f32)),
      y ∈ p.1.set :=
  ⟨_, List.mem_singleton_self _, View.mem_set_unit_zero hz3 Facts₀.inb_S1x1x128_S1x1x128_0_0_0 y⟩

/-- One store through the whole rectangle of a 1 x 1 x 128 buffer reads back as what was stored, whatever was there. -/
theorem read_one_write {sp : Space} (M : Memref sig .tc sp S1x1x128 .f32) (g : M.view.ty.Contents (Elt F)) (v : S1x1x128.Idx → Elt F .f32) :
    M.view.read (Elt F) (M.view.writes (Elt F) g
        [⟨Rect.unit (s := S1x1x128) ![0, 0, 0] S1x1x128.size Facts₀.inb_S1x1x128_S1x1x128_0_0_0, v⟩]) = v :=
  (View.read_writes_eq_canon M.view g
      ([⟨Rect.unit (s := S1x1x128) ![0, 0, 0] S1x1x128.size Facts₀.inb_S1x1x128_S1x1x128_0_0_0, v⟩] : List (View.Piece (Elt F) S1x1x128 .f32))
      (cover_one v)).trans
    (View.canon_unit_zero hz3 Facts₀.inb_S1x1x128_S1x1x128_0_0_0 v)

/-- The library's body obligation, at every point. -/
theorem body_obligation (c : Dev nD) : BodyObligation (dats (F := F) m 0 c) (defs₀ (F := F)) Variants.none () Set.univ := fun t => by
  rw [bigSep_W0, bigSep_W0]
  simp only [before_0, before_1]
  rw [after_0, after_1, after_2, after_3]
  rw [show (dats m 0 c).Φ t.castSucc = Φc m c from rfl, show (dats m 0 c).Φ t.succ = Φc m c from rfl]
  unfold Φc Dat.owesAt Pipeline.owesWithin Pipeline.prefHeld
  rw [scopedRest0_eq]
  rw [show (dats m 0 c).owed t.castSucc = 0 from rfl, show (dats m 0 c).owed t.succ = 0 from rfl]
  rw [show (Finset.univ : Finset (Fin pre0.K)) = {(0 : Fin pre0.K)} from rfl, bigSep_singleton]
  unfold owns
  simp only [fun j => (hstage0_0 j).set_eq_univ, fun j => (hstage0_1 j).set_eq_univ, fun j => (hstage0_2 j).set_eq_univ,
    fun j => (hstage0_3 j).set_eq_univ]
  rw [show defs₀ (F := F) Proc.tc 0 (t, (cfg m).slots t)
      = cc0__ragged_ce_kernel (grid0.coords t) (Memref.whole main_arg2) (Memref.isWhole_whole _)
          (stage0_0 ((cfg m).slots t 0)) (hstage0_0 _) (stage0_1 ((cfg m).slots t 1)) (hstage0_1 _)
          (stage0_2 ((cfg m).slots t 2)) (hstage0_2 _) (stage0_3 ((cfg m).slots t 3)) (hstage0_3 _)
          (Memref.whole cc0_scratch0) (Memref.isWhole_whole _) (Memref.whole cc0_scratch1) (Memref.isWhole_whole _) from rfl]
  iintro ⟨⟨Ht, ⟨%f6, H6⟩, ⟨%f7, H7⟩⟩, ⟨%W, %hW, HO⟩, ⟨%d0, %g0, %hg0, H0⟩, ⟨%d1, %g1, %hg1, H1⟩, ⟨%d2, %g2, %hg2, H2⟩, ⟨%d3, %g3, %hg3, H3⟩⟩
  iapply (Body.kernelRun c (grid0.coords t) (stage0_0 ((cfg m).slots t 0)) (hstage0_0 _) (stage0_1 ((cfg m).slots t 1)) (hstage0_1 _)
    (stage0_2 ((cfg m).slots t 2)) (hstage0_2 _) (stage0_3 ((cfg m).slots t 3)) (hstage0_3 _) (tbl m 0) g0 g1 g2 g3 f6 f7 W _)
  isplitl [Ht]; · iexact Ht
  isplitl [H0]; · iexact H0
  isplitl [H1]; · iexact H1
  isplitl [H2]; · iexact H2
  isplitl [H3]; · iexact H3
  isplitl [H6]; · iexact H6
  isplitl [H7]; · iexact H7
  isplitl [HO]; · iexact HO
  iintro ⟨Ht, H0, H1, H2, H3, ⟨%f6', H6⟩, ⟨%f7', H7⟩, HO⟩
  isplitl [Ht H6 H7]
  · isplitl [Ht]; · iexact Ht
    isplitl [H6]; · iexists f6'; iexact H6
    iexists f7'; iexact H7
  isplitl [HO]
  · iexists W; isplitr; · ipureintro; exact fun _ _ => Or.inl trivial
    iexact HO
  isplitl [H0]
  · iexists g0; isplitr; · ipureintro; exact hg0
    iexact H0
  isplitl [H1]
  · iexists g1; isplitr; · ipureintro; exact hg1
    iexact H1
  isplitl [H2]
  · iexists _; isplitr; swap; · iexact H2
    ipureintro
    refine (read_one_write _ g2 _).trans ?_
    rw [hg0, hg1]
    rfl
  · iexists _; isplitr; swap; · iexact H3
    ipureintro
    refine (read_one_write _ g3 _).trans ?_
    rw [hg0, hg1]
    rfl

end Cert.Kernel.Run

end
-- ==== Proof.Bits.KLaunch.lean ====
/-
  The kernel program's run.

  @main is one host operation (the labels reshaped), the kernel region, and thirty-eight host operations. Between
  these the core holds all its unscoped buffers at a valuation: as launched; then with the reshape's result; through the
  region the four windows' arrays go to the pipeline, the length table to the pipeline's invariant (whole, so that the
  closing operations, which read it again, find it as launched) and every other buffer passes by untouched; after the
  region the two result arrays hold what the write-backs left and everything else is as before; the closing
  operations then run on that valuation. Every weakly fair execution terminates and every unscoped buffer ends at
  the valuation so computed.
-/
import proofs.«426013_j77464030151294_3_alg».proof.Proof.Bits.KData

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local instance] Cert.Kernel.Gen.facts

local notation "𝕄" => MT nD τ sig Unit (Elt F) ℕ (UR sig nD τ) ℕ

variable (m : (ℓ : Loc nD τ sig) → Buf (Elt F) ℓ) (ρ : Dev nD → PrngReg)

/-- The pipeline library's algebra is the certificate's whole algebra. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0

/-- What rides beside the buffers: the core owing nothing. -/
abbrev R (c : Dev nD) : sProp 𝕄 := iprop(∃ W, owes (c : Thread nD τ) (0 : CellTallies nD τ sig Unit) W)

/-- The valuation when the region is entered, -/
abbrev V1 (c : Dev nD) : Valuation τ sig (Elt F) := StableHlo.after hostOps0 (V₀ m c)
/-- when it is left: the windows' arrays at what the write-backs left, -/
abbrev V2 (c : Dev nD) : Valuation τ sig (Elt F) :=
  Pipeline.withArrays spec0 c (V1 m c) (fun w => (dats m 0 c).arrAt w (cfg m).N)
/-- and at the end. -/
abbrev V3 (c : Dev nD) : Valuation τ sig (Elt F) := StableHlo.after hostOps1 (V2 m c)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The host operation before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (V₀ m) R

/-- The host operations after it, over the same buffers (the length table among them). -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) fresh1 (V2 m) R

/-- The one host operation before the region writes the reshaped labels only: the length table is as launched. -/
theorem V1_tbl (c : Dev nD) (k : Fin pre0.K) : V1 m c (Proc.devRef .tc (pre0.ref k)) = V₀ m c (Proc.devRef .tc (pre0.ref k)) := by
  obtain rfl : k = 0 := Subsingleton.elim _ _
  unfold V1
  after_results

/-- The program runs on one device. -/
theorem dev_eq_zero (c : Dev nD) : c = 0 := Subsingleton.elim _ _

/-- The region-entry valuation with the windows' arrays replaced by any contents `Ff`, as a function on the TensorCore's
    references. -/
abbrev Wf (c : Dev nD) (Ff : (w : Fin 4) → Buf (Elt F) ((spec0 w).arr.view.loc (c : Thread nD τ))) (b : Ref sig .tc) :
    Buf (Elt F) ((c : Thread nD τ).loc b) := Pipeline.withArrays spec0 c (V1 m c) Ff b

/-- The unscoped buffers held at the region-entry valuation with the windows' arrays replaced by `Ff` are those arrays at
    `Ff`, the length table as launched, and the rest as the region found it: a window's array takes the new contents,
    every other buffer keeps what it held, and the table is no window's array and is not written by the reshape. -/
theorem held_with (c : Dev nD) (Ff : (w : Fin 4) → Buf (Elt F) ((spec0 w).arr.view.loc (c : Thread nD τ))) :
    (StableHlo.held (c : Thread nD τ) (Pipeline.ucRefs τ sig) (Pipeline.withArrays spec0 c (V1 m c) Ff) : sProp 𝕄)
      = iprop((bigSep Finset.univ fun w : Fin 4 => ((c : Thread nD τ).loc (Pipeline.arrRef spec0 w)) ↦{fullShare} Ff w)
          ∗ Pipeline.prefHeld (Ix := Unit) (Name := ℕ) (U := UR sig nD τ) (Lvl := ℕ) pre0 c (fun _ => fullShare) (tbl m)
          ∗ Pipeline.unscopedRestP (Ix := Unit) (Name := ℕ) (U := UR sig nD τ) (Lvl := ℕ) pre0 spec0 c (V m c)) := by
  obtain rfl := dev_eq_zero c
  have e1 : (unscopedBufs (0 : Dev nD) (Wf m 0 Ff) : sProp 𝕄)
      = StableHlo.held (((0 : Dev nD) : Dev nD) : Thread nD τ) (Pipeline.ucRefs τ sig) (Pipeline.withArrays spec0 (0 : Dev nD) (V1 m 0) Ff) :=
    Pipeline.unscopedBufs_held (0 : Dev nD) (Pipeline.withArrays spec0 (0 : Dev nD) (V1 m 0) Ff)
  have e2 : (unscopedBufs (0 : Dev nD) (Wf m 0 Ff) : sProp 𝕄)
      = iprop((bigSep Finset.univ fun w : Fin 4 => ((((0 : Dev nD) : Dev nD) : Thread nD τ).loc (Pipeline.arrRef spec0 w)) ↦{fullShare} Wf m 0 Ff (Pipeline.arrRef spec0 w))
          ∗ Pipeline.unscopedRest spec0 (0 : Dev nD) (Wf m 0 Ff)) :=
    Pipeline.unscopedBufs_split (Pipeline.pin (pcfgs (F := F)) (adm m)) 0 (launch0 (F := F)).win.arr_unscoped (launch0 (F := F)).win.arr_inj (0 : Dev nD) (Wf m 0 Ff)
  have e3 : (Pipeline.unscopedRest spec0 (0 : Dev nD) (Wf m 0 Ff) : sProp 𝕄)
      = iprop(Pipeline.prefHeld pre0 (0 : Dev nD) (fun _ => fullShare) (fun k => Wf m 0 Ff (pre0.ref k)) ∗ Pipeline.unscopedRestP pre0 spec0 (0 : Dev nD) (Wf m 0 Ff)) :=
    Pipeline.unscopedRest_split (launch0 (F := F)).pre (0 : Dev nD) (Wf m 0 Ff)
  rw [← e1, e2, e3]
  refine congrArg₂ (fun A B : sProp 𝕄 => iprop(A ∗ B)) (bigSep_congr fun w _ => ?_)
    (congrArg₂ (fun A B : sProp 𝕄 => iprop(A ∗ B)) (bigSep_congr fun k _ => ?_) (bigSep_congr fun b hb => ?_))
  · exact congrArg (fun v => ((((((0 : Dev nD) : Dev nD) : Thread nD τ).loc (Pipeline.arrRef spec0 w)) ↦{fullShare} v) : sProp 𝕄))
      (Pipeline.withArrays_arr spec0 (launch0 (F := F)).win.arr_inj (0 : Dev nD) (V1 m 0) Ff w)
  · exact congrArg (fun v => ((((((0 : Dev nD) : Dev nD) : Thread nD τ).loc (pre0.ref k)) ↦{fullShare} v) : sProp 𝕄))
      ((Pipeline.withArrays_of_ne spec0 (0 : Dev nD) (V1 m 0) Ff (pre0.ref k) (fun w h => (launch0 (F := F)).pre.disj k w h.symm)).trans (V1_tbl m 0 k))
  · exact congrArg (fun v => ((((((0 : Dev nD) : Dev nD) : Thread nD τ).loc b) ↦{fullShare} v) : sProp 𝕄))
      (Pipeline.withArrays_of_ne spec0 (0 : Dev nD) (V1 m 0) Ff b
        (fun w h => (Finset.mem_sdiff.mp (Finset.mem_sdiff.mp hb).1).2 (Finset.mem_image.mpr ⟨w, Finset.mem_univ _, h⟩)))

/-- The proof data's arrays at any contents are the four arrays' buffers held whole at them. -/
theorem arrays_pts (c : Dev nD) (Ff : (w : Fin 4) → Buf (Elt F) ((spec0 w).arr.view.loc (c : Thread nD τ))) :
    ((dats m 0 c).arrays Ff : sProp 𝕄)
      = bigSep Finset.univ fun w : Fin 4 => ((c : Thread nD τ).loc (Pipeline.arrRef spec0 w)) ↦{fullShare} Ff w :=
  Pipeline.arrays_eq (Pipeline.pin (pcfgs (F := F)) (adm m)) (dats m) 0 c (launch0 (F := F)).arr_whole ((dats m 0 c).share_full fun _ => rfl) Ff

/-- The kernel has no semaphore of its own. -/
abbrev osem : Fin 0 → SemLoc sig := fun k => k.elim0

/-- THE REGION. -/
def reg0 : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 0
  osem := osem
  ho := ⟨fun k => k.elim0, fun k => k.elim0, fun k => k.elim0⟩
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(emp)
  Y c := Pipeline.prefHeld (Ix := Unit) (Name := ℕ) (U := UR sig nD τ) (Lvl := ℕ) pre0 c (fun _ => fullShare) (tbl m)
  Z c := Pipeline.unscopedRestP (Ix := Unit) (Name := ℕ) (U := UR sig nD τ) (Lvl := ℕ) pre0 spec0 c (V m c)
  hentry c := by
    obtain rfl := dev_eq_zero c
    rw [show StableHlo.held (((0 : Dev nD) : Dev nD) : Thread nD τ) (Pipeline.ucRefs τ sig) (V1 m 0) = unscopedBufs (0 : Dev nD) (V m 0)
      from (Pipeline.unscopedBufs_held (0 : Dev nD) _).symm]
    have hsplit := (Pipeline.arrays_of_unscopedBufs (pcfgs (F := F)) (adm m) (dats m) (launch0 (F := F)).win (launch0 (F := F)).arr_whole (0 : Dev nD)
      ((dats m 0 0).share_full fun _ => rfl) (V m 0) fun _ => rfl).trans
        (sep_mono .rfl (Entails.of_eq (Pipeline.unscopedRest_split (launch0 (F := F)).pre (0 : Dev nD) (V m 0))))
    iintro ⟨⟨Hub, HO⟩, -, -⟩
    ihave H := hsplit $$ Hub
    icases H with ⟨Ha, Hp, Hz⟩
    imodintro
    isplitl [Ha]; · iexact Ha
    isplitl [Hp]
    · rw [show (fun k => V m 0 (pre0.ref k)) = tbl m from funext fun k => V1_tbl m 0 k]
      iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = Φc m c from rfl]; unfold Φc
    iintro ⟨-, Hp, Hr⟩
    isplitl [Hp] <;> iassumption
  hout c := by
    rw [show (dats m 0 c).Φ (Fin.last (cfg m).N) = Φc m c from rfl]; unfold Φc Pipeline.ownSems0
    rw [show (Finset.univ : Finset (Fin 0)) = ∅ from rfl, BI.bigSep_empty]
    iintro ⟨Hp, Hr⟩
    isplitl [Hp]; · iexact Hp
    isplitr; · iempintro
    iexact Hr
  hexit c := by
    rw [show StableHlo.held (c : Thread nD τ) (Pipeline.ucRefs τ sig) (V2 m c)
        = StableHlo.held (c : Thread nD τ) (Pipeline.ucRefs τ sig) (Pipeline.withArrays spec0 c (V1 m c) (fun w => (dats m 0 c).arrAt w (cfg m).N)) from rfl,
      held_with m c (fun w => (dats m 0 c).arrAt w (cfg m).N), arrays_pts m c]
    iintro ⟨Ha, HO, Hp, Hz⟩
    imodintro
    isplitr [HO]
    · isplitl [Ha]; · iexact Ha
      isplitl [Hp] <;> iassumption
    · unfold Pipeline.Dat.owesAt Pipeline.owesWithin
      icases HO with ⟨%W, -, HO⟩; iexists W; iexact HO

/-- @main as the list of the three. -/
abbrev segs : List (Pipeline.Seg (pcfgs (F := F)) (adm m) (dats m) () defs₀ 𝒱₀ L lv) := [.host (seg0 m), .region (reg0 m), .host (seg1 m)]

set_option backward.isDefEq.respectTransparency.types false in
/-- Every weakly fair execution of @main terminates, and every unscoped buffer of the core ends at the valuation
    computed above. -/
theorem run_main : θ_run defs (onTc (τ := τ) (main (F := F))) ⟨m, fun _ => 0, ρ⟩
    (fun r => ∀ c : Dev nD, ∀ b ∈ Pipeline.ucRefs τ sig, r.2.mem ((c : Dev nD), b) = V3 m c b) :=
  Pipeline.θ_run_regions_kit (pcfgs (F := F)) (adm m) (dats m) () (cellOf_inj (adm m)) EP defs₀ 𝒱₀ L lv m ρ main (segs m)
    (fun c Q => by rw [main_segs (adm m) (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      rw [ownU_emb₁]
      iintro H
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = V3 m c b)
    (hfin := fun c s' => by
      have hread := pointsTo_read_all (Ix := Unit) (Name := ℕ) (U := UR sig nD τ) (Lvl := ℕ) (Val := Elt F)
        (Pipeline.ucRefs τ sig) (fun b => ((c : Thread nD τ).1, b)) (fun b => V3 m c b) s' fullShare
      unfold StableHlo.held
      refine hread.trans ?_
      iintro ⟨%hr, HSI⟩
      imodintro
      isplitr; · ipureintro; exact hr
      iexact HSI)
    (hQ := fun _ h => h)

end Cert.Kernel.Run

end
-- ==== Proof.Bits.KFrame.lean ====
/-
  The kernel program leaves its arguments as it found them.

  The logits are an input window's array: the pipeline never writes an input's array, so after the region it holds
  what it held at entry, which the reshape before the region had not touched. The labels, the length table and the
  two loss vectors are no window's array; the region passes them by, and neither the reshape nor the closing
  operations write them.
-/
import proofs.«426013_j77464030151294_3_alg».proof.Proof.Bits.KLaunch

set_option maxRecDepth 16384

noncomputable section

namespace Cert.Kernel.Run

open Cert.Kernel Cert.Kernel.Gen
open Idealize.ShloMosaic Idealize.ShloMosaic.TcCoe Idealize.ShloMosaic.StableHlo
open Idealize.SL.Sem
open Idealize.ShloMosaic.Pipeline (Dat Cfg Window)

variable {F : FTy → Type} [FloatOps F]

attribute [local instance] Cert.Kernel.Gen.facts

variable (m : (ℓ : Loc nD τ sig) → Buf (Elt F) ℓ) (ρ : Dev nD → PrngReg)

/-- The closing operations write none of the five arguments, -/
theorem tail_kept (V : Valuation τ sig (Elt F)) :
    StableHlo.after (hostOps1 (F := F)) V (Proc.devRef .tc main_arg0) = V (Proc.devRef .tc main_arg0)
    ∧ StableHlo.after (hostOps1 (F := F)) V (Proc.devRef .tc main_arg1) = V (Proc.devRef .tc main_arg1)
    ∧ StableHlo.after (hostOps1 (F := F)) V (Proc.devRef .tc main_arg2) = V (Proc.devRef .tc main_arg2)
    ∧ StableHlo.after (hostOps1 (F := F)) V (Proc.devRef .tc main_arg3) = V (Proc.devRef .tc main_arg3)
    ∧ StableHlo.after (hostOps1 (F := F)) V (Proc.devRef .tc main_arg4) = V (Proc.devRef .tc main_arg4) := by
  refine ⟨?_, ?_, ?_, ?_, ?_⟩ <;> after_results

/-- nor does the reshape before the region. -/
theorem head_kept (V : Valuation τ sig (Elt F)) :
    StableHlo.after (hostOps0 (F := F)) V (Proc.devRef .tc main_arg0) = V (Proc.devRef .tc main_arg0)
    ∧ StableHlo.after (hostOps0 (F := F)) V (Proc.devRef .tc main_arg1) = V (Proc.devRef .tc main_arg1)
    ∧ StableHlo.after (hostOps0 (F := F)) V (Proc.devRef .tc main_arg2) = V (Proc.devRef .tc main_arg2)
    ∧ StableHlo.after (hostOps0 (F := F)) V (Proc.devRef .tc main_arg3) = V (Proc.devRef .tc main_arg3)
    ∧ StableHlo.after (hostOps0 (F := F)) V (Proc.devRef .tc main_arg4) = V (Proc.devRef .tc main_arg4) := by
  refine ⟨?_, ?_, ?_, ?_, ?_⟩ <;> after_results

/-- Through the region a buffer that is no window's array keeps its contents; -/
theorem V2_other (c : Dev nD) (b : Ref sig .tc) (hb : ∀ w, Pipeline.arrRef spec0 w ≠ b) :
    V2 m c (Proc.devRef .tc b) = V1 m c (Proc.devRef .tc b) :=
  Pipeline.withArrays_of_ne spec0 c (V1 m c) (fun w => (dats m 0 c).arrAt w (cfg m).N) b hb

/-- the logits' array, an input window's, ends the region as it entered it. -/
theorem V2_arg0 (c : Dev nD) : V2 m c (Proc.devRef .tc main_arg0) = V1 m c (Proc.devRef .tc main_arg0) :=
  (Pipeline.withArrays_arr spec0 (launch0 (F := F)).win.arr_inj c (V1 m c) (fun w => (dats m 0 c).arrAt w (cfg m).N) (0 : Fin 4)).trans
    ((dats m 0 c).arrAt_in (0 : Fin 4) rfl _)

/-- An unscoped buffer of the TensorCore is among the buffers the run accounts for. -/
theorem mem_uc (b : Ref sig .tc) (hb : (Proc.devRef (τ := τ) .tc b).isScoped = false) :
    Proc.devRef (τ := τ) .tc b ∈ Pipeline.ucRefs τ sig :=
  Finset.mem_filter.mpr ⟨StableHlo.devRef_mem_tcRefs b, by rw [hb]; exact Bool.false_ne_true⟩

/-- The frame: every weakly fair execution terminates, nothing faulting, and the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    have hk := tail_kept (F := F) (V2 m c)
    have hh := head_kept (F := F) (V₀ m c)
    refine ⟨?_, ?_, ?_, ?_, ?_⟩
    · exact (h c _ (mem_uc main_arg0 rfl)).trans (hk.1.trans ((V2_arg0 m c).trans hh.1))
    · exact (h c _ (mem_uc main_arg1 rfl)).trans (hk.2.1.trans ((V2_other m c main_arg1 (by decide)).trans hh.2.1))
    · exact (h c _ (mem_uc main_arg2 rfl)).trans (hk.2.2.1.trans ((V2_other m c main_arg2 (by decide)).trans hh.2.2.1))
    · exact (h c _ (mem_uc main_arg3 rfl)).trans (hk.2.2.2.1.trans ((V2_other m c main_arg3 (by decide)).trans hh.2.2.2.1))
    · exact (h c _ (mem_uc main_arg4 rfl)).trans (hk.2.2.2.2.trans ((V2_other m c main_arg4 (by decide)).trans hh.2.2.2.2)))
    (run_main m ρ)

end Cert.Kernel.Run

end
-- ==== Proof.Bridge.lean ====
/-
  The two programs meet at the specification.

  The precondition says every logit and every entry of the two loss vectors is finite, every label is a class
  0 .. 1999 and every sequence length is at least 3; so the inputs are real arrays, and both programs' three results
  are the specification's three real numbers of those arrays (the kernel's by its row sums and closing operations,
  the reference's stretch by stretch). Run from memories that agree on the arguments they therefore end with equal
  results. The reference's frame is its run with the results dropped; the two kernel programs' frames are the run of
  the pipeline with the proof data that names what every grid point leaves.
-/
import proofs.«426013_j77464030151294_3_alg».proof.Defs
import proofs.«426013_j77464030151294_3_alg».proof.Proof.KValue
import proofs.«426013_j77464030151294_3_alg».proof.Proof.RefValue
import proofs.«426013_j77464030151294_3_alg».proof.Proof.PreFacts
import proofs.«426013_j77464030151294_3_alg».proof.Proof.Bits.KFrame

noncomputable section

namespace Cert.Proof.Bridge

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

/-- What the precondition gives: the inputs as real arrays, the labels as classes, the lengths at least 3. -/
theorem inputs_of_pre (x : FVec Ideal Cert.Pre_finite_inputs.S64x512x2000 .f32) (lab : IVec Cert.Pre_finite_inputs.S64x512 32)
    (sl : IVec Cert.Pre_finite_inputs.S64 32) (g : FVec Ideal Cert.Pre_finite_inputs.S64 .f32) (u : FVec Ideal Cert.Pre_finite_inputs.S1 .f32)
    (h : Cert.Pre_finite_inputs.fn (F := Ideal) x lab sl g u = fun _ => 1#1) :
    ∃ (xr : Fin 64 → Fin 512 → Fin 2000 → ℝ) (lb : Fin 64 → Fin 512 → Fin 2000) (gr : Fin 64 → ℝ) (ur : Fin 1 → ℝ),
      (∀ (b : Fin 64) (s : Fin 512) (v : Fin 2000), x (ix3 b s v) = ((xr b s v : ℝ) : EReal))
      ∧ (∀ (b : Fin 64) (s : Fin 512), (lab (ix2 b s)).toInt = ((lb b s).val : ℤ))
      ∧ (∀ b : Fin 64, 3 ≤ (sl (ix1 b)).toInt)
      ∧ (∀ b : Fin 64, g (ix1 b) = ((gr b : ℝ) : EReal))
      ∧ (∀ j : Fin 1, u (ix1 j) = ((ur j : ℝ) : EReal)) := by
  choose xr hxr using fun i => Cert.PreFacts.outputs_real x lab sl g u h i
  choose gr hgr using fun i => Cert.PreFacts.gaussian_real x lab sl g u h i
  choose ur hur using fun i => Cert.PreFacts.uniform_real x lab sl g u h i
  have hl := Cert.PreFacts.label_range x lab sl g u h
  refine ⟨fun b s v => xr (ix3 b s v), fun b s => ⟨(lab (ix2 b s)).toInt.toNat, ?_⟩, fun b => gr (ix1 b), fun j => ur (ix1 j),
    fun b s v => hxr _, fun b s => ?_, fun b => Cert.PreFacts.seqlen_ge x lab sl g u h _, fun b => hgr _, fun j => hur _⟩
  · have := hl (ix2 b s); omega
  · have := hl (ix2 b s)
    show (lab (ix2 b s)).toInt = (((lab (ix2 b s)).toInt.toNat : ℕ) : ℤ)
    omega

/-- The word-level kernel program's frame. -/
theorem frame_p : Cert.frame_Kernel := fun m ρ _ => Cert.Kernel.Run.frame (F := Bits) m ρ

/-- The idealized kernel program's frame. -/
theorem frame_pi : Cert.frame_KernelIdeal := fun m ρ _ => Cert.KernelIdeal.Run.frame (F := Ideal) m ρ

/-- Every device is the one device. -/
theorem dev0 (c : Dev Cert.KernelIdeal.nD) : c = 0 := Subsingleton.elim _ _

/-- The reference's frame: its run, read over the real numbers, with the results dropped. -/
theorem frame_ri : Cert.frame_ReferenceIdeal := by
  intro m ρ hpre
  obtain ⟨xr, lb, gr, ur, hx, hlab, hsl, hg, hu⟩ := inputs_of_pre _ _ _ _ _ (hpre 0)
  refine (θ_run (Cert.ReferenceIdeal.defs (F := Ideal)) _ _).mono (fun r h c => (h c).2.2.2)
    (Cert.ReferenceIdeal.RefValue.run_spec m ρ xr lb gr ur
      (fun c => by rw [dev0 c]; exact hx) (fun c => by rw [dev0 c]; exact hlab) (fun c => by rw [dev0 c]; exact hsl)
      (fun c => by rw [dev0 c]; exact hg) (fun c => by rw [dev0 c]; exact hu))

/-- Run from memories that agree on the arguments, the idealized kernel program and the idealized reference end with
    equal results: each result is the specification's number of the real inputs. -/
theorem algebraic : Cert.algebraic_KernelIdeal_ReferenceIdeal := by
  intro m ρ m' ρ' hpre hagree
  obtain ⟨xr, lb, gr, ur, hx, hlab, hsl, hg, hu⟩ := inputs_of_pre _ _ _ _ _ (hpre 0)
  have a0 := (hagree 0).1
  have a1 := (hagree 0).2.1
  have a2 := (hagree 0).2.2.1
  have a3 := (hagree 0).2.2.2.1
  have a4 := (hagree 0).2.2.2.2
  refine ⟨_, _, _, Cert.KernelIdeal.KValue.kernel_spec m ρ xr lb gr ur
      (fun c => by rw [dev0 c]; exact hx) (fun c => by rw [dev0 c]; exact hlab) (fun c => by rw [dev0 c]; exact hsl)
      (fun c => by rw [dev0 c]; exact hg) (fun c => by rw [dev0 c]; exact hu), ?_⟩
  refine (θ_run (Cert.ReferenceIdeal.defs (F := Ideal)) _ _).mono (fun r h c => ?_)
    (Cert.ReferenceIdeal.RefValue.run_spec m' ρ' xr lb gr ur
      (fun c => by rw [dev0 c, a0]; exact hx) (fun c => by rw [dev0 c, a1]; exact hlab) (fun c => by rw [dev0 c, a2]; exact hsl)
      (fun c => by rw [dev0 c, a3]; exact hg) (fun c => by rw [dev0 c, a4]; exact hu))
  obtain ⟨h0, h1, h2, hrest⟩ := h c
  obtain rfl := dev0 c
  refine ⟨h0.trans ?_, h1.trans ?_, h2.trans ?_, hrest⟩ <;> (rw [a2]; try rfl)

end Cert.Proof.Bridge

end
-- ==== Proof.lean ====
/- The proof of `Cert.Claim` (proofs.«426013_j77464030151294_3_alg».proof.Defs) — frame_Kernel ∧ frame_KernelIdeal ∧ frame_ReferenceIdeal ∧ preserves_Kernel_KernelIdeal ∧ algebraic_KernelIdeal_ReferenceIdeal —: hand-written, untrusted.

   THE FUNCTION. Inputs: logits x[64, 512, 2000], labels in 0 .. 1999, sequence lengths ≥ 3 (threshold thr = length − 2 ≥ 1),
   and two loss vectors g[64], u[1]. Per row b:  ce[b] = Σ_{s < thr b} ((M + log Σ_v exp (x_v − M)) − x_label),
   pro[b] = Σ_{s < thr b} x_label,  M the position's largest logit. Results:  rec = (Σ_b ce[b] / thr b / thr b) / 64,
   avg = (Σ_b pro[b] / thr b) / 64,  loss = c₁ · rec + c₂ · (Σ g / 64) + c₃ · (Σ u / 1)  (Proof/Spec.lean, over ℝ).

   THE KERNEL computes it on a grid of 64 points, one row each: it reads the row's word of the length table, zeroes two
   one-entry accumulators, visits each of the row's four chunks of 128 positions only when the threshold exceeds the
   chunk's start (a chunk it skips would have added 0, all its masks being 0), and spreads each accumulator over a
   128-lane output block; thirty-eight host operations then take lane 0, divide by max (thr, 1) = thr, average and
   weigh. THE REFERENCE computes it with a log-softmax, a gather at the label and the mask  position < thr  over whole
   arrays. Both are proved equal to the coercion of the real-number specification, so they are equal to each other.

   THE FRAMES. No frame is generated for this kernel (its closing host operations read the prefetched length table
   again), so the launch is proved by hand over the library's theorem for @main as a list of segments
   (Proof/KLaunch.lean): host, region, host; the table rides in the pipeline's invariant and is handed back whole.
   The body's run at a grid point is Proof/BodyRun.lean, the proof data and body obligation Proof/KData.lean, the
   arguments unchanged Proof/KFrame.lean: one text generic in the float family, and Proof/Bits/ is that text for
   the word-level program (made by scratch/to_bits.py). The reference's generated run module does not elaborate; its
   run is taken from a cut-down copy (Proof/RefRunGen.lean) and read stretch by stretch (Proof/RefOps.lean,
   Proof/RefStretchA/B/C.lean, Proof/RefValue.lean). The ledger is empty, so `preserves` is `True`.
   The five conjuncts are assembled in Proof/Bridge.lean. -/
import proofs.«426013_j77464030151294_3_alg».proof.Defs
import proofs.«426013_j77464030151294_3_alg».proof.Proof.Gen.Kernel
import proofs.«426013_j77464030151294_3_alg».proof.Proof.Gen.Kernel.Skeleton
import proofs.«426013_j77464030151294_3_alg».proof.Proof.Gen.Kernel.Launch
import proofs.«426013_j77464030151294_3_alg».proof.Proof.Gen.Kernel.Flash
import proofs.«426013_j77464030151294_3_alg».proof.Proof.Gen.KernelIdeal
import proofs.«426013_j77464030151294_3_alg».proof.Proof.Gen.KernelIdeal.Skeleton
import proofs.«426013_j77464030151294_3_alg».proof.Proof.Gen.KernelIdeal.Launch
import proofs.«426013_j77464030151294_3_alg».proof.Proof.Gen.KernelIdeal.Flash
import proofs.«426013_j77464030151294_3_alg».proof.Proof.Gen.ReferenceIdeal
import proofs.«426013_j77464030151294_3_alg».proof.Proof.Gen.Pre_finite_inputs
import Idealize.ShloMosaic.Adequacy
import Idealize.ShloMosaic.Init

import proofs.«426013_j77464030151294_3_alg».proof.Proof.Bridge

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Bridge.frame_p, Bridge.frame_pi, Bridge.frame_ri, trivial, Bridge.algebraic⟩

end Cert.Proof

end
